-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x56x56 : Shape := ⟨4, ![16, 256, 56, 56]⟩
abbrev S256 : Shape := ⟨1, ![256]⟩
abbrev S256x256 : Shape := ⟨2, ![256, 256]⟩
abbrev S_ : Shape := ⟨0, ![]⟩

class Facts : Prop where
  bcast_S_S16x256x56x56 : S_.BroadcastsInDim S16x256x56x56 (![] : Fin 0 → Fin S16x256x56x56.rank)
  reducesTo_S16x256x56x56_S_d0_1_2_3 : S16x256x56x56.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x56x56 .f32) (main_arg1 : FVec F S256 .f32) (main_arg2 : FVec F S256 .f32) (main_arg3 : FVec F S256x256 .f32) (main_arg4 : FVec F S256 .f32) : IVec S_ 1 :=
  let main_v0 : FVec F S16x256x56x56 .f32 := Host.absf main_arg0
  let main_cst : FVec F S_ .f32 := constant S_ .f32 0x7F800000#32
  let main_v1 : FVec F S16x256x56x56 .f32 := broadcastInDim S16x256x56x56 ![] bcast_S_S16x256x56x56 main_cst
  let main_v2 : IVec S16x256x56x56 1 := cmpf .olt main_v0 main_v1
  let main_c : IVec S_ 1 := constantI S_ 1 1#1
  let main_v3 : IVec S_ 1 := (fun x v => Host.reduce IntOp.andi x v reducesTo_S16x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x256x56x56 : Shape := ⟨4, ![16, 256, 56, 56]⟩
abbrev S256 : Shape := ⟨1, ![256]⟩
abbrev S256x256 : Shape := ⟨2, ![256, 256]⟩
abbrev S16x256x3136 : Shape := ⟨3, ![16, 256, 3136]⟩
abbrev S256x1 : Shape := ⟨2, ![256, 1]⟩
abbrev S256x2x128 : Shape := ⟨3, ![256, 2, 128]⟩
abbrev S2x256x128 : Shape := ⟨3, ![2, 256, 128]⟩
abbrev S1x128x3136 : Shape := ⟨3, ![1, 128, 3136]⟩
abbrev S1x256x3136 : Shape := ⟨3, ![1, 256, 3136]⟩
abbrev S128x3136 : Shape := ⟨2, ![128, 3136]⟩
abbrev S128 : Shape := ⟨1, ![128]⟩
abbrev S128x1 : Shape := ⟨2, ![128, 1]⟩
abbrev S256x2 : Shape := ⟨2, ![256, 2]⟩
abbrev S1x256x128 : Shape := ⟨3, ![1, 256, 128]⟩
abbrev S256x128 : Shape := ⟨2, ![256, 128]⟩
abbrev S256x3136 : Shape := ⟨2, ![256, 3136]⟩

abbrev nBuf : Space → Nat
  | .hbm => 15
  | .vmem => 10
  | .smem => 0
  | _ => 0

abbrev bufTy : (tb : Table) → Fin (tcTables nBuf tb) → BufTy
  | .hbm, ⟨0, _⟩ => ⟨S16x256x56x56, .f32⟩
  | .hbm, ⟨1, _⟩ => ⟨S256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256x3136, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S256x256, .bf16⟩
  | .hbm, ⟨10, _⟩ => ⟨S256x2x128, .bf16⟩
  | .hbm, ⟨11, _⟩ => ⟨S2x256x128, .bf16⟩
  | .hbm, ⟨12, _⟩ => ⟨S16x256x3136, .bf16⟩
  | .hbm, ⟨13, _⟩ => ⟨S16x256x56x56, .bf16⟩
  | .hbm, ⟨14, _⟩ => ⟨S16x256x56x56, .f32⟩
  | .local _ .vmem, ⟨0, _⟩ => ⟨S1x128x3136, .f32⟩
  | .local _ .vmem, ⟨1, _⟩ => ⟨S1x128x3136, .f32⟩
  | .local _ .vmem, ⟨2, _⟩ => ⟨S1x128x3136, .f32⟩
  | .local _ .vmem, ⟨3, _⟩ => ⟨S1x128x3136, .f32⟩
  | .local _ .vmem, ⟨4, _⟩ => ⟨S256x1, .f32⟩
  | .local _ .vmem, ⟨5, _⟩ => ⟨S256x1, .f32⟩
  | .local _ .vmem, ⟨6, _⟩ => ⟨S2x256x128, .bf16⟩
  | .local _ .vmem, ⟨7, _⟩ => ⟨S256x1, .f32⟩
  | .local _ .vmem, ⟨8, _⟩ => ⟨S1x256x3136, .bf16⟩
  | .local _ .vmem, ⟨9, _⟩ => ⟨S1x256x3136, .bf16⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x3136 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x256x56x56_S16x256x3136 : S16x256x56x56.ShapeCasts S16x256x3136
  shapeCasts_S256_S256x1 : S256.ShapeCasts S256x1
  bitsLt_bf16_f32 : FTy.bits .bf16 < FTy.bits .f32
  shapeCasts_S256x256_S256x2x128 : S256x256.ShapeCasts S256x2x128
  transposes_S256x2x128_S2x256x128_1_0_2 : S256x2x128.Transposes [1, 0, 2] S2x256x128
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  reduces_S128x3136_S128 : S128x3136.Reduces [1] S128
  shapeCasts_S128_S128x1 : S128.ShapeCasts S128x1
  concatenates_S128x1_S128x1_S256x1_d0 : Shape.Concatenates [S128x1, S128x1] S256x1 0
  iota_S256x256_d0_w32 : S256x256.Iotas .tc 32 [0]
  natLt_1_32 : 1 < 32
  iota_S256x256_d1_w32 : S256x256.Iotas .tc 32 [1]
  concatenates_S256x1_S256x1_S256x2_d1 : Shape.Concatenates [S256x1, S256x1] S256x2 1
  slices_S256x2_o0_0_S256x1 : S256x2.Slices ![0, 0] S256x1
  slices_S256x2_o0_1_S256x1 : S256x2.Slices ![0, 1] S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  slices_S256x1_o0_0_S128x1 : S256x1.Slices ![0, 0] S128x1
  broadcasts_S128x1_S128x3136 : S128x1.Broadcasts S128x3136
  slices_S256x1_o128_0_S128x1 : S256x1.Slices ![128, 0] S128x1
  inb_S2x256x128_S1x256x128_0_0_0 : ∀ a, (![0, 0, 0] : Fin 3 → Nat) a + S1x256x128.size a ≤ S2x256x128.size a
  h_S1x256x128 : 0 < S1x256x128.numel
  shapeCasts_S1x256x128_S256x128 : S1x256x128.ShapeCasts S256x128
  inb_S2x256x128_S1x256x128_1_0_0 : ∀ a, (![1, 0, 0] : Fin 3 → Nat) a + S1x256x128.size a ≤ S2x256x128.size a
  broadcasts_S256x1_S256x3136 : S256x1.Broadcasts S256x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  shapeCasts_S256x3136_S1x256x3136 : S256x3136.ShapeCasts S1x256x3136
  packedbf16_S1x256x3136_S1x256x3136_0_0_0 : (Rect.unit (s := S1x256x3136) ![0, 0, 0] S1x256x3136.size inb_S1x256x3136_S1x256x3136_0_0_0).PackedRows (EltTy.packing .bf16)
  shapeCasts_S16x256x3136_S16x256x56x56 : S16x256x3136.ShapeCasts S16x256x56x56
  dot_S256x256_S256x2_S256x2_1_0_0_1_n_n_wf : DotDims.WF S256x256 S256x2 S256x2 [1] [0] [0] [1] [] []
  dot_S256x128_S128x3136_S256x3136_1_0_0_1_n_n_wf : DotDims.WF S256x128 S128x3136 S256x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3136.size a ≤ S16x256x3136.size a
  hwx0_0 : ∀ i : grid0.Coords, EltTy.bits .f32 = 32 ∨ (Rect.block (s := S16x256x3136) S1x128x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3136.size a ≤ S16x256x3136.size a
  hwx0_1 : ∀ i : grid0.Coords, EltTy.bits .f32 = 32 ∨ (Rect.block (s := S16x256x3136) S1x128x3136.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256x128.size a ≤ S2x256x128.size a
  hwx0_4 : ∀ i : grid0.Coords, EltTy.bits .bf16 = 32 ∨ (Rect.block (s := S2x256x128) S2x256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x3136.size a ≤ S16x256x3136.size a
  hwx0_6 : ∀ i : grid0.Coords, EltTy.bits .bf16 = 32 ∨ (Rect.block (s := S16x256x3136) S1x256x3136.size (cc0_transform_6 i) (hinb0_6 i)).WholeWords (EltTy.packing .bf16)

variable [Facts₀]

def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf
def dot_S256x128_S128x3136_S256x3136_1_0_0_1_n_n : DotDims S256x128 S128x3136 S256x3136 where
  lhsContracting := [1]
  rhsContracting := [0]
  lhsNonContracting := [0]
  rhsNonContracting := [1]
  lhsBatch := []
  rhsBatch := []
  wf := dot_S256x128_S128x3136_S256x3136_1_0_0_1_n_n_wf

abbrev win0_0 : Pipeline.Window sig grid0 :=
  Pipeline.Window.ofSpec (Memref.whole main_v0) S1x128x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x3136.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2x256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256x3136.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x256x56x56 : Shape := ⟨4, ![16, 256, 56, 56]⟩
abbrev S256 : Shape := ⟨1, ![256]⟩
abbrev S256x256 : Shape := ⟨2, ![256, 256]⟩
abbrev S16x256x3136 : Shape := ⟨3, ![16, 256, 3136]⟩
abbrev S_ : Shape := ⟨0, ![]⟩
abbrev S16x256x3200 : Shape := ⟨3, ![16, 256, 3200]⟩
abbrev S256x1 : Shape := ⟨2, ![256, 1]⟩
abbrev S16x256x1 : Shape := ⟨3, ![16, 256, 1]⟩
abbrev S1x256x640 : Shape := ⟨3, ![1, 256, 640]⟩
abbrev S1x256x1 : Shape := ⟨3, ![1, 256, 1]⟩
abbrev S256x640 : Shape := ⟨2, ![256, 640]⟩
abbrev S4x1 : Shape := ⟨2, ![4, 1]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S16x256x56x56, .f32⟩
  | .hbm, ⟨1, _⟩ => ⟨S256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256x3136, .f32⟩
  | .hbm, ⟨6, _⟩ => ⟨S_, .i32⟩
  | .hbm, ⟨7, _⟩ => ⟨S_, .f32⟩
  | .hbm, ⟨8, _⟩ => ⟨S16x256x3200, .f32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S16x256x1, .f32⟩
  | .hbm, ⟨13, _⟩ => ⟨S16x256x1, .f32⟩
  | .hbm, ⟨14, _⟩ => ⟨S16x256x3200, .f32⟩
  | .hbm, ⟨15, _⟩ => ⟨S16x256x3136, .f32⟩
  | .hbm, ⟨16, _⟩ => ⟨S16x256x56x56, .f32⟩
  | .local _ .vmem, ⟨0, _⟩ => ⟨S1x256x640, .f32⟩
  | .local _ .vmem, ⟨1, _⟩ => ⟨S1x256x640, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x640, .f32⟩
  | .local _ .vmem, ⟨7, _⟩ => ⟨S1x256x640, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S256x1, .f32⟩
  | .local _ .vmem, ⟨13, _⟩ => ⟨S256x1, .f32⟩
  | .local _ .vmem, ⟨14, _⟩ => ⟨S256x256, .f32⟩
  | .local _ .vmem, ⟨15, _⟩ => ⟨S256x1, .f32⟩
  | .local _ .vmem, ⟨16, _⟩ => ⟨S1x256x640, .f32⟩
  | .local _ .vmem, ⟨17, _⟩ => ⟨S1x256x640, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 5], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x640 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S16x256x56x56_S16x256x3136 : S16x256x56x56.ShapeCasts S16x256x3136
  pads_S16x256x3136_S16x256x3200_000_000_0640 : S16x256x3136.Pads (![0, 0, 0] : Fin 3 → Nat) ![0, 0, 64] ![0, 0, 0] S16x256x3200
  h_S_ : 0 < S_.numel
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  shapeCasts_S1x256x1_S256x1 : S1x256x1.ShapeCasts S256x1
  reduces_S256x640_S256 : S256x640.Reduces [1] S256
  shapeCasts_S256x1_S1x256x1 : S256x1.ShapeCasts S1x256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  slices_S256x1_o0_0_S4x1 : S256x1.Slices ![0, 0] S4x1
  reduces_S4x1_S1 : S4x1.Reduces [0] S1
  shapeCasts_S1_S1x1 : S1.ShapeCasts S1x1
  broadcasts_S1x1_S4x1 : S1x1.Broadcasts S4x1
  slices_S256x1_o4_0_S4x1 : S256x1.Slices ![4, 0] S4x1
  slices_S256x1_o8_0_S4x1 : S256x1.Slices ![8, 0] S4x1
  slices_S256x1_o12_0_S4x1 : S256x1.Slices ![12, 0] S4x1
  slices_S256x1_o16_0_S4x1 : S256x1.Slices ![16, 0] S4x1
  slices_S256x1_o20_0_S4x1 : S256x1.Slices ![20, 0] S4x1
  slices_S256x1_o24_0_S4x1 : S256x1.Slices ![24, 0] S4x1
  slices_S256x1_o28_0_S4x1 : S256x1.Slices ![28, 0] S4x1
  slices_S256x1_o32_0_S4x1 : S256x1.Slices ![32, 0] S4x1
  slices_S256x1_o36_0_S4x1 : S256x1.Slices ![36, 0] S4x1
  slices_S256x1_o40_0_S4x1 : S256x1.Slices ![40, 0] S4x1
  slices_S256x1_o44_0_S4x1 : S256x1.Slices ![44, 0] S4x1
  slices_S256x1_o48_0_S4x1 : S256x1.Slices ![48, 0] S4x1
  slices_S256x1_o52_0_S4x1 : S256x1.Slices ![52, 0] S4x1
  slices_S256x1_o56_0_S4x1 : S256x1.Slices ![56, 0] S4x1
  slices_S256x1_o60_0_S4x1 : S256x1.Slices ![60, 0] S4x1
  slices_S256x1_o64_0_S4x1 : S256x1.Slices ![64, 0] S4x1
  slices_S256x1_o68_0_S4x1 : S256x1.Slices ![68, 0] S4x1
  slices_S256x1_o72_0_S4x1 : S256x1.Slices ![72, 0] S4x1
  slices_S256x1_o76_0_S4x1 : S256x1.Slices ![76, 0] S4x1
  slices_S256x1_o80_0_S4x1 : S256x1.Slices ![80, 0] S4x1
  slices_S256x1_o84_0_S4x1 : S256x1.Slices ![84, 0] S4x1
  slices_S256x1_o88_0_S4x1 : S256x1.Slices ![88, 0] S4x1
  slices_S256x1_o92_0_S4x1 : S256x1.Slices ![92, 0] S4x1
  slices_S256x1_o96_0_S4x1 : S256x1.Slices ![96, 0] S4x1
  slices_S256x1_o100_0_S4x1 : S256x1.Slices ![100, 0] S4x1
  slices_S256x1_o104_0_S4x1 : S256x1.Slices ![104, 0] S4x1
  slices_S256x1_o108_0_S4x1 : S256x1.Slices ![108, 0] S4x1
  slices_S256x1_o112_0_S4x1 : S256x1.Slices ![112, 0] S4x1
  slices_S256x1_o116_0_S4x1 : S256x1.Slices ![116, 0] S4x1
  slices_S256x1_o120_0_S4x1 : S256x1.Slices ![120, 0] S4x1
  slices_S256x1_o124_0_S4x1 : S256x1.Slices ![124, 0] S4x1
  slices_S256x1_o128_0_S4x1 : S256x1.Slices ![128, 0] S4x1
  slices_S256x1_o132_0_S4x1 : S256x1.Slices ![132, 0] S4x1
  slices_S256x1_o136_0_S4x1 : S256x1.Slices ![136, 0] S4x1
  slices_S256x1_o140_0_S4x1 : S256x1.Slices ![140, 0] S4x1
  slices_S256x1_o144_0_S4x1 : S256x1.Slices ![144, 0] S4x1
  slices_S256x1_o148_0_S4x1 : S256x1.Slices ![148, 0] S4x1
  slices_S256x1_o152_0_S4x1 : S256x1.Slices ![152, 0] S4x1
  slices_S256x1_o156_0_S4x1 : S256x1.Slices ![156, 0] S4x1
  slices_S256x1_o160_0_S4x1 : S256x1.Slices ![160, 0] S4x1
  slices_S256x1_o164_0_S4x1 : S256x1.Slices ![164, 0] S4x1
  slices_S256x1_o168_0_S4x1 : S256x1.Slices ![168, 0] S4x1
  slices_S256x1_o172_0_S4x1 : S256x1.Slices ![172, 0] S4x1
  slices_S256x1_o176_0_S4x1 : S256x1.Slices ![176, 0] S4x1
  slices_S256x1_o180_0_S4x1 : S256x1.Slices ![180, 0] S4x1
  slices_S256x1_o184_0_S4x1 : S256x1.Slices ![184, 0] S4x1
  slices_S256x1_o188_0_S4x1 : S256x1.Slices ![188, 0] S4x1
  slices_S256x1_o192_0_S4x1 : S256x1.Slices ![192, 0] S4x1
  slices_S256x1_o196_0_S4x1 : S256x1.Slices ![196, 0] S4x1
  slices_S256x1_o200_0_S4x1 : S256x1.Slices ![200, 0] S4x1
  slices_S256x1_o204_0_S4x1 : S256x1.Slices ![204, 0] S4x1
  slices_S256x1_o208_0_S4x1 : S256x1.Slices ![208, 0] S4x1
  slices_S256x1_o212_0_S4x1 : S256x1.Slices ![212, 0] S4x1
  slices_S256x1_o216_0_S4x1 : S256x1.Slices ![216, 0] S4x1
  slices_S256x1_o220_0_S4x1 : S256x1.Slices ![220, 0] S4x1
  slices_S256x1_o224_0_S4x1 : S256x1.Slices ![224, 0] S4x1
  slices_S256x1_o228_0_S4x1 : S256x1.Slices ![228, 0] S4x1
  slices_S256x1_o232_0_S4x1 : S256x1.Slices ![232, 0] S4x1
  slices_S256x1_o236_0_S4x1 : S256x1.Slices ![236, 0] S4x1
  slices_S256x1_o240_0_S4x1 : S256x1.Slices ![240, 0] S4x1
  slices_S256x1_o244_0_S4x1 : S256x1.Slices ![244, 0] S4x1
  slices_S256x1_o248_0_S4x1 : S256x1.Slices ![248, 0] S4x1
  slices_S256x1_o252_0_S4x1 : S256x1.Slices ![252, 0] S4x1
  concatenates_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S4x1_S256x1_d0 : Shape.Concatenates (S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: S4x1 :: []) S256x1 0
  broadcasts_S256x1_S256x640 : S256x1.Broadcasts S256x640
  inb_S256x256_S256x256_0_0 : ∀ a, (![0, 0] : Fin 2 → Nat) a + S256x256.size a ≤ S256x256.size a
  h_S256x256 : 0 < S256x256.numel
  shapeCasts_S256x640_S1x256x640 : S256x640.ShapeCasts S1x256x640
  slices_S16x256x3200_S16x256x3136_0_0_0 : S16x256x3200.Slices ![0, 0, 0] S16x256x3136
  shapeCasts_S16x256x3136_S16x256x56x56 : S16x256x3136.ShapeCasts S16x256x56x56
  dot_S256x256_S256x640_S256x640_1_0_0_1_n_n_wf : DotDims.WF S256x256 S256x640 S256x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S16x256x3200.size a
  hwx0_0 : ∀ i : grid0.Coords, EltTy.bits .f32 = 32 ∨ (Rect.block (s := S16x256x3200) S1x256x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x256x1.size a
  hwx0_1 : ∀ i : grid0.Coords, EltTy.bits .f32 = 32 ∨ (Rect.block (s := S16x256x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x256x1.size a
  hwx0_2 : ∀ i : grid0.Coords, EltTy.bits .f32 = 32 ∨ (Rect.block (s := S16x256x1) S1x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x640.size a ≤ S16x256x3200.size a
  hwx1_0 : ∀ i : grid1.Coords, EltTy.bits .f32 = 32 ∨ (Rect.block (s := S16x256x3200) S1x256x640.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S16x256x1.size a
  hwx1_1 : ∀ i : grid1.Coords, EltTy.bits .f32 = 32 ∨ (Rect.block (s := S16x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S16x256x1.size a
  hwx1_2 : ∀ i : grid1.Coords, EltTy.bits .f32 = 32 ∨ (Rect.block (s := S16x256x1) S1x256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x640.size a ≤ S16x256x3200.size a
  hwx1_7 : ∀ i : grid1.Coords, EltTy.bits .f32 = 32 ∨ (Rect.block (s := S16x256x3200) S1x256x640.size (cc1_transform_7 i) (hinb1_7 i)).WholeWords (EltTy.packing .f32)

variable [Facts₀]

def dot_S256x256_S256x640_S256x640_1_0_0_1_n_n : DotDims S256x256 S256x640 S256x640 where
  lhsContracting := [1]
  rhsContracting := [0]
  lhsNonContracting := [0]
  rhsNonContracting := [1]
  lhsBatch := []
  rhsBatch := []
  wf := dot_S256x256_S256x640_S256x640_1_0_0_1_n_n_wf

abbrev win0_0 : Pipeline.Window sig grid0 :=
  Pipeline.Window.ofSpec (Memref.whole main_v1) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5_0) S1x256x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x256x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x256x640.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.KernelOut.lean ====
/-
  What the fused normalize-and-project kernel's body leaves in its output block, as a function of its input blocks.

  Each grid point holds one sample: two half-channel input blocks (channels 0..127 and 128..255, both cut from the same
  array), the affine parameters and the bias as columns, the projection weights as two K-halves, and one output block.
  The body only loads its inputs and stores once, the whole output block: `stored` is that store's value over the
  loads, `out0_6` the buffer it leaves. Stated for any float instance.
-/
import proofs.«156338_g2000302674448580_pallasbulk_969_14_alg».proof.Proof.Gen.Kernel.Launch
import proofs.«156338_g2000302674448580_pallasbulk_969_14_alg».proof.Proof.Gen.Kernel.Skeleton
import proofs.«156338_g2000302674448580_pallasbulk_969_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole half-channel input block. -/
abbrev rX : Rect S1x128x3136 := Rect.unit (s := S1x128x3136) ![0, 0, 0] S1x128x3136.size inb_S1x128x3136_S1x128x3136_0_0_0
/-- A whole parameter column. -/
abbrev rC : Rect S256x1 := Rect.unit (s := S256x1) ![0, 0] S256x1.size inb_S256x1_S256x1_0_0
/-- The first K-half of the weights. -/
abbrev rW0 : Rect S2x256x128 := Rect.unit (s := S2x256x128) ![0, 0, 0] S1x256x128.size inb_S2x256x128_S1x256x128_0_0_0
/-- The second K-half of the weights. -/
abbrev rW1 : Rect S2x256x128 := Rect.unit (s := S2x256x128) ![1, 0, 0] S1x256x128.size inb_S2x256x128_S1x256x128_1_0_0
/-- The whole output block. -/
abbrev rO : Rect S1x256x3136 := Rect.unit (s := S1x256x3136) ![0, 0, 0] S1x256x3136.size inb_S1x256x3136_S1x256x3136_0_0_0

/-! ## What the body leaves in the output buffer -/

/-- The per-channel sums of the sample and of its squares, from the two half-channel blocks. -/
abbrev chanSum (x0 x1 : Vec F S1x128x3136 .f32) : FVec F S256x1 .f32 := k0_pay4 (View.ld x0 rX) (View.ld x1 rX)
abbrev chanSqSum (x0 x1 : Vec F S1x128x3136 .f32) : FVec F S256x1 .f32 := k0_pay5 (View.ld x0 rX) (View.ld x1 rX)
/-- The column index of a 256 x 256 grid. -/
abbrev colIota : IVec S256x256 32 := iota .tc S256x256 32 [1] iota_S256x256_d1_w32

/-- The stored value: the projected, normalized sample plus bias, as the body's one payload of its loads. -/
def stored (x0 x1 : Vec F S1x128x3136 .f32) (x2 x3 : Vec F S256x1 .f32) (x4 : Vec F S2x256x128 .bf16) (x5 : Vec F S256x1 .f32) :
    FVec F S1x256x3136 .bf16 :=
  k0_pay1 (k0_pay2 (View.ld x0 rX)) (k0_pay3 (View.ld x1 rX))
    (k0_pay8 (chanSum x0 x1) (chanSqSum x0 x1) (k0_pay6) colIota)
    (k0_pay9 (chanSum x0 x1) (chanSqSum x0 x1) (k0_pay6) colIota (View.ld x2 rC))
    (k0_pay10 (View.ld x3 rC)) (View.ld x4 rW0) (View.ld x4 rW1) (View.ld x5 rC)

/-- The output window's staging buffer after the body: its one store, of the whole block. -/
def out0_6 (x0 x1 : Vec F S1x128x3136 .f32) (x2 x3 : Vec F S256x1 .f32) (x4 : Vec F S2x256x128 .bf16) (x5 : Vec F S256x1 .f32) :
    Vec F S1x256x3136 .bf16 :=
  View.canon [⟨rO, stored x0 x1 x2 x3 x4 x5⟩]

/-- The one store covers the block. -/
theorem cover0_6 (p0 : Vec F S1x256x3136 .bf16) (y : S1x256x3136.Idx) :
    ∃ pc ∈ ([⟨rO, p0⟩] : List (View.Piece (Elt F) S1x256x3136 .bf16)), y ∈ pc.1.set :=
  View.cover_of_tiled [⟨rO, p0⟩] S1x256x3136.size (by rfl) y

end Cert.Kernel.Hand

end
-- ==== Proof.KernelData.lean ====
/-
  The proof data of the one kernel region, and the buffer contents at each boundary of the program.

  At a parameter `V` (the buffer contents when the region is entered): each window's block at a grid point read off its
  array (`iblk0`), and the region's proof data `dat0`: every input window's buffer holds its block after the body, the
  output window's holds `out0_6` of the six input blocks. The two half-channel windows read ONE array, so they hold it at
  complementary half shares; every other input at the full share.
  Then the fold of contents through the program: at launch (`W0`), after the host operations before the region (`W1`),
  at the region's exit (`W2`: the output array at what the write-backs leave, everything else as entered) and after the
  host operations behind it (`W3`). Stated for any float instance.
-/
import proofs.«156338_g2000302674448580_pallasbulk_969_14_alg».proof.Proof.KernelOut

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

end Region

/-! ## The buffer contents at each boundary -/

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The output window alone, as a one-window family. -/
abbrev outSpec : Fin 1 → Pipeline.WinSpec sig grid0.rank := fun _ => spec0 6
/-- At the region's exit: the output array at what the write-backs leave, every other buffer as entered. -/
def W2 (c : Dev nD) : Valuation τ sig (Elt F) :=
  Pipeline.withArrays outSpec c (W1 m ρ c) fun _ => (dat0 (V1 m ρ) c).arrAt 6 cfg0.N
theorem W2_out (c : Dev nD) :
    W2 m ρ c (Proc.devRef .tc (Pipeline.arrRef spec0 6)) = (dat0 (V1 m ρ) c).arrAt 6 cfg0.N := by
  unfold W2; exact Pipeline.withArrays_arr outSpec (fun a b _ => Subsingleton.elim a b) c _ _ 0
theorem W2_of_ne (c : Dev nD) (b : Ref sig .tc) (hb : Pipeline.arrRef spec0 6 ≠ b) :
    W2 m ρ c (Proc.devRef .tc b) = W1 m ρ c (Proc.devRef .tc b) := by
  unfold W2; exact Pipeline.withArrays_of_ne outSpec c _ _ b fun _ => hb
/-- The same read at the TensorCore's references. -/
abbrev V2 : (c : Dev nD) → (b : Ref sig .tc) → Buf (Elt F) ((c : Thread nD τ).loc b) := fun c b => W2 m ρ c b
/-- After the host operations behind the region. -/
abbrev W3 : Dev nD → Valuation τ sig (Elt F) := fun c => StableHlo.after hostOps1 (W2 m ρ c)

end Cert.Kernel.Hand

end
-- ==== Proof.KernelBody.lean ====
/-
  The body of the fused normalize-and-project kernel, run once on whole staging buffers: from the inputs' buffers at
  their contents and the output's at anything, the body runs to the continuation with the inputs unchanged and the
  output at `out0_6` of them (every load reads a whole buffer or a K-half of the weights; the one store writes the whole
  output block). Stated for any float instance.
-/
import proofs.«156338_g2000302674448580_pallasbulk_969_14_alg».proof.Proof.KernelOut

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 1000000 in
/-- On whole staging buffers, the inputs' at contents `xW` and the output's at anything, the body runs to the continuation
    holding the inputs' as they were and the output's at `out0_6` of the inputs. -/
theorem sound_kernel0 (c : Dev nD) (E : Set ℕ) (i : grid0.Coords) (arg1 : Memref sig .tc .vmem S1x128x3136 .f32) (harg1 : arg1.IsWhole) (arg2 : Memref sig .tc .vmem S1x128x3136 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S2x256x128 .bf16) (harg5 : arg5.IsWhole) (arg6 : Memref sig .tc .vmem S256x1 .f32) (harg6 : arg6.IsWhole) (arg7 : Memref sig .tc .vmem S1x256x3136 .bf16) (harg7 : arg7.IsWhole)
    (x0 x1 : Vec F S1x128x3136 .f32) (x2 x3 : Vec F S256x1 .f32) (x4 : Vec F S2x256x128 .bf16) (x5 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

end Cert.Kernel.Hand

end
-- ==== Proof.KernelObl.lean ====
/-
  The body obligation of the one kernel region: at every grid point, from the invariant, the tallies and every window's
  current staging buffer at what the pipeline hands over, the body runs to the invariant, the tallies and every buffer at
  what the proof data say it leaves.

  An input window's buffer holds its block at every point, fetched there or not (unfetched, the block index has not
  moved); so the body's triple on whole buffers applies, and the invariant and the tallies pass through unread. The
  staging buffers are held whole at the full share whatever share the arrays are held at. Stated for any float instance.
-/
import proofs.«156338_g2000302674448580_pallasbulk_969_14_alg».proof.Proof.KernelData
import proofs.«156338_g2000302674448580_pallasbulk_969_14_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The input windows' buffers hold their blocks -/

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, for any proof data whose array is `V`'s
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, for any proof data whose array is `V`'s
    and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, for any proof data whose array is `V`'s
    and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KernelFrameArr.lean ====
/-
  The arrays of the one kernel region against the buffers behind them.

  The seven windows sit on SIX buffers: the two half-channel windows read one array, which they hold at complementary
  half shares; every other window holds its array at the full share. So the windows' arrays at the contents a valuation
  names are exactly the six buffers held whole at the full share at those contents: the shared array's full-share
  points-to splits into its two halves, and two halves at the same contents join back. Around it, the core's unscoped
  buffers are those six and the rest.
-/
import proofs.«156338_g2000302674448580_pallasbulk_969_14_alg».proof.Proof.KernelData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays
variable (V : (c : Dev nD) → (b : Ref sig .tc) → Buf (Elt F) ((c : Thread nD τ).loc b))

/-- The distinct buffers behind the seven windows: six, the two half-channel windows sharing the first. -/
theorem arrImage0 : (Finset.univ.image (Pipeline.arrRef spec0) : Finset (Ref sig .tc))
    = {main_v0, main_v1, main_v2, main_v6, main_v3, main_v7} := by decide

/-- A window's array is a whole buffer: its points-to over the view's elements is the points-to of the buffer. -/
theorem winPt (c : Dev nD) (w : Fin 7) (q : PosShare TreeShare) (f : Buf (Elt F) ((cfg0.win w).arr.view.loc (c : Thread nD τ))) :
    ((cfg0.win w).arr.view.loc (c : Thread nD τ) ↦[(cfg0.win w).arr.view.set]{q} f : sProp 𝕄)
      = ((cfg0.win w).arr.view.loc (c : Thread nD τ) ↦{q} f) := by
  rw [(arr_whole0 w).set_eq_univ]

/-- The windows' arrays at the contents a valuation names, window by window: the shared array at its two half shares,
    every other at the full share. -/
theorem arrays_chain (c : Dev nD) (X : (b : Ref sig .tc) → Buf (Elt F) ((c : Thread nD τ).loc b)) :
    ((dat0 V c).arrays (fun w => X (Pipeline.arrRef spec0 w)) : sProp 𝕄)
      = iprop((((c : Thread nD τ).loc main_v0) ↦{fullShare.left} X main_v0) ∗ (((c : Thread nD τ).loc main_v0) ↦{fullShare.right} X main_v0)
          ∗ (((c : Thread nD τ).loc main_v1) ↦{fullShare} X main_v1) ∗ (((c : Thread nD τ).loc main_v2) ↦{fullShare} X main_v2)
          ∗ (((c : Thread nD τ).loc main_v6) ↦{fullShare} X main_v6) ∗ (((c : Thread nD τ).loc main_v3) ↦{fullShare} X main_v3)
          ∗ (((c : Thread nD τ).loc main_v7) ↦{fullShare} X main_v7)) := by
  unfold Dat.arrays
  rw [bigSep_W0]
  exact congrArg₂ _ (winPt c 0 _ _) (congrArg₂ _ (winPt c 1 _ _) (congrArg₂ _ (winPt c 2 _ _) (congrArg₂ _ (winPt c 3 _ _)
    (congrArg₂ _ (winPt c 4 _ _) (congrArg₂ _ (winPt c 5 _ _) (winPt c 6 _ _))))))

/-- The six buffers behind the windows, each whole at the full share, one by one. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0)
          ∗ (((c : Thread nD τ).loc main_v1) ↦{fullShare} X main_v1) ∗ (((c : Thread nD τ).loc main_v2) ↦{fullShare} X main_v2)
          ∗ (((c : Thread nD τ).loc main_v6) ↦{fullShare} X main_v6) ∗ (((c : Thread nD τ).loc main_v3) ↦{fullShare} X main_v3)
          ∗ (((c : Thread nD τ).loc main_v7) ↦{fullShare} X main_v7)) := by
  unfold Pipeline.arrBufs
  rw [arrImage0, bigSep_insert (by decide), bigSep_insert (by decide), bigSep_insert (by decide), bigSep_insert (by decide),
    bigSep_insert (by decide), bigSep_singleton]
  rfl

/-- The windows' arrays at a valuation's contents are the six buffers whole at the full share there: the shared array's
    points-to splits along the share, and its two halves at the same contents join. -/
theorem arrays_iff_arrBufs (c : Dev nD) (X : (b : Ref sig .tc) → Buf (Elt F) ((c : Thread nD τ).loc b)) :
    ((dat0 V c).arrays (fun w => X (Pipeline.arrRef spec0 w)) : sProp 𝕄)
      ⊣⊢ Pipeline.arrBufs (Ix := Unit) (Name := ℕ) (U := UR sig nD τ) (Lvl := ℕ) spec0 c X := by
  rw [arrays_chain, arrBufs_chain]
  constructor
  · iintro ⟨Hl, Hr, H1, H2, H6, H3, H7⟩
    isplitl [Hl Hr]
    · iapply (pointsTo_share (PosShare.mem_left_op_right fullShare)).2
      isplitl [Hl] <;> iassumption
    isplitl [H1]; · iexact H1
    isplitl [H2]; · iexact H2
    isplitl [H6]; · iexact H6
    isplitl [H3]; · iexact H3
    iexact H7
  · iintro ⟨H0, H1, H2, H6, H3, H7⟩
    ihave H := (pointsTo_share (PosShare.mem_left_op_right fullShare)).1 $$ H0
    icases H with ⟨Hl, Hr⟩
    isplitl [Hl]; · iexact Hl
    isplitl [Hr]; · iexact Hr
    isplitl [H1]; · iexact H1
    isplitl [H2]; · iexact H2
    isplitl [H6]; · iexact H6
    isplitl [H3]; · iexact H3
    iexact H7

/-- ENTRY, the arrays' part: the core's unscoped buffers at `V` are the windows' arrays at the proof data's entry
    contents and the unscoped rest. -/
theorem arrays_of_unscopedBufs0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_iff_arrBufs V c (V c)).2 .rfl

/-- EXIT, the arrays' part: the windows' arrays at contents `G` and the unscoped rest at `V` are the core's unscoped
    buffers at any valuation that has the arrays at `G` and agrees with `V` off them. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat0 V c).arrays G ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  obtain rfl : G = fun w => V' (Pipeline.arrRef spec0 w) := funext hG
  rw [Pipeline.unscopedBufs_split₀ cfgs 0 winFacts₀0.arr_unscoped c V']
  refine sep_mono (arrays_iff_arrBufs V c V').1 (Entails.of_eq ?_)
  unfold Pipeline.unscopedRest
  exact bigSep_congr fun b hb => by rw [hrest b (Finset.mem_sdiff.mp hb).2]

end Arrays

end Cert.Kernel.Hand

end
-- ==== Proof.KernelFrame.lean ====
/-
  The run of the kernel program: every weakly fair execution terminates without a fault, and the final memory holds,
  at every buffer that outlives the region, the contents the fold `W3` names; in particular the arguments end as launched.

  The program is a stretch of host operations, one kernel region, and a second stretch. The region's two half-channel
  windows read ONE array: at the region's entry that array's points-to is split into two half shares, one per window
  (reading needs no more), and at its exit the halves — the array unchanged, as every input window's is — are joined
  back; the output window's array comes back at what the write-backs leave. Everything else is the library's launch of
  a list of segments. Stated for any float instance.
-/
import proofs.«156338_g2000302674448580_pallasbulk_969_14_alg».proof.Proof.KernelData
import proofs.«156338_g2000302674448580_pallasbulk_969_14_alg».proof.Proof.KernelBody
import proofs.«156338_g2000302674448580_pallasbulk_969_14_alg».proof.Proof.KernelObl
import proofs.«156338_g2000302674448580_pallasbulk_969_14_alg».proof.Proof.KernelFrameArr

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's exit contents, array by array -/

/-- At the region's exit every window's array holds what the pipeline leaves: an input window's its entry contents (an
    input array is never written, and the exit valuation agrees with the entry's off the output array), the output
    window's the folded write-backs. -/
theorem hG0 (c : Dev nD) (w : Fin cfg0.W) : (dat0 (V1 m ρ) c).arrAt w cfg0.N = V2 m ρ c (Pipeline.arrRef spec0 w) := by
  by_cases h : w = 6
  · subst h; exact (W2_out m ρ c).symm
  · have hin : (cfg0.win w).isOut = false := by revert w; decide
    have hne : Pipeline.arrRef spec0 6 ≠ Pipeline.arrRef spec0 w := by revert w; decide
    exact ((dat0 (V1 m ρ) c).arrAt_in w hin _).trans ((A_eq0 (V1 m ρ) c w).trans (W2_of_ne m ρ c _ hne).symm)
/-- Off the windows' arrays the exit valuation is the entry's. -/
theorem hrest0 (c : Dev nD) : ∀ b, b ∉ Finset.univ.image (Pipeline.arrRef spec0) → V2 m ρ c b = V1 m ρ c b :=
  fun b hb => W2_of_ne m ρ c b fun e => hb (Finset.mem_image.mpr ⟨6, Finset.mem_univ _, e⟩)

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its tallies,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it leaves those references at the contents the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- The last thread state without the tallies: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at the entry contents, left at the exit
    contents. At the entry the six buffers behind the windows come out of the unscoped buffers and the shared one splits
    into its two half shares; at the exit the halves join and the six go back, the output array at what the write-backs
    leave. The generator register passes into the invariant and out; nothing is owed; the kernel has no semaphore of its
    own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest (Ix := Unit) (Name := ℕ) (U := UR sig nD τ) (Lvl := ℕ) spec0 c (V1 m ρ c)) :=
      arrays_of_unscopedBufs0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) :=
      unscopedBufs_of_arrays0 (V1 m ρ) c (V2 m ρ c) ((dat0 (V1 m ρ) c).arrAt · cfg0.N) (hG0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three segments in order: the first stretch from the launch contents, the region, the second stretch
    from the region's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program is the run of the segments. -/
theorem main_run (c : Dev nD) : main (F := F) c = Pipeline.Seg.run (segs m ρ) := (main_chain c).trans (by chain_rfl)

set_option backward.isDefEq.respectTransparency.types false in
/-- The launch over the segments, the last thread state read against the final state. -/
theorem run_segs : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, every outliving buffer named. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 m ρ c b) := by
  exact run_segs m ρ

theorem W3_main_arg0 (c : Dev nD) : W3 m ρ c (Proc.devRef .tc main_arg0) = m ((c : Thread nD τ).loc main_arg0) := by
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) := by
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) := by
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) := by
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) := by
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.Kernel.Hand

end
-- ==== Proof.KernelIdealOut.lean ====
/-
  What the fused normalize-and-project kernel's body leaves in its output block, as a function of its input blocks.

  Each grid point holds one sample: two half-channel input blocks (channels 0..127 and 128..255, both cut from the same
  array), the affine parameters and the bias as columns, the projection weights as two K-halves, and one output block.
  The body only loads its inputs and stores once, the whole output block: `stored` is that store's value over the
  loads, `out0_6` the buffer it leaves. Stated for any float instance.
-/
import proofs.«156338_g2000302674448580_pallasbulk_969_14_alg».proof.Proof.Gen.KernelIdeal.Launch
import proofs.«156338_g2000302674448580_pallasbulk_969_14_alg».proof.Proof.Gen.KernelIdeal.Skeleton
import proofs.«156338_g2000302674448580_pallasbulk_969_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole half-channel input block. -/
abbrev rX : Rect S1x128x3136 := Rect.unit (s := S1x128x3136) ![0, 0, 0] S1x128x3136.size inb_S1x128x3136_S1x128x3136_0_0_0
/-- A whole parameter column. -/
abbrev rC : Rect S256x1 := Rect.unit (s := S256x1) ![0, 0] S256x1.size inb_S256x1_S256x1_0_0
/-- The first K-half of the weights. -/
abbrev rW0 : Rect S2x256x128 := Rect.unit (s := S2x256x128) ![0, 0, 0] S1x256x128.size inb_S2x256x128_S1x256x128_0_0_0
/-- The second K-half of the weights. -/
abbrev rW1 : Rect S2x256x128 := Rect.unit (s := S2x256x128) ![1, 0, 0] S1x256x128.size inb_S2x256x128_S1x256x128_1_0_0
/-- The whole output block. -/
abbrev rO : Rect S1x256x3136 := Rect.unit (s := S1x256x3136) ![0, 0, 0] S1x256x3136.size inb_S1x256x3136_S1x256x3136_0_0_0

/-! ## What the body leaves in the output buffer -/

/-- The per-channel sums of the sample and of its squares, from the two half-channel blocks. -/
abbrev chanSum (x0 x1 : Vec F S1x128x3136 .f32) : FVec F S256x1 .f32 := k0_pay4 (View.ld x0 rX) (View.ld x1 rX)
abbrev chanSqSum (x0 x1 : Vec F S1x128x3136 .f32) : FVec F S256x1 .f32 := k0_pay5 (View.ld x0 rX) (View.ld x1 rX)
/-- The column index of a 256 x 256 grid. -/
abbrev colIota : IVec S256x256 32 := iota .tc S256x256 32 [1] iota_S256x256_d1_w32

/-- The stored value: the projected, normalized sample plus bias, as the body's one payload of its loads. -/
def stored (x0 x1 : Vec F S1x128x3136 .f32) (x2 x3 : Vec F S256x1 .f32) (x4 : Vec F S2x256x128 .bf16) (x5 : Vec F S256x1 .f32) :
    FVec F S1x256x3136 .bf16 :=
  k0_pay1 (k0_pay2 (View.ld x0 rX)) (k0_pay3 (View.ld x1 rX))
    (k0_pay8 (chanSum x0 x1) (chanSqSum x0 x1) (k0_pay6) colIota)
    (k0_pay9 (chanSum x0 x1) (chanSqSum x0 x1) (k0_pay6) colIota (View.ld x2 rC))
    (k0_pay10 (View.ld x3 rC)) (View.ld x4 rW0) (View.ld x4 rW1) (View.ld x5 rC)

/-- The output window's staging buffer after the body: its one store, of the whole block. -/
def out0_6 (x0 x1 : Vec F S1x128x3136 .f32) (x2 x3 : Vec F S256x1 .f32) (x4 : Vec F S2x256x128 .bf16) (x5 : Vec F S256x1 .f32) :
    Vec F S1x256x3136 .bf16 :=
  View.canon [⟨rO, stored x0 x1 x2 x3 x4 x5⟩]

/-- The one store covers the block. -/
theorem cover0_6 (p0 : Vec F S1x256x3136 .bf16) (y : S1x256x3136.Idx) :
    ∃ pc ∈ ([⟨rO, p0⟩] : List (View.Piece (Elt F) S1x256x3136 .bf16)), y ∈ pc.1.set :=
  View.cover_of_tiled [⟨rO, p0⟩] S1x256x3136.size (by rfl) y

end Cert.KernelIdeal.Hand

end
-- ==== Proof.KernelIdealData.lean ====
/-
  The proof data of the one kernel region, and the buffer contents at each boundary of the program.

  At a parameter `V` (the buffer contents when the region is entered): each window's block at a grid point read off its
  array (`iblk0`), and the region's proof data `dat0`: every input window's buffer holds its block after the body, the
  output window's holds `out0_6` of the six input blocks. The two half-channel windows read ONE array, so they hold it at
  complementary half shares; every other input at the full share.
  Then the fold of contents through the program: at launch (`W0`), after the host operations before the region (`W1`),
  at the region's exit (`W2`: the output array at what the write-backs leave, everything else as entered) and after the
  host operations behind it (`W3`). Stated for any float instance.
-/
import proofs.«156338_g2000302674448580_pallasbulk_969_14_alg».proof.Proof.KernelIdealOut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

end Region

/-! ## The buffer contents at each boundary -/

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- The output window alone, as a one-window family. -/
abbrev outSpec : Fin 1 → Pipeline.WinSpec sig grid0.rank := fun _ => spec0 6
/-- At the region's exit: the output array at what the write-backs leave, every other buffer as entered. -/
def W2 (c : Dev nD) : Valuation τ sig (Elt F) :=
  Pipeline.withArrays outSpec c (W1 m ρ c) fun _ => (dat0 (V1 m ρ) c).arrAt 6 cfg0.N
theorem W2_out (c : Dev nD) :
    W2 m ρ c (Proc.devRef .tc (Pipeline.arrRef spec0 6)) = (dat0 (V1 m ρ) c).arrAt 6 cfg0.N := by
  unfold W2; exact Pipeline.withArrays_arr outSpec (fun a b _ => Subsingleton.elim a b) c _ _ 0
theorem W2_of_ne (c : Dev nD) (b : Ref sig .tc) (hb : Pipeline.arrRef spec0 6 ≠ b) :
    W2 m ρ c (Proc.devRef .tc b) = W1 m ρ c (Proc.devRef .tc b) := by
  unfold W2; exact Pipeline.withArrays_of_ne outSpec c _ _ b fun _ => hb
/-- The same read at the TensorCore's references. -/
abbrev V2 : (c : Dev nD) → (b : Ref sig .tc) → Buf (Elt F) ((c : Thread nD τ).loc b) := fun c b => W2 m ρ c b
/-- After the host operations behind the region. -/
abbrev W3 : Dev nD → Valuation τ sig (Elt F) := fun c => StableHlo.after hostOps1 (W2 m ρ c)

end Cert.KernelIdeal.Hand

end
-- ==== Proof.KernelIdealBody.lean ====
/-
  The body of the fused normalize-and-project kernel, run once on whole staging buffers: from the inputs' buffers at
  their contents and the output's at anything, the body runs to the continuation with the inputs unchanged and the
  output at `out0_6` of them (every load reads a whole buffer or a K-half of the weights; the one store writes the whole
  output block). Stated for any float instance.
-/
import proofs.«156338_g2000302674448580_pallasbulk_969_14_alg».proof.Proof.KernelIdealOut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 1000000 in
/-- On whole staging buffers, the inputs' at contents `xW` and the output's at anything, the body runs to the continuation
    holding the inputs' as they were and the output's at `out0_6` of the inputs. -/
theorem sound_kernel0 (c : Dev nD) (E : Set ℕ) (i : grid0.Coords) (arg1 : Memref sig .tc .vmem S1x128x3136 .f32) (harg1 : arg1.IsWhole) (arg2 : Memref sig .tc .vmem S1x128x3136 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S2x256x128 .bf16) (harg5 : arg5.IsWhole) (arg6 : Memref sig .tc .vmem S256x1 .f32) (harg6 : arg6.IsWhole) (arg7 : Memref sig .tc .vmem S1x256x3136 .bf16) (harg7 : arg7.IsWhole)
    (x0 x1 : Vec F S1x128x3136 .f32) (x2 x3 : Vec F S256x1 .f32) (x4 : Vec F S2x256x128 .bf16) (x5 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

end Cert.KernelIdeal.Hand

end
-- ==== Proof.KernelIdealObl.lean ====
/-
  The body obligation of the one kernel region: at every grid point, from the invariant, the tallies and every window's
  current staging buffer at what the pipeline hands over, the body runs to the invariant, the tallies and every buffer at
  what the proof data say it leaves.

  An input window's buffer holds its block at every point, fetched there or not (unfetched, the block index has not
  moved); so the body's triple on whole buffers applies, and the invariant and the tallies pass through unread. The
  staging buffers are held whole at the full share whatever share the arrays are held at. Stated for any float instance.
-/
import proofs.«156338_g2000302674448580_pallasbulk_969_14_alg».proof.Proof.KernelIdealData
import proofs.«156338_g2000302674448580_pallasbulk_969_14_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The input windows' buffers hold their blocks -/

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, for any proof data whose array is `V`'s
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, for any proof data whose array is `V`'s
    and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, for any proof data whose array is `V`'s
    and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdealFrameArr.lean ====
/-
  The arrays of the one kernel region against the buffers behind them.

  The seven windows sit on SIX buffers: the two half-channel windows read one array, which they hold at complementary
  half shares; every other window holds its array at the full share. So the windows' arrays at the contents a valuation
  names are exactly the six buffers held whole at the full share at those contents: the shared array's full-share
  points-to splits into its two halves, and two halves at the same contents join back. Around it, the core's unscoped
  buffers are those six and the rest.
-/
import proofs.«156338_g2000302674448580_pallasbulk_969_14_alg».proof.Proof.KernelIdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays
variable (V : (c : Dev nD) → (b : Ref sig .tc) → Buf (Elt F) ((c : Thread nD τ).loc b))

/-- The distinct buffers behind the seven windows: six, the two half-channel windows sharing the first. -/
theorem arrImage0 : (Finset.univ.image (Pipeline.arrRef spec0) : Finset (Ref sig .tc))
    = {main_v0, main_v1, main_v2, main_v6, main_v3, main_v7} := by decide

/-- A window's array is a whole buffer: its points-to over the view's elements is the points-to of the buffer. -/
theorem winPt (c : Dev nD) (w : Fin 7) (q : PosShare TreeShare) (f : Buf (Elt F) ((cfg0.win w).arr.view.loc (c : Thread nD τ))) :
    ((cfg0.win w).arr.view.loc (c : Thread nD τ) ↦[(cfg0.win w).arr.view.set]{q} f : sProp 𝕄)
      = ((cfg0.win w).arr.view.loc (c : Thread nD τ) ↦{q} f) := by
  rw [(arr_whole0 w).set_eq_univ]

/-- The windows' arrays at the contents a valuation names, window by window: the shared array at its two half shares,
    every other at the full share. -/
theorem arrays_chain (c : Dev nD) (X : (b : Ref sig .tc) → Buf (Elt F) ((c : Thread nD τ).loc b)) :
    ((dat0 V c).arrays (fun w => X (Pipeline.arrRef spec0 w)) : sProp 𝕄)
      = iprop((((c : Thread nD τ).loc main_v0) ↦{fullShare.left} X main_v0) ∗ (((c : Thread nD τ).loc main_v0) ↦{fullShare.right} X main_v0)
          ∗ (((c : Thread nD τ).loc main_v1) ↦{fullShare} X main_v1) ∗ (((c : Thread nD τ).loc main_v2) ↦{fullShare} X main_v2)
          ∗ (((c : Thread nD τ).loc main_v6) ↦{fullShare} X main_v6) ∗ (((c : Thread nD τ).loc main_v3) ↦{fullShare} X main_v3)
          ∗ (((c : Thread nD τ).loc main_v7) ↦{fullShare} X main_v7)) := by
  unfold Dat.arrays
  rw [bigSep_W0]
  exact congrArg₂ _ (winPt c 0 _ _) (congrArg₂ _ (winPt c 1 _ _) (congrArg₂ _ (winPt c 2 _ _) (congrArg₂ _ (winPt c 3 _ _)
    (congrArg₂ _ (winPt c 4 _ _) (congrArg₂ _ (winPt c 5 _ _) (winPt c 6 _ _))))))

/-- The six buffers behind the windows, each whole at the full share, one by one. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0)
          ∗ (((c : Thread nD τ).loc main_v1) ↦{fullShare} X main_v1) ∗ (((c : Thread nD τ).loc main_v2) ↦{fullShare} X main_v2)
          ∗ (((c : Thread nD τ).loc main_v6) ↦{fullShare} X main_v6) ∗ (((c : Thread nD τ).loc main_v3) ↦{fullShare} X main_v3)
          ∗ (((c : Thread nD τ).loc main_v7) ↦{fullShare} X main_v7)) := by
  unfold Pipeline.arrBufs
  rw [arrImage0, bigSep_insert (by decide), bigSep_insert (by decide), bigSep_insert (by decide), bigSep_insert (by decide),
    bigSep_insert (by decide), bigSep_singleton]
  rfl

/-- The windows' arrays at a valuation's contents are the six buffers whole at the full share there: the shared array's
    points-to splits along the share, and its two halves at the same contents join. -/
theorem arrays_iff_arrBufs (c : Dev nD) (X : (b : Ref sig .tc) → Buf (Elt F) ((c : Thread nD τ).loc b)) :
    ((dat0 V c).arrays (fun w => X (Pipeline.arrRef spec0 w)) : sProp 𝕄)
      ⊣⊢ Pipeline.arrBufs (Ix := Unit) (Name := ℕ) (U := UR sig nD τ) (Lvl := ℕ) spec0 c X := by
  rw [arrays_chain, arrBufs_chain]
  constructor
  · iintro ⟨Hl, Hr, H1, H2, H6, H3, H7⟩
    isplitl [Hl Hr]
    · iapply (pointsTo_share (PosShare.mem_left_op_right fullShare)).2
      isplitl [Hl] <;> iassumption
    isplitl [H1]; · iexact H1
    isplitl [H2]; · iexact H2
    isplitl [H6]; · iexact H6
    isplitl [H3]; · iexact H3
    iexact H7
  · iintro ⟨H0, H1, H2, H6, H3, H7⟩
    ihave H := (pointsTo_share (PosShare.mem_left_op_right fullShare)).1 $$ H0
    icases H with ⟨Hl, Hr⟩
    isplitl [Hl]; · iexact Hl
    isplitl [Hr]; · iexact Hr
    isplitl [H1]; · iexact H1
    isplitl [H2]; · iexact H2
    isplitl [H6]; · iexact H6
    isplitl [H3]; · iexact H3
    iexact H7

/-- ENTRY, the arrays' part: the core's unscoped buffers at `V` are the windows' arrays at the proof data's entry
    contents and the unscoped rest. -/
theorem arrays_of_unscopedBufs0 (c : Dev nD) :
    (unscopedBufs (Ix := Unit) (Name := ℕ) (U := UR sig nD τ) (Lvl := ℕ) c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_iff_arrBufs V c (V c)).2 .rfl

/-- EXIT, the arrays' part: the windows' arrays at contents `G` and the unscoped rest at `V` are the core's unscoped
    buffers at any valuation that has the arrays at `G` and agrees with `V` off them. -/
theorem unscopedBufs_of_arrays0 (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V c b) :
    iprop((dat0 V c).arrays G ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  obtain rfl : G = fun w => V' (Pipeline.arrRef spec0 w) := funext hG
  rw [Pipeline.unscopedBufs_split₀ cfgs 0 winFacts₀0.arr_unscoped c V']
  refine sep_mono (arrays_iff_arrBufs V c V').1 (Entails.of_eq ?_)
  unfold Pipeline.unscopedRest
  exact bigSep_congr fun b hb => by rw [hrest b (Finset.mem_sdiff.mp hb).2]

end Arrays

end Cert.KernelIdeal.Hand

end
-- ==== Proof.KernelIdealFrame.lean ====
/-
  The run of the kernel program: every weakly fair execution terminates without a fault, and the final memory holds,
  at every buffer that outlives the region, the contents the fold `W3` names; in particular the arguments end as launched.

  The program is a stretch of host operations, one kernel region, and a second stretch. The region's two half-channel
  windows read ONE array: at the region's entry that array's points-to is split into two half shares, one per window
  (reading needs no more), and at its exit the halves — the array unchanged, as every input window's is — are joined
  back; the output window's array comes back at what the write-backs leave. Everything else is the library's launch of
  a list of segments. Stated for any float instance.
-/
import proofs.«156338_g2000302674448580_pallasbulk_969_14_alg».proof.Proof.KernelIdealData
import proofs.«156338_g2000302674448580_pallasbulk_969_14_alg».proof.Proof.KernelIdealBody
import proofs.«156338_g2000302674448580_pallasbulk_969_14_alg».proof.Proof.KernelIdealObl
import proofs.«156338_g2000302674448580_pallasbulk_969_14_alg».proof.Proof.KernelIdealFrameArr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's exit contents, array by array -/

/-- At the region's exit every window's array holds what the pipeline leaves: an input window's its entry contents (an
    input array is never written, and the exit valuation agrees with the entry's off the output array), the output
    window's the folded write-backs. -/
theorem hG0 (c : Dev nD) (w : Fin cfg0.W) : (dat0 (V1 m ρ) c).arrAt w cfg0.N = V2 m ρ c (Pipeline.arrRef spec0 w) := by
  by_cases h : w = 6
  · subst h; exact (W2_out m ρ c).symm
  · have hin : (cfg0.win w).isOut = false := by revert w; decide
    have hne : Pipeline.arrRef spec0 6 ≠ Pipeline.arrRef spec0 w := by revert w; decide
    exact ((dat0 (V1 m ρ) c).arrAt_in w hin _).trans ((A_eq0 (V1 m ρ) c w).trans (W2_of_ne m ρ c _ hne).symm)
/-- Off the windows' arrays the exit valuation is the entry's. -/
theorem hrest0 (c : Dev nD) : ∀ b, b ∉ Finset.univ.image (Pipeline.arrRef spec0) → V2 m ρ c b = V1 m ρ c b :=
  fun b hb => W2_of_ne m ρ c b fun e => hb (Finset.mem_image.mpr ⟨6, Finset.mem_univ _, e⟩)

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its tallies,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it leaves those references at the contents the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- The last thread state without the tallies: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at the entry contents, left at the exit
    contents. At the entry the six buffers behind the windows come out of the unscoped buffers and the shared one splits
    into its two half shares; at the exit the halves join and the six go back, the output array at what the write-backs
    leave. The generator register passes into the invariant and out; nothing is owed; the kernel has no semaphore of its
    own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest (Ix := Unit) (Name := ℕ) (U := UR sig nD τ) (Lvl := ℕ) spec0 c (V1 m ρ c)) :=
      arrays_of_unscopedBufs0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) :=
      unscopedBufs_of_arrays0 (V1 m ρ) c (V2 m ρ c) ((dat0 (V1 m ρ) c).arrAt · cfg0.N) (hG0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's three segments in order: the first stretch from the launch contents, the region, the second stretch
    from the region's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- The program is the run of the segments. -/
theorem main_run (c : Dev nD) : main (F := F) c = Pipeline.Seg.run (segs m ρ) := (main_chain c).trans (by chain_rfl)

set_option backward.isDefEq.respectTransparency.types false in
/-- The launch over the segments, the last thread state read against the final state. -/
theorem run_segs : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, every outliving buffer named. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 m ρ c b) := by
  exact run_segs m ρ

theorem W3_main_arg0 (c : Dev nD) : W3 m ρ c (Proc.devRef .tc main_arg0) = m ((c : Thread nD τ).loc main_arg0) := by
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) := by
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) := by
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) := by
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) := by
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run m ρ)

end Cert.KernelIdeal.Hand

end
-- ==== Proof.Spec.lean ====
/-
  The function both programs compute, over the extended reals.

  A sample has 256 channels of 3136 entries; channels `4g .. 4g+3` form group `g`. From the per-channel sums `S1` (of
  the entries) and `S2` (of their squares) a group's mean and mean of squares are its sums scaled by the one constant
  `cinv`; with the additive constant `ceps` under the reciprocal square root these give each channel's `scale` and
  `shift` (by `γ` and `β`). One output entry mixes the 256 normalized channel values at one position by a row of the
  matrix `w` and adds a bias:

      out o s = (∑ k, w o k * (x k s * scale k + shift k)) + bias o.

  Everything is stated on coordinates, so that no shape enters. Three sum laws (in the module of that name) are what joins the two
  programs' arrangements of these sums to this one: a sum against a one-hot group mask is the sum over the group; a sum
  over 256 channels is the sum of its two halves; and a sum accumulated tile by tile over a zero-padded axis is the sum
  over the unpadded axis. Only commutativity, associativity and the units of `+` and `*` are used: no finiteness.
-/
import Idealize.ShloMosaic.Lib.ValueIdx
import Idealize.ShloMosaic.PureOps.Ideal.Laws
import Mathlib.Algebra.BigOperators.Fin

noncomputable section

namespace Cert.Spec

open Idealize.ShloMosaic Idealize.ShloMosaic.ValueIdx

/-- The reciprocal of a group's entry count, as both programs spell it (one 32-bit pattern). -/
def cinv : EReal := Ideal.ofBits .f32 0x38A72F05#32
/-- The additive constant under the reciprocal square root, as both programs spell it. -/
def ceps : EReal := Ideal.ofBits .f32 0x3727C5AC#32

/-- Member `j` of channel `k`'s group. -/
def member (k : Fin 256) (j : Fin 4) : Fin 256 := ⟨4 * (k.val / 4) + j.val, by have := k.isLt; have := j.isLt; omega⟩

/-- A per-channel quantity summed over channel `k`'s group. -/
def grp (S : Fin 256 → EReal) (k : Fin 256) : EReal := ∑ j : Fin 4, S (member k j)

section Stats
variable (S1 S2 γ β : Fin 256 → EReal)
def mean (k : Fin 256) : EReal := grp S1 k * cinv
def meanSq (k : Fin 256) : EReal := grp S2 k * cinv
def rstd (k : Fin 256) : EReal := Ideal.rsqrt (meanSq S2 k - mean S1 k * mean S1 k + ceps)
def scale (k : Fin 256) : EReal := γ k * rstd S1 S2 k
def shift (k : Fin 256) : EReal := β k - mean S1 k * scale S1 S2 γ k
end Stats

/-- One output entry: the channel values `xs` at one position, normalized by `sc` and `sh`, mixed by a row of the
    matrix, plus the bias. -/
def mix (xs sc sh wrow : Fin 256 → EReal) (bias : EReal) : EReal := (∑ k : Fin 256, wrow k * (xs k * sc k + sh k)) + bias

/-- A channel's sum over its entries, -/
def chanSum (x : Fin 256 → Fin 3136 → EReal) (k : Fin 256) : EReal := ∑ s : Fin 3136, x k s
/-- and the sum of their squares. -/
def chanSq (x : Fin 256 → Fin 3136 → EReal) (k : Fin 256) : EReal := ∑ s : Fin 3136, x k s * x k s

/-- One sample's result at output channel `o`, entry `s`. -/
def sampleAt (x : Fin 256 → Fin 3136 → EReal) (γ β bias : Fin 256 → EReal) (w : Fin 256 → Fin 256 → EReal)
    (o : Fin 256) (s : Fin 3136) : EReal :=
  mix (fun k => x k s) (scale (chanSum x) (chanSq x) γ) (shift (chanSum x) (chanSq x) γ β) (w o) (bias o)

/-! ## The arguments read on coordinates, and the result array -/

/-- The input array `[16, 256, 56, 56]` as samples of channels of 3136 entries (entry `s` is row `s / 56`, column
    `s % 56`). -/
def xOf (a : (⟨4, ![16, 256, 56, 56]⟩ : Shape).Idx → EReal) (b : Fin 16) (k : Fin 256) (s : Fin 3136) : EReal :=
  a (ix4 b k ⟨s.val / 56, by have := s.isLt; omega⟩ ⟨s.val % 56, Nat.mod_lt _ (by decide)⟩)
/-- A length-256 argument on its one coordinate. -/
def vecOf (a : (⟨1, ![256]⟩ : Shape).Idx → EReal) (k : Fin 256) : EReal := a (ix1 k)
/-- The matrix argument on its two coordinates. -/
def matOf (a : (⟨2, ![256, 256]⟩ : Shape).Idx → EReal) (o k : Fin 256) : EReal := a (ix2 o k)

/-- The result array: sample `b`, output channel `o`, row `h`, column `v` is the sample's result at entry `56 h + v`. -/
def result (a0 : (⟨4, ![16, 256, 56, 56]⟩ : Shape).Idx → EReal) (a1 a2 : (⟨1, ![256]⟩ : Shape).Idx → EReal)
    (a3 : (⟨2, ![256, 256]⟩ : Shape).Idx → EReal) (a4 : (⟨1, ![256]⟩ : Shape).Idx → EReal) :
    (⟨4, ![16, 256, 56, 56]⟩ : Shape).Idx → EReal := fun i =>
  sampleAt (xOf a0 (i 0)) (vecOf a1) (vecOf a2) (vecOf a4) (matOf a3) (i 1)
    ⟨56 * (i 2).val + (i 3).val, by
      have h2 : (i 2).val < 56 := (i 2).isLt
      have h3 : (i 3).val < 56 := (i 3).isLt
      omega⟩

theorem result_ix4 (a0 : (⟨4, ![16, 256, 56, 56]⟩ : Shape).Idx → EReal) (a1 a2 : (⟨1, ![256]⟩ : Shape).Idx → EReal)
    (a3 : (⟨2, ![256, 256]⟩ : Shape).Idx → EReal) (a4 : (⟨1, ![256]⟩ : Shape).Idx → EReal)
    (b : Fin 16) (o : Fin 256) (h v : Fin 56) :
    result a0 a1 a2 a3 a4 (ix4 b o h v)
      = sampleAt (xOf a0 b) (vecOf a1) (vecOf a2) (vecOf a4) (matOf a3) o ⟨56 * h.val + v.val, by have := h.isLt; have := v.isLt; omega⟩ := rfl

/-! ## The kernel's operand layouts, on coordinates -/

/-- A sample handed over as its lower and its upper 128 channels. -/
def halves (x0 x1 : (⟨3, ![1, 128, 3136]⟩ : Shape).Idx → EReal) (k : Fin 256) (s : Fin 3136) : EReal :=
  if h : k.val < 128 then x0 (ix3 0 ⟨k.val, h⟩ s) else x1 (ix3 0 ⟨k.val - 128, by have := k.isLt; omega⟩ s)

/-- The matrix handed over as its two K-halves: entry `(o, k)` sits in half `k / 128` at `(o, k % 128)`. -/
def wHalves (x4 : (⟨3, ![2, 256, 128]⟩ : Shape).Idx → EReal) (o k : Fin 256) : EReal :=
  x4 (ix3 ⟨k.val / 128, by have := k.isLt; omega⟩ o ⟨k.val % 128, Nat.mod_lt _ (by decide)⟩)

end Cert.Spec

end
-- ==== Proof.SumLaws.lean ====
/-
  Three laws of finite sums over the extended reals, which join the two programs' arrangements of the statistics and of
  the channel mix to the specification's: a sum against the one-hot mask of a channel's group is the sum over the
  group's four members; a sum over 256 channels is the sum of its lower and upper halves; and five tiles of 640
  accumulated from zero over an axis of 3200 whose tail is zero give the sum over the first 3136. Only the commutative
  monoid structure of `+` and the units of `*` are used, so nothing is assumed finite.
-/
import proofs.«156338_g2000302674448580_pallasbulk_969_14_alg».proof.Proof.Spec

noncomputable section

namespace Cert.Spec

open Idealize.ShloMosaic

/-! ## The three sum laws -/

/-- A sum over `m + n` indices is the sum over the first `m` plus the sum over the remaining `n`. -/
private theorem sum_split (m n N : ℕ) (h : m + n = N) (g : Fin N → EReal) :
    ∑ s : Fin N, g s
      = (∑ i : Fin m, g ⟨i.val, by have := i.isLt; omega⟩)
          + ∑ i : Fin n, g ⟨m + i.val, by have := i.isLt; omega⟩ := by
  subst h
  exact Fin.sum_univ_add g

/-- A sum against the one-hot mask of a channel's group is the sum over the group's four members. -/
theorem sum_group_mask (f : Fin 256 → EReal) (i : Fin 256) :
    (∑ j : Fin 256, (if i.val / 4 = j.val / 4 then (1 : EReal) else 0) * f j) = ∑ j : Fin 4, f (member i j) := by
  -- the mask keeps exactly the channels of the group; `member i` and the residue mod 4 are inverse bijections
  -- between the four member indices and that set of channels
  simp only [ite_mul, one_mul, zero_mul]
  rw [← Finset.sum_filter]
  symm
  refine Finset.sum_nbij' (member i) (fun j => (⟨j.val % 4, Nat.mod_lt _ (by decide)⟩ : Fin 4)) ?_ ?_ ?_ ?_ ?_
  · intro a _
    have := a.isLt
    simp only [Finset.mem_filter, Finset.mem_univ, true_and, member]
    omega
  · intro a _
    exact Finset.mem_univ _
  · intro a _
    have := a.isLt
    apply Fin.ext
    simp only [member]
    omega
  · intro a ha
    have h := (Finset.mem_filter.mp ha).2
    apply Fin.ext
    simp only [member]
    omega
  · intro a _
    rfl

/-- A sum over 256 channels is the sum over the lower 128 plus the sum over the upper 128. -/
theorem sum_halves (f : Fin 256 → EReal) :
    (∑ k : Fin 128, f ⟨k.val, by have := k.isLt; omega⟩) + (∑ k : Fin 128, f ⟨128 + k.val, by have := k.isLt; omega⟩)
      = ∑ k : Fin 256, f k :=
  (sum_split 128 128 256 (by omega) f).symm

/-- Five tiles of 640 accumulated from zero over an axis of 3200 whose entries from 3136 on are zero: the sum over the
    first 3136. -/
theorem sum_tiles (g : Fin 3200 → EReal) (hpad : ∀ s : Fin 3200, 3136 ≤ s.val → g s = 0) :
    (((((0 : EReal) + ∑ u : Fin 640, g ⟨u.val, by have := u.isLt; omega⟩)
        + ∑ u : Fin 640, g ⟨640 + u.val, by have := u.isLt; omega⟩)
        + ∑ u : Fin 640, g ⟨1280 + u.val, by have := u.isLt; omega⟩)
        + ∑ u : Fin 640, g ⟨1920 + u.val, by have := u.isLt; omega⟩)
        + ∑ u : Fin 640, g ⟨2560 + u.val, by have := u.isLt; omega⟩
      = ∑ s : Fin 3136, g ⟨s.val, by have := s.isLt; omega⟩ := by
  -- the whole axis is 3136 + 64, and the last 64 entries vanish
  have e1 : ∑ s : Fin 3200, g s
      = (∑ s : Fin 3136, g ⟨s.val, by have := s.isLt; omega⟩)
          + ∑ t : Fin 64, g ⟨3136 + t.val, by have := t.isLt; omega⟩ :=
    sum_split 3136 64 3200 (by omega) g
  have z : ∑ t : Fin 64, g ⟨3136 + t.val, by have := t.isLt; omega⟩ = 0 :=
    Finset.sum_eq_zero (fun t _ => hpad _ (Nat.le_add_right 3136 t.val))
  -- the whole axis is also 2560 + 640, 2560 = 1920 + 640, 1920 = 1280 + 640, 1280 = 640 + 640
  have e2 : ∑ s : Fin 3200, g s
      = (∑ i : Fin 2560, g ⟨i.val, by have := i.isLt; omega⟩)
          + ∑ u : Fin 640, g ⟨2560 + u.val, by have := u.isLt; omega⟩ :=
    sum_split 2560 640 3200 (by omega) g
  have e3 : ∑ i : Fin 2560, g ⟨i.val, by have := i.isLt; omega⟩
      = (∑ i : Fin 1920, g ⟨i.val, by have := i.isLt; omega⟩)
          + ∑ u : Fin 640, g ⟨1920 + u.val, by have := u.isLt; omega⟩ :=
    sum_split 1920 640 2560 (by omega) (fun i : Fin 2560 => g ⟨i.val, by have := i.isLt; omega⟩)
  have e4 : ∑ i : Fin 1920, g ⟨i.val, by have := i.isLt; omega⟩
      = (∑ i : Fin 1280, g ⟨i.val, by have := i.isLt; omega⟩)
          + ∑ u : Fin 640, g ⟨1280 + u.val, by have := u.isLt; omega⟩ :=
    sum_split 1280 640 1920 (by omega) (fun i : Fin 1920 => g ⟨i.val, by have := i.isLt; omega⟩)
  have e5 : ∑ i : Fin 1280, g ⟨i.val, by have := i.isLt; omega⟩
      = (∑ u : Fin 640, g ⟨u.val, by have := u.isLt; omega⟩)
          + ∑ u : Fin 640, g ⟨640 + u.val, by have := u.isLt; omega⟩ :=
    sum_split 640 640 1280 (by omega) (fun i : Fin 1280 => g ⟨i.val, by have := i.isLt; omega⟩)
  rw [zero_add, ← e5, ← e4, ← e3, ← e2, e1, z, add_zero]

end Cert.Spec

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.KernelStoredWords.lean ====
/-
  The integer side of the group mask: floor division by four as the kernel spells it on 32-bit words, and the one-hot
  entry it yields.

  The kernel computes floor(x / 4) as the quotient rounded toward zero, less one where the operand's sign differs from
  the divisor's and the remainder is not zero. On the words of 0 .. 255 the correction never applies and the value is
  the word of x / 4. Comparing two such words for equality, widening the bit and converting it gives 1 where the two
  numbers fall in the same group of four and 0 elsewhere.
-/
import Idealize.ShloMosaic.Lib.ValueIdx

noncomputable section

namespace Cert.KernelIdeal.Value

open Idealize.ShloMosaic

/-- Floor division by four on a 32-bit word, in the kernel's spelling. -/
def fdiv4 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 4#32 0#32)) (Scalar.extui (Scalar.cmpi .slt 4#32 0#32))))
      (IntOp.cmpi .ne (IntOp.remsi .vector x 4#32) 0#32))
    (IntOp.subi (IntOp.divsi .vector x 4#32) 1#32)
    (IntOp.divsi .vector x 4#32)

/-- On the words of 0 .. 255 it is the word of the natural quotient. -/
theorem fdiv4_ofNat : ∀ i : Fin 256, fdiv4 (BitVec.ofNat 32 i.val) = BitVec.ofNat 32 (i.val / 4) := by
  decide +kernel

/-- Two words of numbers below 2^32 are equal exactly when the numbers are. -/
theorem cmpi_eq_ofNat (p q : Nat) (hp : p < 4294967296) (hq : q < 4294967296) :
    IntOp.cmpi .eq (BitVec.ofNat 32 p) (BitVec.ofNat 32 q) = if p = q then 1#1 else 0#1 := by
  unfold IntOp.cmpi
  by_cases h : p = q
  · subst h
    simp
  · have hne : BitVec.ofNat 32 p ≠ BitVec.ofNat 32 q := by
      intro e
      have e' := congrArg BitVec.toNat e
      simp only [BitVec.toNat_ofNat] at e'
      rw [Nat.mod_eq_of_lt (by omega), Nat.mod_eq_of_lt (by omega)] at e'
      exact h e'
    have hb : (BitVec.ofNat 32 p == BitVec.ofNat 32 q) = false := beq_eq_false_iff_ne.mpr hne
    rw [if_neg h]
    show BitVec.ofBool (BitVec.ofNat 32 p == BitVec.ofNat 32 q) = 0#1
    rw [hb]
    rfl

/-- The mask entry: 1 where the two channels share a group, else 0. -/
theorem mask_val (i j : Fin 256) :
    (FloatOps.sitofp (F := Ideal) .f32
        ((IntOp.cmpi .eq (fdiv4 (BitVec.ofNat 32 i.val)) (fdiv4 (BitVec.ofNat 32 j.val))).setWidth 32) : EReal)
      = if i.val / 4 = j.val / 4 then 1 else 0 := by
  have hi := i.isLt
  have hj := j.isLt
  rw [fdiv4_ofNat, fdiv4_ofNat, cmpi_eq_ofNat _ _ (by omega) (by omega)]
  by_cases h : i.val / 4 = j.val / 4
  · rw [if_pos h, if_pos h]
    show ((((1#1 : BitVec 1).setWidth 32).toInt : ℝ) : EReal) = 1
    have e : ((1#1 : BitVec 1).setWidth 32).toInt = 1 := by decide
    rw [e]
    simp
  · rw [if_neg h, if_neg h]
    show ((((0#1 : BitVec 1).setWidth 32).toInt : ℝ) : EReal) = 0
    have e : ((0#1 : BitVec 1).setWidth 32).toInt = 0 := by decide
    rw [e]
    simp

end Cert.KernelIdeal.Value

end
-- ==== Proof.KernelStoredStats.lean ====
/-
  The statistics the kernel's body computes before it normalizes, each read at one entry.

  The two half-channel blocks are shape casts of the loaded blocks (the unit axis dropped). Summing a block, or its
  entrywise square, along the lane axis and stacking the two columns of 128 sums gives the column of 256 per-channel
  sums: at channel k it is the sum over the 3136 entries of channel k of the sample (of its lower half below 128, of
  its upper half from 128 on). The row index and the column index of a 256 x 256 grid, each floor-divided by four,
  compare equal exactly where the two channels share a group; the comparison converted to a number is the one-hot
  group mask, and its matrix product with the two sum columns side by side has, in row i, the two group sums of
  channel i's group (a sum against a one-hot group mask is the sum over the group's members). Column 0 scaled by the
  one constant is the group mean; column 1 scaled likewise, less the squared mean, plus the additive constant, under
  the reciprocal square root and times γ is the channel's scale.
-/
import proofs.«156338_g2000302674448580_pallasbulk_969_14_alg».proof.Proof.KernelIdealOut
import proofs.«156338_g2000302674448580_pallasbulk_969_14_alg».proof.Proof.SumLaws
import proofs.«156338_g2000302674448580_pallasbulk_969_14_alg».proof.Proof.LibPlainMatmul
import proofs.«156338_g2000302674448580_pallasbulk_969_14_alg».proof.Proof.KernelStoredWords
import Idealize.ShloMosaic.Lib.Pipeline.Value
import Idealize.ShloMosaic.Lib.ValueLayout

noncomputable section

namespace Cert.KernelIdeal.Value

open Cert.KernelIdeal Cert.KernelIdeal.Gen Cert.KernelIdeal.Hand
open Idealize.ShloMosaic Idealize.ShloMosaic.ValueIdx

/-! ## The half-channel blocks -/

/-- The lower block with its unit axis dropped, at channel k, entry s. -/
theorem pay2_apply (v0 : Vec Ideal S1x128x3136 .f32) (k : Fin 128) (s : Fin 3136) :
    k0_pay2 (F := Ideal) v0 (ix2 k s) = v0 (ix3 0 k s) := by
  unfold k0_pay2
  exact shapeCast_1ab_ab_apply v0 _ k s

/-- The upper block likewise. -/
theorem pay3_apply (v2 : Vec Ideal S1x128x3136 .f32) (k : Fin 128) (s : Fin 3136) :
    k0_pay3 (F := Ideal) v2 (ix2 k s) = v2 (ix3 0 k s) := by
  unfold k0_pay3
  exact shapeCast_1ab_ab_apply v2 _ k s

/-! ## The per-channel sums -/

/-- A block summed along the lane axis and cast to a column, at row k: the sum of the block's row k. -/
theorem rowSum_apply (v : FVec Ideal S128x3136 .f32) (k : Fin 128) :
    shapeCast S128x1 (multiReduction (F := Ideal) .add [1] S128 v 0x00000000#32 reduces_S128x3136_S128 (.inl rfl) rfl)
        shapeCasts_S128_S128x1 (ix2 k 0)
      = ∑ s : Fin 3136, v (ix2 k s) := by
  refine (shapeCast_apply _ _ (ix2 k 0) (ix1 k) ?_).trans ?_
  · rw [Shape.rowMajor_val_one, Shape.rowMajor_val_two]
    show k.val = k.val * 1 + 0
    omega
  · refine (Ideal.multiReduction_add_single v _ _ _ _ (ix1 k)).trans ?_
    refine Finset.sum_congr rfl fun s _ => congrArg v ?_
    exact Shape.idx_ext₂ rfl rfl

/-- The column of channel sums, at a channel of the lower half. -/
theorem pay4_lo (v0 v2 : Vec Ideal S1x128x3136 .f32) (k : Fin 256) (h : k.val < 128) :
    k0_pay4 (F := Ideal) v0 v2 (ix2 k 0) = ∑ s : Fin 3136, v0 (ix3 0 ⟨k.val, h⟩ s) := by
  unfold k0_pay4
  refine (concatenate_pair_apply_left (t := S256x1) (s₁ := S128x1) (s₂ := S128x1) 0 _ _ _ (ix2 k 0) rfl (ix2 (⟨k.val, h⟩ : Fin 128) (0 : Fin 1)) ?_).trans ?_
  · intro b
    match b with
    | ⟨0, _⟩ => rfl
    | ⟨1, _⟩ => rfl
  · refine (rowSum_apply _ ⟨k.val, h⟩).trans ?_
    exact Finset.sum_congr rfl fun s _ => pay2_apply v0 _ s

/-- The column of channel sums, at a channel of the upper half. -/
theorem pay4_hi (v0 v2 : Vec Ideal S1x128x3136 .f32) (k : Fin 256) (h : ¬ k.val < 128) :
    k0_pay4 (F := Ideal) v0 v2 (ix2 k 0)
      = ∑ s : Fin 3136, v2 (ix3 0 ⟨k.val - 128, by have := k.isLt; omega⟩ s) := by
  have hk := k.isLt
  unfold k0_pay4
  refine (concatenate_pair_apply_right (t := S256x1) (s₁ := S128x1) (s₂ := S128x1) 0 _ _ _ (ix2 k 0) rfl rfl
    (ix2 (⟨k.val - 128, by omega⟩ : Fin 128) (0 : Fin 1)) ?_ ?_).trans ?_
  · intro b hb
    match b, hb with
    | ⟨0, _⟩, hb => exact (hb (Fin.ext rfl)).elim
    | ⟨1, _⟩, _ => rfl
  · show k.val - 128 + 128 = k.val
    omega
  · refine (rowSum_apply _ _).trans ?_
    exact Finset.sum_congr rfl fun s _ => pay3_apply v2 _ s

/-- The column of channel sums of squares, at a channel of the lower half. -/
theorem pay5_lo (v0 v2 : Vec Ideal S1x128x3136 .f32) (k : Fin 256) (h : k.val < 128) :
    k0_pay5 (F := Ideal) v0 v2 (ix2 k 0)
      = ∑ s : Fin 3136, v0 (ix3 0 ⟨k.val, h⟩ s) * v0 (ix3 0 ⟨k.val, h⟩ s) := by
  unfold k0_pay5
  refine (concatenate_pair_apply_left (t := S256x1) (s₁ := S128x1) (s₂ := S128x1) 0 _ _ _ (ix2 k 0) rfl (ix2 (⟨k.val, h⟩ : Fin 128) (0 : Fin 1)) ?_).trans ?_
  · intro b
    match b with
    | ⟨0, _⟩ => rfl
    | ⟨1, _⟩ => rfl
  · refine (rowSum_apply _ ⟨k.val, h⟩).trans ?_
    refine Finset.sum_congr rfl fun s _ => ?_
    rw [mulf_apply, pay2_apply]

/-- The column of channel sums of squares, at a channel of the upper half. -/
theorem pay5_hi (v0 v2 : Vec Ideal S1x128x3136 .f32) (k : Fin 256) (h : ¬ k.val < 128) :
    k0_pay5 (F := Ideal) v0 v2 (ix2 k 0)
      = ∑ s : Fin 3136, v2 (ix3 0 ⟨k.val - 128, by have := k.isLt; omega⟩ s)
          * v2 (ix3 0 ⟨k.val - 128, by have := k.isLt; omega⟩ s) := by
  have hk := k.isLt
  unfold k0_pay5
  refine (concatenate_pair_apply_right (t := S256x1) (s₁ := S128x1) (s₂ := S128x1) 0 _ _ _ (ix2 k 0) rfl rfl
    (ix2 (⟨k.val - 128, by omega⟩ : Fin 128) (0 : Fin 1)) ?_ ?_).trans ?_
  · intro b hb
    match b, hb with
    | ⟨0, _⟩, hb => exact (hb (Fin.ext rfl)).elim
    | ⟨1, _⟩, _ => rfl
  · show k.val - 128 + 128 = k.val
    omega
  · refine (rowSum_apply _ _).trans ?_
    refine Finset.sum_congr rfl fun s _ => ?_
    rw [mulf_apply, pay3_apply]

/-- The column of channel sums is the sample's channel sums. -/
theorem pay4_eq (x0 x1 : Vec Ideal S1x128x3136 .f32) :
    (fun k : Fin 256 => k0_pay4 (F := Ideal) x0 x1 (ix2 k 0)) = Cert.Spec.chanSum (Cert.Spec.halves x0 x1) := by
  funext k
  unfold Cert.Spec.chanSum Cert.Spec.halves
  by_cases h : k.val < 128
  · rw [pay4_lo x0 x1 k h]
    refine Finset.sum_congr rfl fun s _ => ?_
    rw [dif_pos h]
  · rw [pay4_hi x0 x1 k h]
    refine Finset.sum_congr rfl fun s _ => ?_
    rw [dif_neg h]

/-- The column of channel sums of squares is the sample's. -/
theorem pay5_eq (x0 x1 : Vec Ideal S1x128x3136 .f32) :
    (fun k : Fin 256 => k0_pay5 (F := Ideal) x0 x1 (ix2 k 0)) = Cert.Spec.chanSq (Cert.Spec.halves x0 x1) := by
  funext k
  unfold Cert.Spec.chanSq Cert.Spec.halves
  by_cases h : k.val < 128
  · rw [pay5_lo x0 x1 k h]
    refine Finset.sum_congr rfl fun s _ => ?_
    rw [dif_pos h]
  · rw [pay5_hi x0 x1 k h]
    refine Finset.sum_congr rfl fun s _ => ?_
    rw [dif_neg h]

/-! ## The group mask and the group sums -/

/-- The row index floor-divided by four. -/
theorem pay6_apply (i j : Fin 256) : k0_pay6 (ix2 i j) = fdiv4 (BitVec.ofNat 32 i.val) := by
  refine Eq.trans (?_ : _ = fdiv4 (iota .tc S256x256 32 [0] iota_S256x256_d0_w32 (ix2 i j)))
    (congrArg fdiv4 (iota_single_apply .tc S256x256 32 0 _ (ix2 i j)))
  rfl

/-- The column index. -/
theorem colIota_apply (i j : Fin 256) : colIota (ix2 i j) = BitVec.ofNat 32 j.val :=
  iota_single_apply .tc S256x256 32 1 _ (ix2 i j)

/-- The mask times the two sum columns side by side, at row i, column c: the sum over channels j of the one-hot
    group entry times column c at j. -/
theorem pay7_apply (v8 v15 : FVec Ideal S256x1 .f32) (i : Fin 256) (c : Fin 2) :
    k0_pay7 (F := Ideal) v8 v15 k0_pay6 colIota (ix2 i c)
      = ∑ j : Fin 256, (if i.val / 4 = j.val / 4 then (1 : EReal) else 0)
          * concatenate S256x2 1 [⟨S256x1, v8⟩, ⟨S256x1, v15⟩] concatenates_S256x1_S256x1_S256x2_d1 (ix2 j c) := by
  unfold k0_pay7
  show FloatOps.matmul (DotDims.plain 256 256 2) (some .fp32) _ _
      (constant (F := Ideal) ⟨2, ![256, 2]⟩ .f32 0x00000000#32) (ix2 i c) = _
  rw [Cert.Lib.PlainMatmul.matmul_zero_apply]
  refine Finset.sum_congr rfl fun j _ => congrArg₂ (· * ·) ?_ rfl
  refine Eq.trans (?_ : _ = FloatOps.sitofp (F := Ideal) .f32
    ((IntOp.cmpi .eq (k0_pay6 (ix2 i j)) (fdiv4 (colIota (ix2 i j)))).setWidth 32)) ?_
  · rfl
  · rw [pay6_apply, colIota_apply, mask_val]

/-- Column 0 of the product: the group sum of the first column. -/
theorem pay7_col0 (v8 v15 : FVec Ideal S256x1 .f32) (i : Fin 256) :
    k0_pay7 (F := Ideal) v8 v15 k0_pay6 colIota (ix2 i 0) = Cert.Spec.grp (fun k => v8 (ix2 k 0)) i := by
  rw [pay7_apply]
  refine Eq.trans (Finset.sum_congr rfl fun j _ =>
    congrArg ((if i.val / 4 = j.val / 4 then (1 : EReal) else 0) * ·) ?_)
    (Cert.Spec.sum_group_mask (fun k => v8 (ix2 k 0)) i)
  exact concatenate_pair_apply_left (t := S256x2) 1 v8 v15 _ (ix2 j 0) rfl (ix2 j 0)
    (fun b => match b with | ⟨0, _⟩ => rfl | ⟨1, _⟩ => rfl)

/-- Column 1 of the product: the group sum of the second column. -/
theorem pay7_col1 (v8 v15 : FVec Ideal S256x1 .f32) (i : Fin 256) :
    k0_pay7 (F := Ideal) v8 v15 k0_pay6 colIota (ix2 i 1) = Cert.Spec.grp (fun k => v15 (ix2 k 0)) i := by
  rw [pay7_apply]
  refine Eq.trans (Finset.sum_congr rfl fun j _ =>
    congrArg ((if i.val / 4 = j.val / 4 then (1 : EReal) else 0) * ·) ?_)
    (Cert.Spec.sum_group_mask (fun k => v15 (ix2 k 0)) i)
  exact concatenate_pair_apply_right (t := S256x2) 1 v8 v15 _ (ix2 j 1) rfl rfl (ix2 j 0)
    (fun b hb => match b, hb with
      | ⟨0, _⟩, _ => rfl
      | ⟨1, _⟩, hb => (hb (Fin.ext rfl)).elim)
    rfl

/-! ## Mean and scale -/

/-- The group mean. -/
theorem pay8_apply (v8 v15 : FVec Ideal S256x1 .f32) (i : Fin 256) :
    k0_pay8 (F := Ideal) v8 v15 k0_pay6 colIota (ix2 i 0) = Cert.Spec.mean (fun k => v8 (ix2 k 0)) i := by
  unfold k0_pay8 Cert.Spec.mean
  show (extractStridedSlice S256x1 ![0, 0] (k0_pay7 (F := Ideal) v8 v15 k0_pay6 colIota) slices_S256x2_o0_0_S256x1
      (ix2 i 0) : EReal) * Cert.Spec.cinv = _
  rw [slice2_axis1_apply 0 _ _ i 0 0 rfl, pay7_col0]

/-- The channel's scale. -/
theorem pay9_apply (v8 v15 : FVec Ideal S256x1 .f32) (v82 : Vec Ideal S256x1 .f32) (i : Fin 256) :
    k0_pay9 (F := Ideal) v8 v15 k0_pay6 colIota v82 (ix2 i 0)
      = Cert.Spec.scale (fun k => v8 (ix2 k 0)) (fun k => v15 (ix2 k 0)) (fun k => v82 (ix2 k 0)) i := by
  unfold k0_pay9 Cert.Spec.scale Cert.Spec.rstd Cert.Spec.meanSq
  show (shapeCast S256x1 v82 shapeCasts_S256x1_S256x1 (ix2 i 0) : EReal)
      * Ideal.rsqrt ((extractStridedSlice S256x1 ![0, 1] (k0_pay7 (F := Ideal) v8 v15 k0_pay6 colIota)
            slices_S256x2_o0_1_S256x1 (ix2 i 0) : EReal) * Cert.Spec.cinv
          - (k0_pay8 (F := Ideal) v8 v15 k0_pay6 colIota (ix2 i 0) : EReal)
              * k0_pay8 (F := Ideal) v8 v15 k0_pay6 colIota (ix2 i 0)
          + Cert.Spec.ceps) = _
  rw [shapeCast_self, slice2_axis1_apply 1 _ _ i 0 1 rfl, pay7_col1, pay8_apply]

/-- The shift column is the loaded one. -/
theorem pay10_eq (v85 : Vec Ideal S256x1 .f32) : k0_pay10 (F := Ideal) v85 = v85 := by
  unfold k0_pay10
  exact shapeCast_self v85 _

end Cert.KernelIdeal.Value

end
-- ==== Proof.KernelStored.lean ====
/-
  The value the kernel's body stores, read at one entry of the output block, is the specification's result for the
  sample held in the two half-channel blocks.

  Per channel the body sums the entries and their squares along the lane axis; a matrix product with the one-hot mask
  `mask i j = 1` if channels `i` and `j` share a group (`i / 4 = j / 4`), else `0`, turns the channel sums into group sums
  (a sum against a one-hot group mask is the sum over the group's four members); scaling by the one constant gives mean
  and mean of squares, the reciprocal square root the normalization, `γ` and `β` the channel's scale and shift. The
  normalized halves are multiplied by the two K-halves of the weights and added (a sum over 256 channels is the sum of
  its two halves), and the bias is added. Format changes are the identity on the extended reals.
-/
import proofs.«156338_g2000302674448580_pallasbulk_969_14_alg».proof.Proof.KernelIdealOut
import proofs.«156338_g2000302674448580_pallasbulk_969_14_alg».proof.Proof.SumLaws
import proofs.«156338_g2000302674448580_pallasbulk_969_14_alg».proof.Proof.LibPlainMatmul
import proofs.«156338_g2000302674448580_pallasbulk_969_14_alg».proof.Proof.KernelStoredStats
import Idealize.ShloMosaic.Lib.Pipeline.Value
import Idealize.ShloMosaic.Lib.ValueLayout

noncomputable section

namespace Cert.KernelIdeal.Value

open Cert.KernelIdeal Cert.KernelIdeal.Gen Cert.KernelIdeal.Hand
open Idealize.ShloMosaic Idealize.ShloMosaic.ValueIdx

/-! ## The two halves of the channel axis -/

/-- Channel `k` of the lower half, among the 256. -/
abbrev lo (k : Fin 128) : Fin 256 := ⟨k.val, by have := k.isLt; omega⟩
/-- Channel `k` of the upper half, among the 256. -/
abbrev hi (k : Fin 128) : Fin 256 := ⟨128 + k.val, by have := k.isLt; omega⟩

/-- A lower-half channel of the sample is read from the first block. -/
theorem halves_lo (x0 x1 : Vec Ideal S1x128x3136 .f32) (k : Fin 128) (s : Fin 3136) :
    Cert.Spec.halves x0 x1 (lo k) s = x0 (ix3 0 k s) := by
  unfold Cert.Spec.halves
  rw [dif_pos (show (lo k).val < 128 from k.isLt)]

/-- An upper-half channel of the sample is read from the second block. -/
theorem halves_hi (x0 x1 : Vec Ideal S1x128x3136 .f32) (k : Fin 128) (s : Fin 3136) :
    Cert.Spec.halves x0 x1 (hi k) s = x1 (ix3 0 k s) := by
  have hk := k.isLt
  unfold Cert.Spec.halves
  rw [dif_neg (show ¬ (hi k).val < 128 by show ¬ 128 + k.val < 128; omega)]
  refine congrArg (fun t : Fin 128 => x1 (ix3 0 t s)) (Fin.ext ?_)
  show 128 + k.val - 128 = k.val
  omega

/-- The first K-half of the weights, as loaded: entry (0, o, k) is the matrix at (o, k). -/
theorem wLo (x4 : Vec Ideal S2x256x128 .bf16) (o : Fin 256) (k : Fin 128) :
    View.ld x4 rW0 (ix3 0 o k) = Cert.Spec.wHalves x4 o (lo k) := by
  have hk := k.isLt
  unfold Cert.Spec.wHalves
  refine congrArg x4 (funext fun a => Fin.ext ?_)
  match a with
  | ⟨0, _⟩ => show 0 + 1 * 0 = k.val / 128; omega
  | ⟨1, _⟩ => show 0 + 1 * o.val = o.val; omega
  | ⟨2, _⟩ => show 0 + 1 * k.val = k.val % 128; omega

/-- The second K-half of the weights, as loaded: entry (0, o, k) is the matrix at (o, 128 + k). -/
theorem wHi (x4 : Vec Ideal S2x256x128 .bf16) (o : Fin 256) (k : Fin 128) :
    View.ld x4 rW1 (ix3 0 o k) = Cert.Spec.wHalves x4 o (hi k) := by
  have hk := k.isLt
  unfold Cert.Spec.wHalves
  refine congrArg x4 (funext fun a => Fin.ext ?_)
  match a with
  | ⟨0, _⟩ => show 1 + 1 * 0 = (128 + k.val) / 128; omega
  | ⟨1, _⟩ => show 0 + 1 * o.val = o.val; omega
  | ⟨2, _⟩ => show 0 + 1 * k.val = (128 + k.val) % 128; omega

/-! ## Columns broadcast along the lanes -/

/-- A column of 256 broadcast along the lanes reads its row. -/
theorem bcast256_apply (v : FVec Ideal S256x1 .f32) (o : Fin 256) (s : Fin 3136) :
    broadcastTo S256x3136 v broadcasts_S256x1_S256x3136 (ix2 o s) = v (ix2 o 0) :=
  broadcastTo_apply v _ (ix2 o s) (ix2 o 0) fun a => match a with | ⟨0, _⟩ => rfl | ⟨1, _⟩ => rfl

/-- The first 128 rows of a column of 256, broadcast along the lanes. -/
theorem bcastLo_apply (v : FVec Ideal S256x1 .f32) (k : Fin 128) (s : Fin 3136) :
    broadcastTo S128x3136 (extractStridedSlice S128x1 ![0, 0] v slices_S256x1_o0_0_S128x1)
        broadcasts_S128x1_S128x3136 (ix2 k s) = v (ix2 (lo k) 0) := by
  refine (broadcastTo_apply (s := S128x1) (t := S128x3136) _ _ (ix2 k s) (ix2 k (0 : Fin 1)) ?_).trans
    (slice2_axis0_apply 0 v _ k 0 (lo k) (Nat.zero_add _).symm)
  intro a
  match a with
  | ⟨0, _⟩ => rfl
  | ⟨1, _⟩ => rfl

/-- The last 128 rows of a column of 256, broadcast along the lanes. -/
theorem bcastHi_apply (v : FVec Ideal S256x1 .f32) (k : Fin 128) (s : Fin 3136) :
    broadcastTo S128x3136 (extractStridedSlice S128x1 ![128, 0] v slices_S256x1_o128_0_S128x1)
        broadcasts_S128x1_S128x3136 (ix2 k s) = v (ix2 (hi k) 0) := by
  refine (broadcastTo_apply (s := S128x1) (t := S128x3136) _ _ (ix2 k s) (ix2 k (0 : Fin 1)) ?_).trans
    (slice2_axis0_apply 128 v _ k 0 (hi k) rfl)
  intro a
  match a with
  | ⟨0, _⟩ => rfl
  | ⟨1, _⟩ => rfl

/-! ## The projection of the normalized halves -/

/-- The stored block over its operands, at output channel `o`, entry `s`: the two K-halves of the weights against the
    two normalized half blocks (each entry times its channel's scale plus its channel's shift, the shift being
    `β - mean * scale`), added, plus the bias. -/
theorem pay1_apply (v1 v3 : FVec Ideal S128x3136 .f32) (v73 v84 v86 : FVec Ideal S256x1 .f32)
    (v103 v106 : Vec Ideal S1x256x128 .bf16) (v110 : Vec Ideal S256x1 .f32) (o : Fin 256) (s : Fin 3136) :
    k0_pay1 (F := Ideal) v1 v3 v73 v84 v86 v103 v106 v110 (ix3 0 o s)
      = ((∑ k : Fin 128, v103 (ix3 0 o k)
            * (v1 (ix2 k s) * v84 (ix2 (lo k) 0) + (v86 (ix2 (lo k) 0) - v73 (ix2 (lo k) 0) * v84 (ix2 (lo k) 0))))
          + ∑ k : Fin 128, v106 (ix3 0 o k)
            * (v3 (ix2 k s) * v84 (ix2 (hi k) 0) + (v86 (ix2 (hi k) 0) - v73 (ix2 (hi k) 0) * v84 (ix2 (hi k) 0))))
        + v110 (ix2 o 0) := by
  unfold k0_pay1
  refine (shapeCast_ab_1ab_apply _ _ (0 : Fin 1) o s).trans ?_
  show ((FloatOps.matmul (DotDims.plain 256 128 3136) none _ _
            (constant (F := Ideal) ⟨2, ![256, 3136]⟩ .f32 0x00000000#32) (ix2 o s) : EReal)
        + (FloatOps.matmul (DotDims.plain 256 128 3136) none _ _
            (constant (F := Ideal) ⟨2, ![256, 3136]⟩ .f32 0x00000000#32) (ix2 o s) : EReal))
      + (broadcastTo S256x3136 (shapeCast S256x1 v110 shapeCasts_S256x1_S256x1) broadcasts_S256x1_S256x3136
          (ix2 o s) : EReal) = _
  rw [Cert.Lib.PlainMatmul.matmul_zero_apply, Cert.Lib.PlainMatmul.matmul_zero_apply, shapeCast_self v110,
    bcast256_apply]
  refine congrArg (· + v110 (ix2 o 0))
    (congrArg₂ (· + ·) (Finset.sum_congr rfl fun k _ => ?_) (Finset.sum_congr rfl fun k _ => ?_))
  · refine congrArg₂ (· * ·) (shapeCast_1ab_ab_apply v103 _ o k) ?_
    show (v1 (ix2 k s) : EReal)
          * (broadcastTo S128x3136 (extractStridedSlice S128x1 ![0, 0] v84 slices_S256x1_o0_0_S128x1)
              broadcasts_S128x1_S128x3136 (ix2 k s) : EReal)
        + (broadcastTo S128x3136 (extractStridedSlice S128x1 ![0, 0] (subf v86 (mulf v73 v84))
              slices_S256x1_o0_0_S128x1) broadcasts_S128x1_S128x3136 (ix2 k s) : EReal) = _
    rw [bcastLo_apply, bcastLo_apply]
    rfl
  · refine congrArg₂ (· * ·) (shapeCast_1ab_ab_apply v106 _ o k) ?_
    show (v3 (ix2 k s) : EReal)
          * (broadcastTo S128x3136 (extractStridedSlice S128x1 ![128, 0] v84 slices_S256x1_o128_0_S128x1)
              broadcasts_S128x1_S128x3136 (ix2 k s) : EReal)
        + (broadcastTo S128x3136 (extractStridedSlice S128x1 ![128, 0] (subf v86 (mulf v73 v84))
              slices_S256x1_o128_0_S128x1) broadcasts_S128x1_S128x3136 (ix2 k s) : EReal) = _
    rw [bcastHi_apply, bcastHi_apply]
    rfl

/-! ## The stored block -/

/-- The stored value over the loaded blocks themselves: a load through a whole-buffer rectangle reads the buffer. -/
theorem stored_eq (x0 x1 : Vec Ideal S1x128x3136 .f32) (x2 x3 : Vec Ideal S256x1 .f32) (x4 : Vec Ideal S2x256x128 .bf16)
    (x5 : Vec Ideal S256x1 .f32) :
    stored (F := Ideal) x0 x1 x2 x3 x4 x5
      = k0_pay1 (F := Ideal) (k0_pay2 x0) (k0_pay3 x1)
          (k0_pay8 (k0_pay4 x0 x1) (k0_pay5 x0 x1) k0_pay6 colIota)
          (k0_pay9 (k0_pay4 x0 x1) (k0_pay5 x0 x1) k0_pay6 colIota x2)
          x3 (View.ld x4 rW0) (View.ld x4 rW1) x5 := by
  have z3 : (![0, 0, 0] : Fin 3 → Nat) = fun _ => 0 := by
    funext a; match a with | ⟨0, _⟩ => rfl | ⟨1, _⟩ => rfl | ⟨2, _⟩ => rfl
  have z2 : (![0, 0] : Fin 2 → Nat) = fun _ => 0 := by
    funext a; match a with | ⟨0, _⟩ => rfl | ⟨1, _⟩ => rfl
  have h0 : View.ld x0 rX = x0 := View.ld_unit_zero (Val := Elt Ideal) (e := .f32) z3 _ x0
  have h1 : View.ld x1 rX = x1 := View.ld_unit_zero (Val := Elt Ideal) (e := .f32) z3 _ x1
  have h2 : View.ld x2 rC = x2 := View.ld_unit_zero (Val := Elt Ideal) (e := .f32) z2 _ x2
  have h3 : View.ld x3 rC = x3 := View.ld_unit_zero (Val := Elt Ideal) (e := .f32) z2 _ x3
  have h5 : View.ld x5 rC = x5 := View.ld_unit_zero (Val := Elt Ideal) (e := .f32) z2 _ x5
  show k0_pay1 (F := Ideal) (k0_pay2 (View.ld x0 rX)) (k0_pay3 (View.ld x1 rX))
      (k0_pay8 (k0_pay4 (View.ld x0 rX) (View.ld x1 rX)) (k0_pay5 (View.ld x0 rX) (View.ld x1 rX)) k0_pay6 colIota)
      (k0_pay9 (k0_pay4 (View.ld x0 rX) (View.ld x1 rX)) (k0_pay5 (View.ld x0 rX) (View.ld x1 rX)) k0_pay6 colIota
        (View.ld x2 rC))
      (k0_pay10 (View.ld x3 rC)) (View.ld x4 rW0) (View.ld x4 rW1) (View.ld x5 rC) = _
  rw [h0, h1, h2, h3, h5, pay10_eq]

/-- The stored block at output channel `o`, entry `s`. -/
theorem stored_apply (x0 x1 : Vec Ideal S1x128x3136 .f32) (x2 x3 : Vec Ideal S256x1 .f32) (x4 : Vec Ideal S2x256x128 .bf16)
    (x5 : Vec Ideal S256x1 .f32) (o : Fin 256) (s : Fin 3136) :
    stored (F := Ideal) x0 x1 x2 x3 x4 x5 (ix3 0 o s)
      = Cert.Spec.sampleAt (Cert.Spec.halves x0 x1) (fun k => x2 (ix2 k 0)) (fun k => x3 (ix2 k 0)) (fun k => x5 (ix2 k 0))
          (Cert.Spec.wHalves x4) o s := by
  rw [stored_eq, pay1_apply]
  unfold Cert.Spec.sampleAt Cert.Spec.mix
  refine congrArg (· + x5 (ix2 o 0)) ?_
  refine Eq.trans ?_ (Cert.Spec.sum_halves _)
  refine congrArg₂ (· + ·) (Finset.sum_congr rfl fun k _ => ?_) (Finset.sum_congr rfl fun k _ => ?_)
  · rw [pay2_apply, pay9_apply, pay8_apply, pay4_eq, pay5_eq, wLo, ← halves_lo x0 x1 k s]
    rfl
  · rw [pay3_apply, pay9_apply, pay8_apply, pay4_eq, pay5_eq, wHi, ← halves_hi x0 x1 k s]
    rfl

end Cert.KernelIdeal.Value

end
-- ==== Proof.KernelArrays.lean ====
/-
  The kernel region's output array after the run, read at one entry.

  The grid has one point per sample; point `b` reads the sample's lower and upper 128 channels through two windows of
  the one input array (blocks `(b, 0, 0)` and `(b, 1, 0)` of extent `[1, 128, 3136]`), the parameter columns, the bias
  and the weights' two K-halves whole, and writes block `(b, 0, 0)` of the output. The blocks tile the output array, so
  entry `(b, o, s)` of the final array is entry `(0, o, s)` of what point `b` stored: the specification's result for
  sample `b` of the entry contents.
-/
import proofs.«156338_g2000302674448580_pallasbulk_969_14_alg».proof.Proof.KernelIdealData
import proofs.«156338_g2000302674448580_pallasbulk_969_14_alg».proof.Proof.KernelStored
import Idealize.ShloMosaic.Lib.Pipeline.Value

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

section Blocks
variable (V : (c : Dev nD) → (b : Ref sig .tc) → Buf (Elt Ideal) ((c : Thread nD τ).loc b))

/-- The whole-block rectangle starts at the origin. -/
theorem origin3 : (![0, 0, 0] : Fin 3 → Nat) = fun _ => 0 := funext fun a => by fin_cases a <;> rfl

/-! ## The block index of each window at a grid point -/

/-- The lower-half window sits at block `(t, 0, 0)`, -/
theorem index_lower : ∀ t : Fin cfg0.N, win0_0.index t (0 : Fin 3) = t.val ∧ win0_0.index t (1 : Fin 3) = 0 ∧ win0_0.index t (2 : Fin 3) = 0 :=
  (by decide +kernel : ∀ t : Fin grid0.N, _)
/-- the upper-half window at block `(t, 1, 0)`, -/
theorem index_upper : ∀ t : Fin cfg0.N, win0_1.index t (0 : Fin 3) = t.val ∧ win0_1.index t (1 : Fin 3) = 1 ∧ win0_1.index t (2 : Fin 3) = 0 :=
  (by decide +kernel : ∀ t : Fin grid0.N, _)
/-- the parameter columns, the weights and the bias at their one block, -/
theorem index_gamma : ∀ t : Fin cfg0.N, win0_2.index t (0 : Fin 2) = 0 ∧ win0_2.index t (1 : Fin 2) = 0 :=
  (by decide +kernel : ∀ t : Fin grid0.N, _)
theorem index_beta : ∀ t : Fin cfg0.N, win0_3.index t (0 : Fin 2) = 0 ∧ win0_3.index t (1 : Fin 2) = 0 :=
  (by decide +kernel : ∀ t : Fin grid0.N, _)
theorem index_weights : ∀ t : Fin cfg0.N, win0_4.index t (0 : Fin 3) = 0 ∧ win0_4.index t (1 : Fin 3) = 0 ∧ win0_4.index t (2 : Fin 3) = 0 :=
  (by decide +kernel : ∀ t : Fin grid0.N, _)
theorem index_bias : ∀ t : Fin cfg0.N, win0_5.index t (0 : Fin 2) = 0 ∧ win0_5.index t (1 : Fin 2) = 0 :=
  (by decide +kernel : ∀ t : Fin grid0.N, _)
/-- and the output window at block `(t, 0, 0)`. -/
theorem index_out : ∀ t : Fin cfg0.N, win0_6.index t (0 : Fin 3) = t.val ∧ win0_6.index t (1 : Fin 3) = 0 ∧ win0_6.index t (2 : Fin 3) = 0 :=
  (by decide +kernel : ∀ t : Fin grid0.N, _)

/-! ## Each input block, read off its array -/

/-- Channel `k` of the lower-half block at point `t` is channel `k` of sample `t`. -/
theorem lower_block (c : Dev nD) (t : Fin cfg0.N) (b : Fin 16) (hb : b.val = t.val) (k : Fin 128) (s : Fin 3136)
    (k' : Fin 256) (hk : k'.val = k.val) :
    (iblk0 V c 0 t : Vec Ideal S1x128x3136 .f32) (ix3 0 k s) = V c main_v0 (ix3 b k' s) := by
  obtain ⟨e0, e1, e2⟩ := index_lower t
  show V c main_v0 (((cfg0.win 0).blk t).view.emb (ix3 0 k s)) = V c main_v0 (ix3 b k' s)
  refine congrArg (V c main_v0) ?_
  funext a
  apply Fin.ext
  match a with
  | ⟨0, _⟩ => show win0_0.index t (0 : Fin 3) * 1 + 1 * 0 = b.val; omega
  | ⟨1, _⟩ => show win0_0.index t (1 : Fin 3) * 128 + 1 * k.val = k'.val; omega
  | ⟨2, _⟩ => show win0_0.index t (2 : Fin 3) * 3136 + 1 * s.val = s.val; omega

/-- Channel `k` of the upper-half block at point `t` is channel `128 + k` of sample `t`. -/
theorem upper_block (c : Dev nD) (t : Fin cfg0.N) (b : Fin 16) (hb : b.val = t.val) (k : Fin 128) (s : Fin 3136)
    (k' : Fin 256) (hk : k'.val = 128 + k.val) :
    (iblk0 V c 1 t : Vec Ideal S1x128x3136 .f32) (ix3 0 k s) = V c main_v0 (ix3 b k' s) := by
  obtain ⟨e0, e1, e2⟩ := index_upper t
  show V c main_v0 (((cfg0.win 1).blk t).view.emb (ix3 0 k s)) = V c main_v0 (ix3 b k' s)
  refine congrArg (V c main_v0) ?_
  funext a
  apply Fin.ext
  match a with
  | ⟨0, _⟩ => show win0_1.index t (0 : Fin 3) * 1 + 1 * 0 = b.val; omega
  | ⟨1, _⟩ => show win0_1.index t (1 : Fin 3) * 128 + 1 * k.val = k'.val; omega
  | ⟨2, _⟩ => show win0_1.index t (2 : Fin 3) * 3136 + 1 * s.val = s.val; omega

/-- The two half blocks at point `t` together are sample `t`. -/
theorem halves_blocks (c : Dev nD) (t : Fin cfg0.N) (b : Fin 16) (hb : b.val = t.val) :
    Cert.Spec.halves (iblk0 V c 0 t) (iblk0 V c 1 t) = fun k s => V c main_v0 (ix3 b k s) := by
  funext k s
  unfold Cert.Spec.halves
  split
  · rename_i h
    exact lower_block V c t b hb ⟨k.val, h⟩ s k rfl
  · rename_i h
    exact upper_block V c t b hb ⟨k.val - 128, by have := k.isLt; omega⟩ s k (by show k.val = 128 + (k.val - 128); omega)

/-- The scale column's block is the whole column, -/
theorem gamma_block (c : Dev nD) (t : Fin cfg0.N) : (iblk0 V c 2 t : Vec Ideal S256x1 .f32) = V c main_v1 := by
  obtain ⟨e0, e1⟩ := index_gamma t
  funext y
  show V c main_v1 (((cfg0.win 2).blk t).view.emb y) = V c main_v1 y
  refine congrArg (V c main_v1) ?_
  funext a
  apply Fin.ext
  match a with
  | ⟨0, _⟩ => show win0_2.index t (0 : Fin 2) * 256 + 1 * (y 0).val = (y 0).val; omega
  | ⟨1, _⟩ => show win0_2.index t (1 : Fin 2) * 1 + 1 * (y 1).val = (y 1).val; omega

/-- the shift column's likewise, -/
theorem beta_block (c : Dev nD) (t : Fin cfg0.N) : (iblk0 V c 3 t : Vec Ideal S256x1 .f32) = V c main_v2 := by
  obtain ⟨e0, e1⟩ := index_beta t
  funext y
  show V c main_v2 (((cfg0.win 3).blk t).view.emb y) = V c main_v2 y
  refine congrArg (V c main_v2) ?_
  funext a
  apply Fin.ext
  match a with
  | ⟨0, _⟩ => show win0_3.index t (0 : Fin 2) * 256 + 1 * (y 0).val = (y 0).val; omega
  | ⟨1, _⟩ => show win0_3.index t (1 : Fin 2) * 1 + 1 * (y 1).val = (y 1).val; omega

/-- the weights' block is both K-halves, -/
theorem weights_block (c : Dev nD) (t : Fin cfg0.N) : (iblk0 V c 4 t : Vec Ideal S2x256x128 .bf16) = V c main_v6 := by
  obtain ⟨e0, e1, e2⟩ := index_weights t
  funext y
  show V c main_v6 (((cfg0.win 4).blk t).view.emb y) = V c main_v6 y
  refine congrArg (V c main_v6) ?_
  funext a
  apply Fin.ext
  match a with
  | ⟨0, _⟩ => show win0_4.index t (0 : Fin 3) * 2 + 1 * (y 0).val = (y 0).val; omega
  | ⟨1, _⟩ => show win0_4.index t (1 : Fin 3) * 256 + 1 * (y 1).val = (y 1).val; omega
  | ⟨2, _⟩ => show win0_4.index t (2 : Fin 3) * 128 + 1 * (y 2).val = (y 2).val; omega

/-- and the bias column's block is the whole column. -/
theorem bias_block (c : Dev nD) (t : Fin cfg0.N) : (iblk0 V c 5 t : Vec Ideal S256x1 .f32) = V c main_v3 := by
  obtain ⟨e0, e1⟩ := index_bias t
  funext y
  show V c main_v3 (((cfg0.win 5).blk t).view.emb y) = V c main_v3 y
  refine congrArg (V c main_v3) ?_
  funext a
  apply Fin.ext
  match a with
  | ⟨0, _⟩ => show win0_5.index t (0 : Fin 2) * 256 + 1 * (y 0).val = (y 0).val; omega
  | ⟨1, _⟩ => show win0_5.index t (1 : Fin 2) * 1 + 1 * (y 1).val = (y 1).val; omega

/-! ## The output array as one function of the entry contents -/

/-- Entry `(b, o, s)`: the specification's result for sample `b` at output channel `o`, entry `s`. -/
def arrayOf (c : Dev nD) : S16x256x3136.Idx → EReal := fun i =>
  Cert.Spec.sampleAt (fun k s => V c main_v0 (ix3 (i 0 : Fin 16) k s)) (fun k => V c main_v1 (ix2 k 0)) (fun k => V c main_v2 (ix2 k 0))
    (fun k => V c main_v3 (ix2 k 0)) (Cert.Spec.wHalves (V c main_v6)) (i 1 : Fin 256) (i 2 : Fin 3136)

/-- What point `t` stores at `(0, o, s)` is the array's entry `(t, o, s)`. -/
theorem point_entry (c : Dev nD) (t : Fin cfg0.N) (b : Fin 16) (hb : b.val = t.val) (o : Fin 256) (s : Fin 3136) :
    stored (F := Ideal) (iblk0 V c 0 t) (iblk0 V c 1 t) (iblk0 V c 2 t) (iblk0 V c 3 t) (iblk0 V c 4 t) (iblk0 V c 5 t) (ix3 0 o s)
      = arrayOf V c (ix3 b o s) := by
  refine (stored_apply (iblk0 V c 0 t) (iblk0 V c 1 t) (iblk0 V c 2 t) (iblk0 V c 3 t) (iblk0 V c 4 t) (iblk0 V c 5 t) o s).trans ?_
  rw [halves_blocks V c t b hb, gamma_block V c t, beta_block V c t, weights_block V c t, bias_block V c t]
  rfl

/-- What point `t` writes back is block `t` of that array. -/
theorem flushed_eq (c : Dev nD) (t : Fin cfg0.N) :
    (dat0 (F := Ideal) V c).flushed 6 t = ((cfg0.win 6).blk t).view.read (Elt Ideal) (arrayOf V c) := by
  show (cfg0.win 6).cut (grid0.coords t) ((dat0 (F := Ideal) V c).after 6 t) = _
  rw [after0_6]
  unfold out0_6
  rw [View.canon_unit_zero origin3]
  funext j
  have h0 : (j 0).val < 1 := (j 0).isLt
  have ho : (j 1).val < 256 := (j 1).isLt
  have hs : (j 2).val < 3136 := (j 2).isLt
  have hb : t.val < 16 := lt_of_lt_of_eq t.isLt N_0
  obtain ⟨e0, e1, e2⟩ := index_out t
  have hj : (cfg0.win 6).xinj (grid0.coords t) j = ix3 (0 : Fin 1) (⟨(j 1).val, ho⟩ : Fin 256) (⟨(j 2).val, hs⟩ : Fin 3136) := by
    funext a
    apply Fin.ext
    match a with
    | ⟨0, _⟩ => show (j 0).val = 0; omega
    | ⟨1, _⟩ => rfl
    | ⟨2, _⟩ => rfl
  have hi : ((cfg0.win 6).blk t).view.emb j = ix3 (⟨t.val, hb⟩ : Fin 16) (⟨(j 1).val, ho⟩ : Fin 256) (⟨(j 2).val, hs⟩ : Fin 3136) := by
    funext a
    apply Fin.ext
    match a with
    | ⟨0, _⟩ => show win0_6.index t (0 : Fin 3) * 1 + 1 * (j 0).val = t.val; omega
    | ⟨1, _⟩ => show win0_6.index t (1 : Fin 3) * 256 + 1 * (j 1).val = (j 1).val; omega
    | ⟨2, _⟩ => show win0_6.index t (2 : Fin 3) * 3136 + 1 * (j 2).val = (j 2).val; omega
  exact (congrArg (stored (F := Ideal) (iblk0 V c 0 t) (iblk0 V c 1 t) (iblk0 V c 2 t) (iblk0 V c 3 t) (iblk0 V c 4 t) (iblk0 V c 5 t)) hj).trans
    ((point_entry V c t ⟨t.val, hb⟩ rfl ⟨(j 1).val, ho⟩ ⟨(j 2).val, hs⟩).trans (congrArg (arrayOf V c) hi.symm))

/-! ## The blocks tile the array -/

/-- An index is in point `t`'s block iff each coordinate is in the block's range on its axis. -/
theorem mem_block (t : Fin cfg0.N) (i : S16x256x3136.Idx) :
    i ∈ ((cfg0.win 6).blk t).view.set ↔ ∀ a : Fin 3, win0_6.index t a * S1x256x3136.size a ≤ (i a).val ∧ (i a).val < win0_6.index t a * S1x256x3136.size a + S1x256x3136.size a := by
  show i ∈ ((View.whole main_v7).slice (win0_6.rect t)).set ↔ _
  rw [View.set_slice_whole, Rect.mem_set_unit]
  exact Iff.rfl

/-- Entry `(b, o, s)` is in point `b`'s block. -/
theorem covered (i : S16x256x3136.Idx) : ∃ t : Fin cfg0.N, (cfg0.win 6).flush t = true ∧ i ∈ ((cfg0.win 6).blk t).view.set := by
  have hb : (i 0).val < 16 := (i 0).isLt
  have ho : (i 1).val < 256 := (i 1).isLt
  have hs : (i 2).val < 3136 := (i 2).isLt
  obtain ⟨t, ht⟩ : ∃ t : Fin cfg0.N, t.val = (i 0).val := ⟨⟨(i 0).val, lt_of_lt_of_eq hb N_0.symm⟩, rfl⟩
  obtain ⟨e0, e1, e2⟩ := index_out t
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 3136 ≤ (i 2).val ∧ (i 2).val < win0_6.index t (2 : Fin 3) * 3136 + 3136; omega

/-- So the output array ends holding that function. -/
theorem array_eq (c : Dev nD) : (dat0 (F := Ideal) V c).arrAt 6 cfg0.N = arrayOf V c :=
  (dat0 (F := Ideal) V c).arrAt_eq_of_cover 6 (arrayOf V c) (fun t _ => flushed_eq V c t) covered

end Blocks

/-- Entry `(b, o, s)` of the output array when the region ends, from the contents `V` the region is entered with. -/
theorem kernel_array (V : (c : Dev nD) → (b : Ref sig .tc) → Buf (Elt Ideal) ((c : Thread nD τ).loc b)) (c : Dev nD) (b : Fin 16) (o : Fin 256) (s : Fin 3136) :
    (dat0 (F := Ideal) V c).arrAt 6 cfg0.N (ix3 b o s)
      = Cert.Spec.sampleAt (fun k s => V c main_v0 (ix3 b k s)) (fun k => V c main_v1 (ix2 k 0)) (fun k => V c main_v2 (ix2 k 0))
          (fun k => V c main_v3 (ix2 k 0)) (Cert.Spec.wHalves (V c main_v6)) o s :=
  congrFun (array_eq V c) (ix3 b o s)

end Cert.KernelIdeal.Value

end
-- ==== Proof.KernelValue.lean ====
/-
  The kernel program's result array, read at one entry, is the specification's result of the argument arrays.

  Before the region the host reshapes the input `[16, 256, 56, 56]` to `[16, 256, 3136]` (entry `s` is row `s / 56`,
  column `s % 56`), the three length-256 arguments to columns, and the matrix — narrowed, which is the identity here —
  to `[256, 2, 128]` and by a transpose to its two K-halves `[2, 256, 128]`: half `k / 128` holds entry `(o, k)` at
  `(o, k % 128)`. Behind the region it reshapes the output back to `[16, 256, 56, 56]` and widens it (the identity).
-/
import proofs.«156338_g2000302674448580_pallasbulk_969_14_alg».proof.Proof.KernelArrays
import Idealize.ShloMosaic.Lib.StableHlo.Run
import Idealize.ShloMosaic.Lib.Pipeline.Value
import Idealize.ShloMosaic.Lib.ValueLayout

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx Idealize.SL.Sem

/-! ## The reshapes and the transpose, read on coordinates

A reshape keeps the row-major position; the transpose `[1, 0, 2]` exchanges the first two coordinates. -/

section Reads
variable {α : Type}

/-- `[16, 256, 56, 56]` as `[16, 256, 3136]`: entry `s` is row `s / 56`, column `s % 56`, since `56 (s / 56) + s % 56 = s`. -/
theorem castIn_apply (a : (⟨4, ![16, 256, 56, 56]⟩ : Shape).Idx → α)
    (hc : (⟨4, ![16, 256, 56, 56]⟩ : Shape).ShapeCasts ⟨3, ![16, 256, 3136]⟩) (b : Fin 16) (k : Fin 256) (s : Fin 3136) :
    shapeCast ⟨3, ![16, 256, 3136]⟩ a hc (ix3 b k s)
      = a (ix4 b k ⟨s.val / 56, by have := s.isLt; omega⟩ ⟨s.val % 56, Nat.mod_lt _ (by decide)⟩) := by
  refine shapeCast_apply a hc _ _ ?_
  rw [Shape.rowMajor_val_four, Shape.rowMajor_val_three]
  show ((b.val * 256 + k.val) * 56 + s.val / 56) * 56 + s.val % 56 = (b.val * 256 + k.val) * 3136 + s.val
  omega

/-- `[16, 256, 3136]` as `[16, 256, 56, 56]`: row `h`, column `v` is entry `56 h + v`. -/
theorem castOut_apply (a : (⟨3, ![16, 256, 3136]⟩ : Shape).Idx → α)
    (hc : (⟨3, ![16, 256, 3136]⟩ : Shape).ShapeCasts ⟨4, ![16, 256, 56, 56]⟩) (b : Fin 16) (o : Fin 256) (h v : Fin 56) :
    shapeCast ⟨4, ![16, 256, 56, 56]⟩ a hc (ix4 b o h v)
      = a (ix3 b o ⟨56 * h.val + v.val, by have := h.isLt; have := v.isLt; omega⟩) := by
  refine shapeCast_apply a hc _ _ ?_
  rw [Shape.rowMajor_val_four, Shape.rowMajor_val_three]
  show (b.val * 256 + o.val) * 3136 + (56 * h.val + v.val) = ((b.val * 256 + o.val) * 56 + h.val) * 56 + v.val
  omega

/-- A length-256 array as a column: entry `(k, 0)` is entry `k`. -/
theorem col_apply (a : (⟨1, ![256]⟩ : Shape).Idx → α) (hc : (⟨1, ![256]⟩ : Shape).ShapeCasts ⟨2, ![256, 1]⟩) (k : Fin 256) :
    shapeCast ⟨2, ![256, 1]⟩ a hc (ix2 k (0 : Fin 1)) = a (ix1 k) := by
  refine shapeCast_apply a hc _ _ ?_
  rw [Shape.rowMajor_val_two, Shape.rowMajor_val_one]
  show k.val = k.val * 1 + 0
  omega

/-- The matrix as its two K-halves: half `k / 128`, row `o`, position `k % 128` is entry `(o, k)`, since row `o` of
    `[256, 2, 128]` is row `o` of the matrix and `128 (k / 128) + k % 128 = k`. -/
theorem halves_apply (a : (⟨2, ![256, 256]⟩ : Shape).Idx → α)
    (hc : (⟨2, ![256, 256]⟩ : Shape).ShapeCasts ⟨3, ![256, 2, 128]⟩)
    (ht : (⟨3, ![256, 2, 128]⟩ : Shape).Transposes [1, 0, 2] ⟨3, ![2, 256, 128]⟩) (o k : Fin 256) :
    transpose ⟨3, ![2, 256, 128]⟩ [1, 0, 2] (shapeCast ⟨3, ![256, 2, 128]⟩ a hc) ht
        (ix3 (⟨k.val / 128, by have := k.isLt; omega⟩ : Fin 2) o (⟨k.val % 128, Nat.mod_lt _ (by decide)⟩ : Fin 128))
      = a (ix2 o k) := by
  refine (transpose_apply _ _ ht _
    (ix3 o (⟨k.val / 128, by have := k.isLt; omega⟩ : Fin 2) (⟨k.val % 128, Nat.mod_lt _ (by decide)⟩ : Fin 128))
    fun c => match c with | ⟨0, _⟩ => rfl | ⟨1, _⟩ => rfl | ⟨2, _⟩ => rfl).trans ?_
  refine shapeCast_apply a hc _ _ ?_
  rw [Shape.rowMajor_val_two, Shape.rowMajor_val_three]
  show o.val * 256 + k.val = (o.val * 2 + k.val / 128) * 128 + k.val % 128
  omega

end Reads

/-! ## The host operations before and behind the region -/

section Host
variable (m : (ℓ : Loc nD τ sig) → Buf (Elt Ideal) ℓ) (ρ : Dev nD → PrngReg) (c : Dev nD)

/-- At the region's entry the input is the argument reshaped to `[16, 256, 3136]`. -/
theorem V1_v0 : (V1 (F := Ideal) m ρ c main_v0 : S16x256x3136.Idx → EReal)
    = shapeCast S16x256x3136 (m ((c : Thread nD τ).loc main_arg0) : S16x256x56x56.Idx → EReal) shapeCasts_S16x256x56x56_S16x256x3136 := by
  show StableHlo.after hostOps0 (W0 m ρ c) (Proc.devRef .tc main_v0) = _
  after_results
  rfl

/-- The three parameter columns are the length-256 arguments reshaped to `[256, 1]`. -/
theorem V1_v1 : (V1 (F := Ideal) m ρ c main_v1 : S256x1.Idx → EReal)
    = shapeCast S256x1 (m ((c : Thread nD τ).loc main_arg1) : S256.Idx → EReal) shapeCasts_S256_S256x1 := by
  show StableHlo.after hostOps0 (W0 m ρ c) (Proc.devRef .tc main_v1) = _
  after_results
  rfl

theorem V1_v2 : (V1 (F := Ideal) m ρ c main_v2 : S256x1.Idx → EReal)
    = shapeCast S256x1 (m ((c : Thread nD τ).loc main_arg2) : S256.Idx → EReal) shapeCasts_S256_S256x1 := by
  show StableHlo.after hostOps0 (W0 m ρ c) (Proc.devRef .tc main_v2) = _
  after_results
  rfl

theorem V1_v3 : (V1 (F := Ideal) m ρ c main_v3 : S256x1.Idx → EReal)
    = shapeCast S256x1 (m ((c : Thread nD τ).loc main_arg4) : S256.Idx → EReal) shapeCasts_S256_S256x1 := by
  show StableHlo.after hostOps0 (W0 m ρ c) (Proc.devRef .tc main_v3) = _
  after_results
  rfl

/-- The matrix operand is the argument narrowed, reshaped to `[256, 2, 128]` and transposed to `[2, 256, 128]`. -/
theorem V1_v6 : (V1 (F := Ideal) m ρ c main_v6 : S2x256x128.Idx → EReal)
    = transpose S2x256x128 [1, 0, 2]
        (shapeCast S256x2x128 (truncf .bf16 (m ((c : Thread nD τ).loc main_arg3) : FVec Ideal S256x256 .f32) bitsLt_bf16_f32 : FVec Ideal S256x256 .bf16)
          shapeCasts_S256x256_S256x2x128)
        transposes_S256x2x128_S2x256x128_1_0_2 := by
  show StableHlo.after hostOps0 (W0 m ρ c) (Proc.devRef .tc main_v6) = _
  after_results
  rfl

/-- The result is the region's output array reshaped to `[16, 256, 56, 56]` and widened. -/
theorem W3_v9 : (W3 (F := Ideal) m ρ c (Proc.devRef .tc main_v9) : S16x256x56x56.Idx → EReal)
    = extf .f32 (shapeCast S16x256x56x56 (W2 (F := Ideal) m ρ c (Proc.devRef .tc main_v7) : S16x256x3136.Idx → EReal)
        shapeCasts_S16x256x3136_S16x256x56x56 : FVec Ideal S16x256x56x56 .bf16) bitsLt_bf16_f32 := by
  show StableHlo.after hostOps1 (W2 m ρ c) (Proc.devRef .tc main_v9) = _
  after_results
  rfl

end Host

/-! ## The assembly -/

section Assembly
variable (m : (ℓ : Loc nD τ sig) → Buf (Elt Ideal) ℓ) (ρ : Dev nD → PrngReg) (c : Dev nD)

/-- The result array at `(b, o, h, v)` is the region's output array at `(b, o, 56 h + v)`. -/
theorem W3_v9_apply (b : Fin 16) (o : Fin 256) (h v : Fin 56) :
    W3 (F := Ideal) m ρ c (Proc.devRef .tc main_v9) (ix4 b o h v)
      = (dat0 (F := Ideal) (V1 m ρ) c).arrAt 6 cfg0.N
          (ix3 b o ⟨56 * h.val + v.val, by have := h.isLt; have := v.isLt; omega⟩) := by
  refine (congrFun (W3_v9 m ρ c) (ix4 b o h v)).trans ?_
  refine (extf_apply (s := S16x256x56x56) (φ := .bf16) (ψ := .f32) _ bitsLt_bf16_f32 (ix4 b o h v)).trans ?_
  refine (castOut_apply _ shapeCasts_S16x256x3136_S16x256x56x56 b o h v).trans ?_
  exact congrFun (W2_out m ρ c) _

/-- The specification's sample result depends on its five operands only. -/
theorem sampleAt_congr {x x' : Fin 256 → Fin 3136 → EReal} {γ γ' β β' bias bias' : Fin 256 → EReal}
    {w w' : Fin 256 → Fin 256 → EReal} (hx : x = x') (hγ : γ = γ') (hβ : β = β') (hb : bias = bias') (hw : w = w')
    (o : Fin 256) (s : Fin 3136) :
    Cert.Spec.sampleAt x γ β bias w o s = Cert.Spec.sampleAt x' γ' β' bias' w' o s := by
  rw [hx, hγ, hβ, hb, hw]

end Assembly

/-- The result array at sample `b`, output channel `o`, row `h`, column `v`. -/
theorem kernel_value (m : (ℓ : Loc nD τ sig) → Buf (Elt Ideal) ℓ) (ρ : Dev nD → PrngReg) (c : Dev nD)
    (b : Fin 16) (o : Fin 256) (h v : Fin 56) :
    W3 (F := Ideal) m ρ c (Proc.devRef .tc main_v9) (ix4 b o h v)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (ix4 b o h v) := by
  rw [Cert.Spec.result_ix4]
  refine (W3_v9_apply m ρ c b o h v).trans ?_
  refine (kernel_array (V1 m ρ) c b o _).trans ?_
  refine sampleAt_congr ?_ ?_ ?_ ?_ ?_ o _
  · funext k s
    refine (congrFun (V1_v0 m ρ c) (ix3 b k s)).trans ?_
    exact castIn_apply _ _ b k s
  · funext k
    refine (congrFun (V1_v1 m ρ c) (ix2 k 0)).trans ?_
    exact col_apply _ _ k
  · funext k
    refine (congrFun (V1_v2 m ρ c) (ix2 k 0)).trans ?_
    exact col_apply _ _ k
  · funext k
    refine (congrFun (V1_v3 m ρ c) (ix2 k 0)).trans ?_
    exact col_apply _ _ k
  · funext o' k
    unfold Cert.Spec.wHalves
    refine (congrFun (V1_v6 m ρ c) _).trans ?_
    exact halves_apply _ _ _ o' k

end Cert.KernelIdeal.Value

end
-- ==== Proof.RefApplyPiece.lean ====
/-
  One group's piece of the reference's scale and shift columns as ONE function of the group's row offset, the reading
  of a column of 64 such pieces, and the tile's mixing.

  The reference's second kernel writes the same statements once per group of four channels: slice the group's four rows
  of a statistics column, add them, scale by the one constant (`meanPiece`); from the two such means the reciprocal
  square root, times the group's rows of `γ` (`scalePiece`); the group's rows of `β` minus the mean times that
  (`shiftPiece`). Read at a row these are the specification's `scale` and `shift` of the channel, the group sum being
  the specification's `grp`. A column concatenated from 64 pieces of four rows reads, at row `k`, piece `k / 4` at row
  `k % 4`. The tail multiplies the tile by the broadcast scale column, adds the broadcast shift column, multiplies by the
  matrix from the left (a plain product into the zero accumulator) and adds the broadcast bias.
-/
import proofs.«156338_g2000302674448580_pallasbulk_969_14_alg».proof.Proof.Gen.ReferenceIdeal.Frame
import proofs.«156338_g2000302674448580_pallasbulk_969_14_alg».proof.Proof.Spec
import proofs.«156338_g2000302674448580_pallasbulk_969_14_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-! ## The pieces, at any float type -/

section Pieces
variable {F : FTy → Type} [FloatOps F]

/-- Four rows of a column from row `off 0`, added up and scaled by the one constant. -/
def meanPiece (off : Fin S256x1.rank → ℕ) (h : S256x1.Slices off S4x1) (s : FVec F S256x1 .f32) : FVec F S1x1 .f32 :=
  mulf
    (shapeCast S1x1
      (multiReduction .add [0] S1 (extractStridedSlice S4x1 off s h : FVec F S4x1 .f32) 0x00000000#32 reduces_S4x1_S1 (.inl rfl) rfl : FVec F S1 .f32)
      shapeCasts_S1_S1x1)
    (broadcast S1x1 (Scalar.ofBits .f32 0x38A72F05#32 : F .f32))

/-- The group's four rows of `γ` times the reciprocal square root of (mean of squares - mean² + the additive constant). -/
def scalePiece (off : Fin S256x1.rank → ℕ) (h : S256x1.Slices off S4x1) (s1 s2 g : FVec F S256x1 .f32) : FVec F S4x1 .f32 :=
  mulf (extractStridedSlice S4x1 off g h : FVec F S4x1 .f32)
    (broadcastTo S4x1
      (rsqrt (addf (subf (meanPiece off h s2) (mulf (meanPiece off h s1) (meanPiece off h s1)))
        (broadcast S1x1 (Scalar.ofBits .f32 0x3727C5AC#32 : F .f32))) : FVec F S1x1 .f32)
      broadcasts_S1x1_S4x1)

/-- The group's four rows of `β` minus the mean times the scale piece. -/
def shiftPiece (off : Fin S256x1.rank → ℕ) (h : S256x1.Slices off S4x1) (s1 s2 g b : FVec F S256x1 .f32) : FVec F S4x1 .f32 :=
  subf (extractStridedSlice S4x1 off b h : FVec F S4x1 .f32)
    (mulf (broadcastTo S4x1 (meanPiece off h s1) broadcasts_S1x1_S4x1) (scalePiece off h s1 s2 g))

end Pieces

/-! ## Groups of four rows -/

/-- Rows `4n .. 4n+3` of a column lie inside it. -/
theorem slices4 (n : Fin 64) : S256x1.Slices ![4 * n.val, 0] S4x1 :=
  ⟨rfl, fun a => match a with
    | ⟨0, _⟩ => by have := n.isLt; show 4 * n.val + 4 ≤ 256; omega
    | ⟨1, _⟩ => by show 0 + 1 ≤ 1; omega⟩

/-- Row `j` of group `n`. -/
def row4 (n : Fin 64) (j : Fin 4) : Fin 256 := ⟨4 * n.val + j.val, by have := n.isLt; have := j.isLt; omega⟩

/-- A column summed over group `n`. -/
def grpSum (s : S256x1.Idx → EReal) (n : Fin 64) : EReal := ∑ j : Fin 4, s (ix2 (row4 n j) 0)

/-- Channel `k`'s group, -/
def grpOf (k : Fin 256) : Fin 64 := ⟨k.val / 4, by have := k.isLt; omega⟩
/-- and its place in it. -/
def posOf (k : Fin 256) : Fin 4 := ⟨k.val % 4, Nat.mod_lt _ (by decide)⟩

theorem row4_grpOf (k : Fin 256) : row4 (grpOf k) (posOf k) = k :=
  Fin.ext (by show 4 * (k.val / 4) + k.val % 4 = k.val; omega)

/-- The group sum is the specification's. -/
theorem grpSum_grpOf (s : S256x1.Idx → EReal) (k : Fin 256) :
    grpSum s (grpOf k) = Cert.Spec.grp (fun k => s (ix2 k 0)) k := rfl

/-! ## The pieces read at a row, over the extended reals -/

theorem meanPiece_apply (n : Fin 64) (h : S256x1.Slices ![4 * n.val, 0] S4x1) (s : FVec Ideal S256x1 .f32) (i : S1x1.Idx) :
    meanPiece (F := Ideal) ![4 * n.val, 0] h s i = grpSum s n * Cert.Spec.cinv := by
  unfold meanPiece grpSum
  refine (mulf_apply _ _ _).trans (congrArg₂ (· * ·) ?_ rfl)
  -- the shape cast [1] to [1,1]: one entry
  refine (shapeCast_apply _ shapeCasts_S1_S1x1 i (ix1 0) (by
    rw [Shape.rowMajor_val_one, Shape.rowMajor_val_two]
    have h0 : (i 0).val < 1 := (i 0).isLt
    have h1 : (i 1).val < 1 := (i 1).isLt
    show 0 = (i 0).val * 1 + (i 1).val
    omega)).trans ?_
  -- the reduction over axis 0 of [4,1]: the sum over the four rows
  refine (Ideal.multiReduction_add_single (s := S4x1) (a := 0) _ _ reduces_S4x1_S1 _ _ (ix1 0)).trans ?_
  refine Finset.sum_congr rfl fun j _ => ?_
  -- the slice: row j of the piece is row 4n + j of the column
  exact extractStridedSlice_apply _ _ h _ (ix2 (row4 n j) 0) (fun a => match a with
    | ⟨0, _⟩ => rfl
    | ⟨1, _⟩ => rfl)

theorem scalePiece_apply (n : Fin 64) (h : S256x1.Slices ![4 * n.val, 0] S4x1) (s1 s2 g : FVec Ideal S256x1 .f32) (j : Fin 4) :
    scalePiece (F := Ideal) ![4 * n.val, 0] h s1 s2 g (ix2 j 0)
      = g (ix2 (row4 n j) 0)
          * Ideal.rsqrt (grpSum s2 n * Cert.Spec.cinv - grpSum s1 n * Cert.Spec.cinv * (grpSum s1 n * Cert.Spec.cinv) + Cert.Spec.ceps) := by
  unfold scalePiece
  refine (mulf_apply _ _ _).trans (congrArg₂ (· * ·) ?_ ?_)
  · exact extractStridedSlice_apply _ _ h _ (ix2 (row4 n j) 0) (fun a => match a with
      | ⟨0, _⟩ => rfl
      | ⟨1, _⟩ => rfl)
  · refine (broadcastTo_apply _ broadcasts_S1x1_S4x1 (ix2 j 0) (ix2 0 0) (fun a => match a with
      | ⟨0, _⟩ => rfl
      | ⟨1, _⟩ => rfl)).trans ?_
    refine Eq.trans (b := Ideal.rsqrt (meanPiece (F := Ideal) ![4 * n.val, 0] h s2 (ix2 0 0)
      - meanPiece (F := Ideal) ![4 * n.val, 0] h s1 (ix2 0 0) * meanPiece (F := Ideal) ![4 * n.val, 0] h s1 (ix2 0 0)
      + Cert.Spec.ceps)) rfl ?_
    rw [meanPiece_apply n h s1, meanPiece_apply n h s2]

theorem shiftPiece_apply (n : Fin 64) (h : S256x1.Slices ![4 * n.val, 0] S4x1) (s1 s2 g b : FVec Ideal S256x1 .f32) (j : Fin 4) :
    shiftPiece (F := Ideal) ![4 * n.val, 0] h s1 s2 g b (ix2 j 0)
      = b (ix2 (row4 n j) 0) - grpSum s1 n * Cert.Spec.cinv * scalePiece (F := Ideal) ![4 * n.val, 0] h s1 s2 g (ix2 j 0) := by
  unfold shiftPiece
  refine (subf_apply _ _ _).trans (congrArg₂ (· - ·) ?_ ?_)
  · exact extractStridedSlice_apply _ _ h _ (ix2 (row4 n j) 0) (fun a => match a with
      | ⟨0, _⟩ => rfl
      | ⟨1, _⟩ => rfl)
  · refine (mulf_apply _ _ _).trans (congrArg₂ (· * ·) ?_ rfl)
    refine (broadcastTo_apply _ broadcasts_S1x1_S4x1 (ix2 j 0) (ix2 0 0) (fun a => match a with
      | ⟨0, _⟩ => rfl
      | ⟨1, _⟩ => rfl)).trans ?_
    exact meanPiece_apply n h s1 _

/-! ## A column of 64 pieces of four rows -/

/-- Two concatenations of equal lists are equal. -/
theorem concatenate_congr_list {α : Type} {t : Shape} (a : Fin t.rank) (L L' : List ((s : Shape) × (s.Idx → α))) (e : L = L')
    (h : Shape.Concatenates (L.map (·.1)) t a) :
    concatenate t a L h = concatenate t a L' (e ▸ h) := by
  subst e; rfl

/-- Row `k` of the column is row `k % 4` of piece `k / 4`. -/
theorem col_apply (f : Fin 64 → (S4x1.Idx → EReal))
    (hc : Shape.Concatenates ((List.ofFn fun n : Fin 64 => (⟨S4x1, f n⟩ : (s : Shape) × (s.Idx → EReal))).map (·.1)) S256x1 0)
    (k : Fin 256) :
    concatenate S256x1 0 (List.ofFn fun n : Fin 64 => (⟨S4x1, f n⟩ : (s : Shape) × (s.Idx → EReal))) hc (ix2 k 0)
      = f (grpOf k) (ix2 (posOf k) 0) :=
  concatenate_ofFn_apply (t := S256x1) (s₁ := S4x1) 0 f hc rfl 4 rfl (ix2 k 0) (grpOf k) rfl (ix2 (posOf k) 0) rfl
    (fun b hb => match b, hb with
      | ⟨0, _⟩, hb => absurd rfl hb
      | ⟨1, _⟩, _ => rfl)

/-- The 64 scale pieces of the columns `s1 s2 g`, in order. -/
def scaleList (s1 s2 g : FVec Ideal S256x1 .f32) : List ((s : Shape) × (s.Idx → EReal)) :=
  List.ofFn fun n : Fin 64 => (⟨S4x1, scalePiece (F := Ideal) ![4 * n.val, 0] (slices4 n) s1 s2 g⟩ : (s : Shape) × (s.Idx → EReal))

/-- The 64 shift pieces, in order. -/
def shiftList (s1 s2 g b : FVec Ideal S256x1 .f32) : List ((s : Shape) × (s.Idx → EReal)) :=
  List.ofFn fun n : Fin 64 => (⟨S4x1, shiftPiece (F := Ideal) ![4 * n.val, 0] (slices4 n) s1 s2 g b⟩ : (s : Shape) × (s.Idx → EReal))

/-- The column of scale pieces at row `k` is the specification's scale of channel `k`. -/
theorem scaleCol_apply (s1 s2 g : FVec Ideal S256x1 .f32)
    (hc : Shape.Concatenates ((scaleList s1 s2 g).map (·.1)) S256x1 0) (k : Fin 256) :
    concatenate S256x1 0 (scaleList s1 s2 g) hc (ix2 k 0)
      = Cert.Spec.scale (fun k => s1 (ix2 k 0)) (fun k => s2 (ix2 k 0)) (fun k => g (ix2 k 0)) k := by
  refine (col_apply (fun n => scalePiece (F := Ideal) ![4 * n.val, 0] (slices4 n) s1 s2 g) hc k).trans ?_
  refine (scalePiece_apply (grpOf k) _ s1 s2 g (posOf k)).trans ?_
  rw [row4_grpOf]
  rfl

/-- The column of shift pieces at row `k` is the specification's shift of channel `k`. -/
theorem shiftCol_apply (s1 s2 g b : FVec Ideal S256x1 .f32)
    (hc : Shape.Concatenates ((shiftList s1 s2 g b).map (·.1)) S256x1 0) (k : Fin 256) :
    concatenate S256x1 0 (shiftList s1 s2 g b) hc (ix2 k 0)
      = Cert.Spec.shift (fun k => s1 (ix2 k 0)) (fun k => s2 (ix2 k 0)) (fun k => g (ix2 k 0)) (fun k => b (ix2 k 0)) k := by
  refine (col_apply (fun n => shiftPiece (F := Ideal) ![4 * n.val, 0] (slices4 n) s1 s2 g b) hc k).trans ?_
  refine (shiftPiece_apply (grpOf k) _ s1 s2 g b (posOf k)).trans ?_
  rw [scalePiece_apply (grpOf k) _ s1 s2 g (posOf k), row4_grpOf]
  rfl

/-- The same with the columns' entries named: what the body's columns are is said by `h1 h2 h3`. -/
theorem scaleCol_apply_of (s1 s2 g : FVec Ideal S256x1 .f32) (S1 S2 G : Fin 256 → EReal)
    (h1 : ∀ k, s1 (ix2 k 0) = S1 k) (h2 : ∀ k, s2 (ix2 k 0) = S2 k) (h3 : ∀ k, g (ix2 k 0) = G k)
    (hc : Shape.Concatenates ((scaleList s1 s2 g).map (·.1)) S256x1 0) (k : Fin 256) :
    concatenate S256x1 0 (scaleList s1 s2 g) hc (ix2 k 0) = Cert.Spec.scale S1 S2 G k := by
  obtain rfl : (fun k => s1 (ix2 k 0)) = S1 := funext h1
  obtain rfl : (fun k => s2 (ix2 k 0)) = S2 := funext h2
  obtain rfl : (fun k => g (ix2 k 0)) = G := funext h3
  exact scaleCol_apply s1 s2 g hc k

theorem shiftCol_apply_of (s1 s2 g b : FVec Ideal S256x1 .f32) (S1 S2 G B : Fin 256 → EReal)
    (h1 : ∀ k, s1 (ix2 k 0) = S1 k) (h2 : ∀ k, s2 (ix2 k 0) = S2 k) (h3 : ∀ k, g (ix2 k 0) = G k) (h4 : ∀ k, b (ix2 k 0) = B k)
    (hc : Shape.Concatenates ((shiftList s1 s2 g b).map (·.1)) S256x1 0) (k : Fin 256) :
    concatenate S256x1 0 (shiftList s1 s2 g b) hc (ix2 k 0) = Cert.Spec.shift S1 S2 G B k := by
  obtain rfl : (fun k => s1 (ix2 k 0)) = S1 := funext h1
  obtain rfl : (fun k => s2 (ix2 k 0)) = S2 := funext h2
  obtain rfl : (fun k => g (ix2 k 0)) = G := funext h3
  obtain rfl : (fun k => b (ix2 k 0)) = B := funext h4
  exact shiftCol_apply s1 s2 g b hc k

/-! ## The operands as the body reads them -/

theorem origin2 : (![0, 0] : Fin 2 → Nat) = fun _ => 0 := funext fun a => by fin_cases a <;> rfl
theorem origin3 : (![0, 0, 0] : Fin 3 → Nat) = fun _ => 0 := funext fun a => by fin_cases a <;> rfl

/-- A statistics block `[1, 256, 1]` read whole and cast to a column, at row `k`. -/
theorem statCol_apply (x : Vec Ideal S1x256x1 .f32) (k : Fin 256) :
    shapeCast S256x1 (View.ld x r1_0) shapeCasts_S1x256x1_S256x1 (ix2 k 0) = x (ix3 0 k 0) := by
  rw [View.ld_unit_zero origin3]
  exact shapeCast_apply x shapeCasts_S1x256x1_S256x1 (ix2 k 0) (ix3 0 k 0) (by
    rw [Shape.rowMajor_val_three, Shape.rowMajor_val_two]
    show (0 * 256 + k.val) * 1 + 0 = k.val * 1 + 0
    omega)

/-- A column `[256, 1]` read whole and cast to itself, at row `k`. -/
theorem paramCol_apply (x : Vec Ideal S256x1 .f32) (k : Fin 256) :
    shapeCast S256x1 (View.ld x r1_1) shapeCasts_S256x1_S256x1 (ix2 k 0) = x (ix2 k 0) := by
  rw [View.ld_unit_zero origin2]
  exact shapeCast_apply x shapeCasts_S256x1_S256x1 (ix2 k 0) (ix2 k 0) rfl

/-! ## The tail: normalize the tile, mix by the matrix, add the bias -/

theorem tail_apply (SC SH : FVec Ideal S256x1 .f32) (X : Vec Ideal S1x256x640 .f32) (W : Vec Ideal S256x256 .f32)
    (B : Vec Ideal S256x1 .f32) (o : Fin 256) (u : Fin 640) :
    k1_pay1 (F := Ideal) (k1_pay234 SC SH X W B) (ix3 0 o u)
      = (∑ k : Fin 256, W (ix2 o k) * (X (ix3 0 k u) * SC (ix2 k 0) + SH (ix2 k 0))) + B (ix2 o 0) := by
  -- the cast [256,640] to [1,256,640]
  refine (shapeCast_apply (k1_pay234 (F := Ideal) SC SH X W B) shapeCasts_S256x640_S1x256x640 (ix3 0 o u) (ix2 o u) (by
    rw [Shape.rowMajor_val_two, Shape.rowMajor_val_three]
    show o.val * 640 + u.val = (0 * 256 + o.val) * 640 + u.val
    omega)).trans ?_
  -- the product plus the broadcast bias
  refine Eq.trans (b := FloatOps.matmul (DotDims.plain 256 256 640) none W
      (addf (mulf (shapeCast S256x640 X shapeCasts_S1x256x640_S256x640) (broadcastTo S256x640 SC broadcasts_S256x1_S256x640))
        (broadcastTo S256x640 SH broadcasts_S256x1_S256x640))
      (constant (F := Ideal) S256x640 .f32 0x00000000#32) (ix2 o u)
    + broadcastTo S256x640 (shapeCast S256x1 B shapeCasts_S256x1_S256x1) broadcasts_S256x1_S256x640 (ix2 o u)) rfl ?_
  refine congrArg₂ (· + ·) ?_ ?_
  · refine (Cert.Lib.PlainMatmul.matmul_zero_apply none W _ o u).trans ?_
    refine Finset.sum_congr rfl fun k _ => congrArg₂ (· * ·) rfl ?_
    refine (addf_apply _ _ _).trans (congrArg₂ (· + ·) ?_ ?_)
    · refine (mulf_apply _ _ _).trans (congrArg₂ (· * ·) ?_ ?_)
      · exact shapeCast_apply X shapeCasts_S1x256x640_S256x640 (ix2 k u) (ix3 0 k u) (by
          rw [Shape.rowMajor_val_three, Shape.rowMajor_val_two]
          show (0 * 256 + k.val) * 640 + u.val = k.val * 640 + u.val
          omega)
      · exact broadcastTo_apply SC broadcasts_S256x1_S256x640 (ix2 k u) (ix2 k 0) (fun a => match a with
          | ⟨0, _⟩ => rfl
          | ⟨1, _⟩ => rfl)
    · exact broadcastTo_apply SH broadcasts_S256x1_S256x640 (ix2 k u) (ix2 k 0) (fun a => match a with
        | ⟨0, _⟩ => rfl
        | ⟨1, _⟩ => rfl)
  · refine (broadcastTo_apply _ broadcasts_S256x1_S256x640 (ix2 o u) (ix2 o 0) (fun a => match a with
      | ⟨0, _⟩ => rfl
      | ⟨1, _⟩ => rfl)).trans ?_
    exact shapeCast_apply B shapeCasts_S256x1_S256x1 (ix2 o 0) (ix2 o 0) rfl

end Cert.ReferenceIdeal.RefValue

end
-- ==== Proof.RefApplyCols.lean ====
/-
  The reference's two written-out columns are the columns of the one piece function.

  The body writes the 64 scale pieces and the 64 shift pieces one after the other, each from its own copy of the same
  statements at the group's row offset `4n`; piece `n` of either list is `scalePiece`, resp. `shiftPiece`, at offset
  `4n` of the three, resp. four, columns the body reads, so each list is the list of the one function over `n`: by
  unfolding the copies.
-/
import proofs.«156338_g2000302674448580_pallasbulk_969_14_alg».proof.Proof.RefApplyPiece

set_option maxRecDepth 65536

noncomputable section

namespace Cert.ReferenceIdeal.RefValue

open Cert.ReferenceIdeal Cert.ReferenceIdeal.Gen
open Idealize.ShloMosaic Idealize.ShloMosaic.TcCoe Idealize.ShloMosaic.ValueIdx Idealize.SL.Sem

set_option maxHeartbeats 1600000 in
/-- The 64 scale pieces as written are the scale pieces of the two statistics columns and `γ`. -/
theorem scaleList_eq (x1 x2 : Vec Ideal S1x256x1 .f32) (x3 : Vec Ideal S256x1 .f32) :
    ((⟨S4x1, (k1_pay7 (View.ld x1 r1_0) (View.ld x2 r1_0) (View.ld x3 r1_1))⟩ ::
      ⟨S4x1, (k1_pay12 (k1_pay4 (View.ld x3 r1_1)) (k1_pay9 (View.ld x1 r1_0)) (k1_pay10 (View.ld x2 r1_0)) (k1_pay11 (F := Ideal)))⟩ ::
      ⟨S4x1, (k1_pay15 (k1_pay2 (View.ld x1 r1_0)) (k1_pay3 (View.ld x2 r1_0)) (k1_pay4 (View.ld x3 r1_1)))⟩ ::
      ⟨S4x1, (k1_pay19 (k1_pay4 (View.ld x3 r1_1)) (k1_pay18 (k1_pay2 (View.ld x1 r1_0)) (k1_pay3 (View.ld x2 r1_0))))⟩ ::
      ⟨S4x1, (k1_pay22 (k1_pay2 (View.ld x1 r1_0)) (k1_pay3 (View.ld x2 r1_0)) (k1_pay4 (View.ld x3 r1_1)))⟩ ::
      ⟨S4x1, (k1_pay25 (k1_pay2 (View.ld x1 r1_0)) (k1_pay3 (View.ld x2 r1_0)) (k1_pay4 (View.ld x3 r1_1)))⟩ ::
      ⟨S4x1, (k1_pay30 (k1_pay2 (View.ld x1 r1_0)) (k1_pay3 (View.ld x2 r1_0)) (k1_pay4 (View.ld x3 r1_1)))⟩ ::
      ⟨S4x1, (k1_pay33 (k1_pay2 (View.ld x1 r1_0)) (k1_pay3 (View.ld x2 r1_0)) (k1_pay4 (View.ld x3 r1_1)))⟩ ::
      ⟨S4x1, (k1_pay37 (k1_pay3 (View.ld x2 r1_0)) (k1_pay4 (View.ld x3 r1_1)) (k1_pay35 (k1_pay2 (View.ld x1 r1_0))))⟩ ::
      ⟨S4x1, (k1_pay40 (k1_pay2 (View.ld x1 r1_0)) (k1_pay3 (View.ld x2 r1_0)) (k1_pay4 (View.ld x3 r1_1)))⟩ ::
      ⟨S4x1, (k1_pay44 (k1_pay4 (View.ld x3 r1_1)) (k1_pay42 (k1_pay2 (View.ld x1 r1_0))) (k1_pay43 (k1_pay3 (View.ld x2 r1_0))))⟩ ::
      ⟨S4x1, (k1_pay47 (k1_pay2 (View.ld x1 r1_0)) (k1_pay3 (View.ld x2 r1_0)) (k1_pay4 (View.ld x3 r1_1)))⟩ ::
      ⟨S4x1, (k1_pay51 (k1_pay4 (View.ld x3 r1_1)) (k1_pay50 (k1_pay2 (View.ld x1 r1_0)) (k1_pay3 (View.ld x2 r1_0))))⟩ ::
      ⟨S4x1, (k1_pay54 (k1_pay2 (View.ld x1 r1_0)) (k1_pay3 (View.ld x2 r1_0)) (k1_pay4 (View.ld x3 r1_1)))⟩ ::
      ⟨S4x1, (k1_pay59 (k1_pay57 (k1_pay4 (View.ld x3 r1_1))) (k1_pay58 (k1_pay2 (View.ld x1 r1_0)) (k1_pay3 (View.ld x2 r1_0))))⟩ ::
      ⟨S4x1, (k1_pay62 (k1_pay2 (View.ld x1 r1_0)) (k1_pay3 (View.ld x2 r1_0)) (k1_pay4 (View.ld x3 r1_1)))⟩ ::
      ⟨S4x1, (k1_pay65 (k1_pay2 (View.ld x1 r1_0)) (k1_pay3 (View.ld x2 r1_0)) (k1_pay4 (View.ld x3 r1_1)))⟩ ::
      ⟨S4x1, (k1_pay69 (k1_pay3 (View.ld x2 r1_0)) (k1_pay4 (View.ld x3 r1_1)) (k1_pay67 (k1_pay2 (View.ld x1 r1_0))))⟩ ::
      ⟨S4x1, (k1_pay72 (k1_pay2 (View.ld x1 r1_0)) (k1_pay3 (View.ld x2 r1_0)) (k1_pay4 (View.ld x3 r1_1)))⟩ ::
      ⟨S4x1, (k1_pay75 (k1_pay3 (View.ld x2 r1_0)) (k1_pay4 (View.ld x3 r1_1)) (k1_pay74 (k1_pay2 (View.ld x1 r1_0))))⟩ ::
      ⟨S4x1, (k1_pay78 (k1_pay2 (View.ld x1 r1_0)) (k1_pay3 (View.ld x2 r1_0)) (k1_pay4 (View.ld x3 r1_1)))⟩ ::
      ⟨S4x1, (k1_pay83 (k1_pay4 (View.ld x3 r1_1)) (k1_pay80 (k1_pay2 (View.ld x1 r1_0))) (k1_pay81 (k1_pay3 (View.ld x2 r1_0))) (k1_pay82 (F := Ideal)))⟩ ::
      ⟨S4x1, (k1_pay86 (k1_pay2 (View.ld x1 r1_0)) (k1_pay3 (View.ld x2 r1_0)) (k1_pay4 (View.ld x3 r1_1)))⟩ ::
      ⟨S4x1, (k1_pay90 (k1_pay4 (View.ld x3 r1_1)) (k1_pay89 (k1_pay2 (View.ld x1 r1_0)) (k1_pay3 (View.ld x2 r1_0))))⟩ ::
      ⟨S4x1, (k1_pay93 (k1_pay2 (View.ld x1 r1_0)) (k1_pay3 (View.ld x2 r1_0)) (k1_pay4 (View.ld x3 r1_1)))⟩ ::
      ⟨S4x1, (k1_pay96 (k1_pay2 (View.ld x1 r1_0)) (k1_pay3 (View.ld x2 r1_0)) (k1_pay4 (View.ld x3 r1_1)))⟩ ::
      ⟨S4x1, (k1_pay101 (k1_pay2 (View.ld x1 r1_0)) (k1_pay3 (View.ld x2 r1_0)) (k1_pay4 (View.ld x3 r1_1)))⟩ ::
      ⟨S4x1, (k1_pay104 (k1_pay2 (View.ld x1 r1_0)) (k1_pay3 (View.ld x2 r1_0)) (k1_pay4 (View.ld x3 r1_1)))⟩ ::
      ⟨S4x1, (k1_pay108 (k1_pay3 (View.ld x2 r1_0)) (k1_pay4 (View.ld x3 r1_1)) (k1_pay106 (k1_pay2 (View.ld x1 r1_0))))⟩ ::
      ⟨S4x1, (k1_pay111 (k1_pay2 (View.ld x1 r1_0)) (k1_pay3 (View.ld x2 r1_0)) (k1_pay4 (View.ld x3 r1_1)))⟩ ::
      ⟨S4x1, (k1_pay115 (k1_pay4 (View.ld x3 r1_1)) (k1_pay113 (k1_pay2 (View.ld x1 r1_0))) (k1_pay114 (k1_pay3 (View.ld x2 r1_0))))⟩ ::
      ⟨S4x1, (k1_pay118 (k1_pay2 (View.ld x1 r1_0)) (k1_pay3 (View.ld x2 r1_0)) (k1_pay4 (View.ld x3 r1_1)))⟩ ::
      ⟨S4x1, (k1_pay122 (k1_pay4 (View.ld x3 r1_1)) (k1_pay121 (k1_pay2 (View.ld x1 r1_0)) (k1_pay3 (View.ld x2 r1_0))))⟩ ::
      ⟨S4x1, (k1_pay125 (k1_pay2 (View.ld x1 r1_0)) (k1_pay3 (View.ld x2 r1_0)) (k1_pay4 (View.ld x3 r1_1)))⟩ ::
      ⟨S4x1, (k1_pay130 (k1_pay128 (k1_pay4 (View.ld x3 r1_1))) (k1_pay129 (k1_pay2 (View.ld x1 r1_0)) (k1_pay3 (View.ld x2 r1_0))))⟩ ::
      ⟨S4x1, (k1_pay133 (k1_pay2 (View.ld x1 r1_0)) (k1_pay3 (View.ld x2 r1_0)) (k1_pay4 (View.ld x3 r1_1)))⟩ ::
      ⟨S4x1, (k1_pay136 (k1_pay2 (View.ld x1 r1_0)) (k1_pay3 (View.ld x2 r1_0)) (k1_pay4 (View.ld x3 r1_1)))⟩ ::
      ⟨S4x1, (k1_pay140 (k1_pay3 (View.ld x2 r1_0)) (k1_pay4 (View.ld x3 r1_1)) (k1_pay138 (k1_pay2 (View.ld x1 r1_0))))⟩ ::
      ⟨S4x1, (k1_pay143 (k1_pay2 (View.ld x1 r1_0)) (k1_pay3 (View.ld x2 r1_0)) (k1_pay4 (View.ld x3 r1_1)))⟩ ::
      ⟨S4x1, (k1_pay146 (k1_pay3 (View.ld x2 r1_0)) (k1_pay4 (View.ld x3 r1_1)) (k1_pay145 (k1_pay2 (View.ld x1 r1_0))))⟩ ::
      ⟨S4x1, (k1_pay149 (k1_pay2 (View.ld x1 r1_0)) (k1_pay3 (View.ld x2 r1_0)) (k1_pay4 (View.ld x3 r1_1)))⟩ ::
      ⟨S4x1, (k1_pay154 (k1_pay4 (View.ld x3 r1_1)) (k1_pay151 (k1_pay2 (View.ld x1 r1_0))) (k1_pay152 (k1_pay3 (View.ld x2 r1_0))) (k1_pay153 (F := Ideal)))⟩ ::
      ⟨S4x1, (k1_pay157 (k1_pay2 (View.ld x1 r1_0)) (k1_pay3 (View.ld x2 r1_0)) (k1_pay4 (View.ld x3 r1_1)))⟩ ::
      ⟨S4x1, (k1_pay161 (k1_pay4 (View.ld x3 r1_1)) (k1_pay160 (k1_pay2 (View.ld x1 r1_0)) (k1_pay3 (View.ld x2 r1_0))))⟩ ::
      ⟨S4x1, (k1_pay164 (k1_pay2 (View.ld x1 r1_0)) (k1_pay3 (View.ld x2 r1_0)) (k1_pay4 (View.ld x3 r1_1)))⟩ ::
      ⟨S4x1, (k1_pay167 (k1_pay2 (View.ld x1 r1_0)) (k1_pay3 (View.ld x2 r1_0)) (k1_pay4 (View.ld x3 r1_1)))⟩ ::
      ⟨S4x1, (k1_pay172 (k1_pay2 (View.ld x1 r1_0)) (k1_pay3 (View.ld x2 r1_0)) (k1_pay4 (View.ld x3 r1_1)))⟩ ::
      ⟨S4x1, (k1_pay175 (k1_pay2 (View.ld x1 r1_0)) (k1_pay3 (View.ld x2 r1_0)) (k1_pay4 (View.ld x3 r1_1)))⟩ ::
      ⟨S4x1, (k1_pay179 (k1_pay3 (View.ld x2 r1_0)) (k1_pay4 (View.ld x3 r1_1)) (k1_pay177 (k1_pay2 (View.ld x1 r1_0))))⟩ ::
      ⟨S4x1, (k1_pay182 (k1_pay2 (View.ld x1 r1_0)) (k1_pay3 (View.ld x2 r1_0)) (k1_pay4 (View.ld x3 r1_1)))⟩ ::
      ⟨S4x1, (k1_pay186 (k1_pay4 (View.ld x3 r1_1)) (k1_pay184 (k1_pay2 (View.ld x1 r1_0))) (k1_pay185 (k1_pay3 (View.ld x2 r1_0))))⟩ ::
      ⟨S4x1, (k1_pay189 (k1_pay2 (View.ld x1 r1_0)) (k1_pay3 (View.ld x2 r1_0)) (k1_pay4 (View.ld x3 r1_1)))⟩ ::
      ⟨S4x1, (k1_pay193 (k1_pay4 (View.ld x3 r1_1)) (k1_pay192 (k1_pay2 (View.ld x1 r1_0)) (k1_pay3 (View.ld x2 r1_0))))⟩ ::
      ⟨S4x1, (k1_pay196 (k1_pay2 (View.ld x1 r1_0)) (k1_pay3 (View.ld x2 r1_0)) (k1_pay4 (View.ld x3 r1_1)))⟩ ::
      ⟨S4x1, (k1_pay201 (k1_pay199 (k1_pay4 (View.ld x3 r1_1))) (k1_pay200 (k1_pay2 (View.ld x1 r1_0)) (k1_pay3 (View.ld x2 r1_0))))⟩ ::
      ⟨S4x1, (k1_pay204 (k1_pay2 (View.ld x1 r1_0)) (k1_pay3 (View.ld x2 r1_0)) (k1_pay4 (View.ld x3 r1_1)))⟩ ::
      ⟨S4x1, (k1_pay207 (k1_pay2 (View.ld x1 r1_0)) (k1_pay3 (View.ld x2 r1_0)) (k1_pay4 (View.ld x3 r1_1)))⟩ ::
      ⟨S4x1, (k1_pay211 (k1_pay3 (View.ld x2 r1_0)) (k1_pay4 (View.ld x3 r1_1)) (k1_pay209 (k1_pay2 (View.ld x1 r1_0))))⟩ ::
      ⟨S4x1, (k1_pay214 (k1_pay2 (View.ld x1 r1_0)) (k1_pay3 (View.ld x2 r1_0)) (k1_pay4 (View.ld x3 r1_1)))⟩ ::
      ⟨S4x1, (k1_pay217 (k1_pay3 (View.ld x2 r1_0)) (k1_pay4 (View.ld x3 r1_1)) (k1_pay216 (k1_pay2 (View.ld x1 r1_0))))⟩ ::
      ⟨S4x1, (k1_pay220 (k1_pay2 (View.ld x1 r1_0)) (k1_pay3 (View.ld x2 r1_0)) (k1_pay4 (View.ld x3 r1_1)))⟩ ::
      ⟨S4x1, (k1_pay225 (k1_pay4 (View.ld x3 r1_1)) (k1_pay222 (k1_pay2 (View.ld x1 r1_0))) (k1_pay223 (k1_pay3 (View.ld x2 r1_0))) (k1_pay224 (F := Ideal)))⟩ ::
      ⟨S4x1, (k1_pay228 (k1_pay2 (View.ld x1 r1_0)) (k1_pay3 (View.ld x2 r1_0)) (k1_pay4 (View.ld x3 r1_1)))⟩ ::
      ⟨S4x1, (k1_pay232 (k1_pay4 (View.ld x3 r1_1)) (k1_pay231 (k1_pay2 (View.ld x1 r1_0)) (k1_pay3 (View.ld x2 r1_0))))⟩ :: []) : List ((s : Shape) × (s.Idx → EReal)))
      = scaleList (k1_pay2 (F := Ideal) (View.ld x1 r1_0)) (k1_pay3 (F := Ideal) (View.ld x2 r1_0)) (k1_pay4 (F := Ideal) (View.ld x3 r1_1)) := rfl

set_option maxHeartbeats 1600000 in
/-- The 64 shift pieces as written are the shift pieces of the two statistics columns, `γ` and `β`. -/
theorem shiftList_eq (x1 x2 : Vec Ideal S1x256x1 .f32) (x3 x4 : Vec Ideal S256x1 .f32) :
    ((⟨S4x1, (k1_pay8 (View.ld x1 r1_0) (View.ld x2 r1_0) (View.ld x3 r1_1) (View.ld x4 r1_1))⟩ ::
      ⟨S4x1, (k1_pay13 (k1_pay4 (View.ld x3 r1_1)) (k1_pay5 (View.ld x4 r1_1)) (k1_pay9 (View.ld x1 r1_0)) (k1_pay10 (View.ld x2 r1_0)) (k1_pay11 (F := Ideal)))⟩ ::
      ⟨S4x1, (k1_pay16 (k1_pay2 (View.ld x1 r1_0)) (k1_pay3 (View.ld x2 r1_0)) (k1_pay4 (View.ld x3 r1_1)) (k1_pay5 (View.ld x4 r1_1)))⟩ ::
      ⟨S4x1, (k1_pay20 (k1_pay4 (View.ld x3 r1_1)) (k1_pay5 (View.ld x4 r1_1)) (k1_pay17 (k1_pay2 (View.ld x1 r1_0))) (k1_pay18 (k1_pay2 (View.ld x1 r1_0)) (k1_pay3 (View.ld x2 r1_0))))⟩ ::
      ⟨S4x1, (k1_pay23 (k1_pay2 (View.ld x1 r1_0)) (k1_pay3 (View.ld x2 r1_0)) (k1_pay4 (View.ld x3 r1_1)) (k1_pay5 (View.ld x4 r1_1)))⟩ ::
      ⟨S4x1, (k1_pay28 (k1_pay25 (k1_pay2 (View.ld x1 r1_0)) (k1_pay3 (View.ld x2 r1_0)) (k1_pay4 (View.ld x3 r1_1))) (k1_pay26 (k1_pay5 (View.ld x4 r1_1))) (k1_pay27 (k1_pay2 (View.ld x1 r1_0))))⟩ ::
      ⟨S4x1, (k1_pay31 (k1_pay2 (View.ld x1 r1_0)) (k1_pay3 (View.ld x2 r1_0)) (k1_pay4 (View.ld x3 r1_1)) (k1_pay5 (View.ld x4 r1_1)))⟩ ::
      ⟨S4x1, (k1_pay34 (k1_pay2 (View.ld x1 r1_0)) (k1_pay3 (View.ld x2 r1_0)) (k1_pay4 (View.ld x3 r1_1)) (k1_pay5 (View.ld x4 r1_1)))⟩ ::
      ⟨S4x1, (k1_pay38 (k1_pay3 (View.ld x2 r1_0)) (k1_pay4 (View.ld x3 r1_1)) (k1_pay5 (View.ld x4 r1_1)) (k1_pay35 (k1_pay2 (View.ld x1 r1_0))))⟩ ::
      ⟨S4x1, (k1_pay41 (k1_pay2 (View.ld x1 r1_0)) (k1_pay3 (View.ld x2 r1_0)) (k1_pay4 (View.ld x3 r1_1)) (k1_pay5 (View.ld x4 r1_1)))⟩ ::
      ⟨S4x1, (k1_pay45 (k1_pay4 (View.ld x3 r1_1)) (k1_pay5 (View.ld x4 r1_1)) (k1_pay42 (k1_pay2 (View.ld x1 r1_0))) (k1_pay43 (k1_pay3 (View.ld x2 r1_0))))⟩ ::
      ⟨S4x1, (k1_pay48 (k1_pay2 (View.ld x1 r1_0)) (k1_pay3 (View.ld x2 r1_0)) (k1_pay4 (View.ld x3 r1_1)) (k1_pay5 (View.ld x4 r1_1)))⟩ ::
      ⟨S4x1, (k1_pay52 (k1_pay4 (View.ld x3 r1_1)) (k1_pay5 (View.ld x4 r1_1)) (k1_pay49 (k1_pay2 (View.ld x1 r1_0))) (k1_pay50 (k1_pay2 (View.ld x1 r1_0)) (k1_pay3 (View.ld x2 r1_0))))⟩ ::
      ⟨S4x1, (k1_pay55 (k1_pay2 (View.ld x1 r1_0)) (k1_pay3 (View.ld x2 r1_0)) (k1_pay4 (View.ld x3 r1_1)) (k1_pay5 (View.ld x4 r1_1)))⟩ ::
      ⟨S4x1, (k1_pay60 (k1_pay5 (View.ld x4 r1_1)) (k1_pay56 (k1_pay2 (View.ld x1 r1_0))) (k1_pay57 (k1_pay4 (View.ld x3 r1_1))) (k1_pay58 (k1_pay2 (View.ld x1 r1_0)) (k1_pay3 (View.ld x2 r1_0))))⟩ ::
      ⟨S4x1, (k1_pay63 (k1_pay2 (View.ld x1 r1_0)) (k1_pay3 (View.ld x2 r1_0)) (k1_pay4 (View.ld x3 r1_1)) (k1_pay5 (View.ld x4 r1_1)))⟩ ::
      ⟨S4x1, (k1_pay66 (k1_pay2 (View.ld x1 r1_0)) (k1_pay3 (View.ld x2 r1_0)) (k1_pay4 (View.ld x3 r1_1)) (k1_pay5 (View.ld x4 r1_1)))⟩ ::
      ⟨S4x1, (k1_pay70 (k1_pay3 (View.ld x2 r1_0)) (k1_pay4 (View.ld x3 r1_1)) (k1_pay5 (View.ld x4 r1_1)) (k1_pay67 (k1_pay2 (View.ld x1 r1_0))))⟩ ::
      ⟨S4x1, (k1_pay73 (k1_pay2 (View.ld x1 r1_0)) (k1_pay3 (View.ld x2 r1_0)) (k1_pay4 (View.ld x3 r1_1)) (k1_pay5 (View.ld x4 r1_1)))⟩ ::
      ⟨S4x1, (k1_pay76 (k1_pay3 (View.ld x2 r1_0)) (k1_pay4 (View.ld x3 r1_1)) (k1_pay5 (View.ld x4 r1_1)) (k1_pay74 (k1_pay2 (View.ld x1 r1_0))))⟩ ::
      ⟨S4x1, (k1_pay79 (k1_pay2 (View.ld x1 r1_0)) (k1_pay3 (View.ld x2 r1_0)) (k1_pay4 (View.ld x3 r1_1)) (k1_pay5 (View.ld x4 r1_1)))⟩ ::
      ⟨S4x1, (k1_pay84 (k1_pay4 (View.ld x3 r1_1)) (k1_pay5 (View.ld x4 r1_1)) (k1_pay80 (k1_pay2 (View.ld x1 r1_0))) (k1_pay81 (k1_pay3 (View.ld x2 r1_0))) (k1_pay82 (F := Ideal)))⟩ ::
      ⟨S4x1, (k1_pay87 (k1_pay2 (View.ld x1 r1_0)) (k1_pay3 (View.ld x2 r1_0)) (k1_pay4 (View.ld x3 r1_1)) (k1_pay5 (View.ld x4 r1_1)))⟩ ::
      ⟨S4x1, (k1_pay91 (k1_pay4 (View.ld x3 r1_1)) (k1_pay5 (View.ld x4 r1_1)) (k1_pay88 (k1_pay2 (View.ld x1 r1_0))) (k1_pay89 (k1_pay2 (View.ld x1 r1_0)) (k1_pay3 (View.ld x2 r1_0))))⟩ ::
      ⟨S4x1, (k1_pay94 (k1_pay2 (View.ld x1 r1_0)) (k1_pay3 (View.ld x2 r1_0)) (k1_pay4 (View.ld x3 r1_1)) (k1_pay5 (View.ld x4 r1_1)))⟩ ::
      ⟨S4x1, (k1_pay99 (k1_pay96 (k1_pay2 (View.ld x1 r1_0)) (k1_pay3 (View.ld x2 r1_0)) (k1_pay4 (View.ld x3 r1_1))) (k1_pay97 (k1_pay5 (View.ld x4 r1_1))) (k1_pay98 (k1_pay2 (View.ld x1 r1_0))))⟩ ::
      ⟨S4x1, (k1_pay102 (k1_pay2 (View.ld x1 r1_0)) (k1_pay3 (View.ld x2 r1_0)) (k1_pay4 (View.ld x3 r1_1)) (k1_pay5 (View.ld x4 r1_1)))⟩ ::
      ⟨S4x1, (k1_pay105 (k1_pay2 (View.ld x1 r1_0)) (k1_pay3 (View.ld x2 r1_0)) (k1_pay4 (View.ld x3 r1_1)) (k1_pay5 (View.ld x4 r1_1)))⟩ ::
      ⟨S4x1, (k1_pay109 (k1_pay3 (View.ld x2 r1_0)) (k1_pay4 (View.ld x3 r1_1)) (k1_pay5 (View.ld x4 r1_1)) (k1_pay106 (k1_pay2 (View.ld x1 r1_0))))⟩ ::
      ⟨S4x1, (k1_pay112 (k1_pay2 (View.ld x1 r1_0)) (k1_pay3 (View.ld x2 r1_0)) (k1_pay4 (View.ld x3 r1_1)) (k1_pay5 (View.ld x4 r1_1)))⟩ ::
      ⟨S4x1, (k1_pay116 (k1_pay4 (View.ld x3 r1_1)) (k1_pay5 (View.ld x4 r1_1)) (k1_pay113 (k1_pay2 (View.ld x1 r1_0))) (k1_pay114 (k1_pay3 (View.ld x2 r1_0))))⟩ ::
      ⟨S4x1, (k1_pay119 (k1_pay2 (View.ld x1 r1_0)) (k1_pay3 (View.ld x2 r1_0)) (k1_pay4 (View.ld x3 r1_1)) (k1_pay5 (View.ld x4 r1_1)))⟩ ::
      ⟨S4x1, (k1_pay123 (k1_pay4 (View.ld x3 r1_1)) (k1_pay5 (View.ld x4 r1_1)) (k1_pay120 (k1_pay2 (View.ld x1 r1_0))) (k1_pay121 (k1_pay2 (View.ld x1 r1_0)) (k1_pay3 (View.ld x2 r1_0))))⟩ ::
      ⟨S4x1, (k1_pay126 (k1_pay2 (View.ld x1 r1_0)) (k1_pay3 (View.ld x2 r1_0)) (k1_pay4 (View.ld x3 r1_1)) (k1_pay5 (View.ld x4 r1_1)))⟩ ::
      ⟨S4x1, (k1_pay131 (k1_pay5 (View.ld x4 r1_1)) (k1_pay127 (k1_pay2 (View.ld x1 r1_0))) (k1_pay128 (k1_pay4 (View.ld x3 r1_1))) (k1_pay129 (k1_pay2 (View.ld x1 r1_0)) (k1_pay3 (View.ld x2 r1_0))))⟩ ::
      ⟨S4x1, (k1_pay134 (k1_pay2 (View.ld x1 r1_0)) (k1_pay3 (View.ld x2 r1_0)) (k1_pay4 (View.ld x3 r1_1)) (k1_pay5 (View.ld x4 r1_1)))⟩ ::
      ⟨S4x1, (k1_pay137 (k1_pay2 (View.ld x1 r1_0)) (k1_pay3 (View.ld x2 r1_0)) (k1_pay4 (View.ld x3 r1_1)) (k1_pay5 (View.ld x4 r1_1)))⟩ ::
      ⟨S4x1, (k1_pay141 (k1_pay3 (View.ld x2 r1_0)) (k1_pay4 (View.ld x3 r1_1)) (k1_pay5 (View.ld x4 r1_1)) (k1_pay138 (k1_pay2 (View.ld x1 r1_0))))⟩ ::
      ⟨S4x1, (k1_pay144 (k1_pay2 (View.ld x1 r1_0)) (k1_pay3 (View.ld x2 r1_0)) (k1_pay4 (View.ld x3 r1_1)) (k1_pay5 (View.ld x4 r1_1)))⟩ ::
      ⟨S4x1, (k1_pay147 (k1_pay3 (View.ld x2 r1_0)) (k1_pay4 (View.ld x3 r1_1)) (k1_pay5 (View.ld x4 r1_1)) (k1_pay145 (k1_pay2 (View.ld x1 r1_0))))⟩ ::
      ⟨S4x1, (k1_pay150 (k1_pay2 (View.ld x1 r1_0)) (k1_pay3 (View.ld x2 r1_0)) (k1_pay4 (View.ld x3 r1_1)) (k1_pay5 (View.ld x4 r1_1)))⟩ ::
      ⟨S4x1, (k1_pay155 (k1_pay4 (View.ld x3 r1_1)) (k1_pay5 (View.ld x4 r1_1)) (k1_pay151 (k1_pay2 (View.ld x1 r1_0))) (k1_pay152 (k1_pay3 (View.ld x2 r1_0))) (k1_pay153 (F := Ideal)))⟩ ::
      ⟨S4x1, (k1_pay158 (k1_pay2 (View.ld x1 r1_0)) (k1_pay3 (View.ld x2 r1_0)) (k1_pay4 (View.ld x3 r1_1)) (k1_pay5 (View.ld x4 r1_1)))⟩ ::
      ⟨S4x1, (k1_pay162 (k1_pay4 (View.ld x3 r1_1)) (k1_pay5 (View.ld x4 r1_1)) (k1_pay159 (k1_pay2 (View.ld x1 r1_0))) (k1_pay160 (k1_pay2 (View.ld x1 r1_0)) (k1_pay3 (View.ld x2 r1_0))))⟩ ::
      ⟨S4x1, (k1_pay165 (k1_pay2 (View.ld x1 r1_0)) (k1_pay3 (View.ld x2 r1_0)) (k1_pay4 (View.ld x3 r1_1)) (k1_pay5 (View.ld x4 r1_1)))⟩ ::
      ⟨S4x1, (k1_pay170 (k1_pay167 (k1_pay2 (View.ld x1 r1_0)) (k1_pay3 (View.ld x2 r1_0)) (k1_pay4 (View.ld x3 r1_1))) (k1_pay168 (k1_pay5 (View.ld x4 r1_1))) (k1_pay169 (k1_pay2 (View.ld x1 r1_0))))⟩ ::
      ⟨S4x1, (k1_pay173 (k1_pay2 (View.ld x1 r1_0)) (k1_pay3 (View.ld x2 r1_0)) (k1_pay4 (View.ld x3 r1_1)) (k1_pay5 (View.ld x4 r1_1)))⟩ ::
      ⟨S4x1, (k1_pay176 (k1_pay2 (View.ld x1 r1_0)) (k1_pay3 (View.ld x2 r1_0)) (k1_pay4 (View.ld x3 r1_1)) (k1_pay5 (View.ld x4 r1_1)))⟩ ::
      ⟨S4x1, (k1_pay180 (k1_pay3 (View.ld x2 r1_0)) (k1_pay4 (View.ld x3 r1_1)) (k1_pay5 (View.ld x4 r1_1)) (k1_pay177 (k1_pay2 (View.ld x1 r1_0))))⟩ ::
      ⟨S4x1, (k1_pay183 (k1_pay2 (View.ld x1 r1_0)) (k1_pay3 (View.ld x2 r1_0)) (k1_pay4 (View.ld x3 r1_1)) (k1_pay5 (View.ld x4 r1_1)))⟩ ::
      ⟨S4x1, (k1_pay187 (k1_pay4 (View.ld x3 r1_1)) (k1_pay5 (View.ld x4 r1_1)) (k1_pay184 (k1_pay2 (View.ld x1 r1_0))) (k1_pay185 (k1_pay3 (View.ld x2 r1_0))))⟩ ::
      ⟨S4x1, (k1_pay190 (k1_pay2 (View.ld x1 r1_0)) (k1_pay3 (View.ld x2 r1_0)) (k1_pay4 (View.ld x3 r1_1)) (k1_pay5 (View.ld x4 r1_1)))⟩ ::
      ⟨S4x1, (k1_pay194 (k1_pay4 (View.ld x3 r1_1)) (k1_pay5 (View.ld x4 r1_1)) (k1_pay191 (k1_pay2 (View.ld x1 r1_0))) (k1_pay192 (k1_pay2 (View.ld x1 r1_0)) (k1_pay3 (View.ld x2 r1_0))))⟩ ::
      ⟨S4x1, (k1_pay197 (k1_pay2 (View.ld x1 r1_0)) (k1_pay3 (View.ld x2 r1_0)) (k1_pay4 (View.ld x3 r1_1)) (k1_pay5 (View.ld x4 r1_1)))⟩ ::
      ⟨S4x1, (k1_pay202 (k1_pay5 (View.ld x4 r1_1)) (k1_pay198 (k1_pay2 (View.ld x1 r1_0))) (k1_pay199 (k1_pay4 (View.ld x3 r1_1))) (k1_pay200 (k1_pay2 (View.ld x1 r1_0)) (k1_pay3 (View.ld x2 r1_0))))⟩ ::
      ⟨S4x1, (k1_pay205 (k1_pay2 (View.ld x1 r1_0)) (k1_pay3 (View.ld x2 r1_0)) (k1_pay4 (View.ld x3 r1_1)) (k1_pay5 (View.ld x4 r1_1)))⟩ ::
      ⟨S4x1, (k1_pay208 (k1_pay2 (View.ld x1 r1_0)) (k1_pay3 (View.ld x2 r1_0)) (k1_pay4 (View.ld x3 r1_1)) (k1_pay5 (View.ld x4 r1_1)))⟩ ::
      ⟨S4x1, (k1_pay212 (k1_pay3 (View.ld x2 r1_0)) (k1_pay4 (View.ld x3 r1_1)) (k1_pay5 (View.ld x4 r1_1)) (k1_pay209 (k1_pay2 (View.ld x1 r1_0))))⟩ ::
      ⟨S4x1, (k1_pay215 (k1_pay2 (View.ld x1 r1_0)) (k1_pay3 (View.ld x2 r1_0)) (k1_pay4 (View.ld x3 r1_1)) (k1_pay5 (View.ld x4 r1_1)))⟩ ::
      ⟨S4x1, (k1_pay218 (k1_pay3 (View.ld x2 r1_0)) (k1_pay4 (View.ld x3 r1_1)) (k1_pay5 (View.ld x4 r1_1)) (k1_pay216 (k1_pay2 (View.ld x1 r1_0))))⟩ ::
      ⟨S4x1, (k1_pay221 (k1_pay2 (View.ld x1 r1_0)) (k1_pay3 (View.ld x2 r1_0)) (k1_pay4 (View.ld x3 r1_1)) (k1_pay5 (View.ld x4 r1_1)))⟩ ::
      ⟨S4x1, (k1_pay226 (k1_pay4 (View.ld x3 r1_1)) (k1_pay5 (View.ld x4 r1_1)) (k1_pay222 (k1_pay2 (View.ld x1 r1_0))) (k1_pay223 (k1_pay3 (View.ld x2 r1_0))) (k1_pay224 (F := Ideal)))⟩ ::
      ⟨S4x1, (k1_pay229 (k1_pay2 (View.ld x1 r1_0)) (k1_pay3 (View.ld x2 r1_0)) (k1_pay4 (View.ld x3 r1_1)) (k1_pay5 (View.ld x4 r1_1)))⟩ ::
      ⟨S4x1, (k1_pay233 (k1_pay5 (View.ld x4 r1_1)) (k1_pay230 (k1_pay2 (View.ld x1 r1_0))) (k1_pay232 (k1_pay4 (View.ld x3 r1_1)) (k1_pay231 (k1_pay2 (View.ld x1 r1_0)) (k1_pay3 (View.ld x2 r1_0)))))⟩ :: []) : List ((s : Shape) × (s.Idx → EReal)))
      = shiftList (k1_pay2 (F := Ideal) (View.ld x1 r1_0)) (k1_pay3 (F := Ideal) (View.ld x2 r1_0)) (k1_pay4 (F := Ideal) (View.ld x3 r1_1))
          (k1_pay5 (F := Ideal) (View.ld x4 r1_1)) := rfl

end Cert.ReferenceIdeal.RefValue

end
-- ==== Proof.RefApply.lean ====
/-
  What the reference's second kernel stores, read at one entry of its output block.

  The body holds a tile `[1, 256, 640]` of one sample, the sample's two accumulated statistics columns, `γ`, `β`, the
  matrix and the bias. Group by group (64 groups of 4 channels, written out one after the other) it sums the
  statistics over the group, scales by the one constant, takes the reciprocal square root and forms the four channels'
  scale and shift; the 64 pieces are concatenated into two columns, the tile is normalized by them, multiplied by the
  matrix and the bias is added. At output channel `o` and position `u` that is the specification's `mix` of the tile's
  column `u` under the specification's `scale` and `shift` of the two statistics columns.

  The one store is through the whole buffer, so the block is its payload; the payload's tail read at `(o, u)` is the sum
  over channels of the matrix row times (tile × scale column + shift column), plus the bias; the two columns are the
  columns of the one piece function, and those at row `k` are the specification's `scale` and `shift` of channel `k`.
-/
import proofs.«156338_g2000302674448580_pallasbulk_969_14_alg».proof.Proof.Gen.ReferenceIdeal.Frame
import proofs.«156338_g2000302674448580_pallasbulk_969_14_alg».proof.Proof.Spec
import proofs.«156338_g2000302674448580_pallasbulk_969_14_alg».proof.Proof.LibPlainMatmul
import proofs.«156338_g2000302674448580_pallasbulk_969_14_alg».proof.Proof.RefApplyPiece
import proofs.«156338_g2000302674448580_pallasbulk_969_14_alg».proof.Proof.RefApplyCols
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- The stored block at output channel `o`, position `u` of the tile. -/
theorem applied_apply (x0 : Vec Ideal S1x256x640 .f32) (x1 x2 : Vec Ideal S1x256x1 .f32) (x3 x4 : Vec Ideal S256x1 .f32)
    (x5 : Vec Ideal S256x256 .f32) (x6 : Vec Ideal S256x1 .f32) (o : Fin 256) (u : Fin 640) :
    out1_7 (F := Ideal) x0 x1 x2 x3 x4 x5 x6 (ix3 0 o u)
      = Cert.Spec.mix (fun k => x0 (ix3 0 k u))
          (Cert.Spec.scale (fun k => x1 (ix3 0 k 0)) (fun k => x2 (ix3 0 k 0)) (fun k => x3 (ix2 k 0)))
          (Cert.Spec.shift (fun k => x1 (ix3 0 k 0)) (fun k => x2 (ix3 0 k 0)) (fun k => x3 (ix2 k 0)) (fun k => x4 (ix2 k 0)))
          (fun k => x5 (ix2 o k)) (x6 (ix2 o 0)) := by
  unfold out1_7
  -- the one store covers the buffer: the block is the payload
  refine (congrFun (View.canon_unit_zero origin3 _ _) _).trans ?_
  -- the payload's tail, whatever the two columns are
  refine (tail_apply _ _ _ _ _ o u).trans ?_
  unfold Cert.Spec.mix
  refine congrArg₂ (· + ·) (Finset.sum_congr rfl fun k _ =>
    congrArg₂ (· * ·) ?_ (congrArg₂ (· + ·) (congrArg₂ (· * ·) ?_ ?_) ?_)) ?_
  · exact congrFun (View.ld_unit_zero origin2 _ x5) _
  · exact congrFun (View.ld_unit_zero origin3 _ x0) _
  · -- the scale column at row k
    refine (congrFun (concatenate_congr_list 0 _ _ (scaleList_eq x1 x2 x3) _) _).trans ?_
    exact scaleCol_apply_of _ _ _ _ _ _ (statCol_apply x1) (statCol_apply x2) (paramCol_apply x3) _ k
  · -- the shift column at row k
    refine (congrFun (concatenate_congr_list 0 _ _ (shiftList_eq x1 x2 x3 x4) _) _).trans ?_
    exact shiftCol_apply_of _ _ _ _ _ _ _ _ (statCol_apply x1) (statCol_apply x2) (paramCol_apply x3) (paramCol_apply x4) _ k
  · exact congrFun (View.ld_unit_zero origin2 _ x6) _

end Cert.ReferenceIdeal.RefValue

end
-- ==== Proof.RefArrays.lean ====
/-
  The reference's second kernel region's output array after the run, read at one entry.

  The grid is 16 x 5; point `(b, i)` reads tile `i` (positions `640 i .. 640 i + 639`) of sample `b` of the padded input,
  the sample's two statistics blocks `(b, 0, 0)`, and `γ`, `β`, the matrix and the bias whole, and writes tile `i` of sample
  `b` of the output. The tiles cover the output array, so entry `(b, o, s)` of the final array is entry `(0, o, s % 640)` of
  what point `(b, s / 640)` stored.
-/
import proofs.«156338_g2000302674448580_pallasbulk_969_14_alg».proof.Proof.RefApply
import Idealize.ShloMosaic.Lib.Pipeline.Value

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

section Blocks

variable (V : (c : Dev nD) → (b : Ref sig .tc) → Buf (Elt Ideal) ((c : Thread nD τ).loc b))

/-! ## The index maps, over the grid -/

/-- Point `t` is sample `t / 5`, tile `t % 5`: the input's and the output's block index is `(t / 5, 0, t % 5)`, the two
    statistics' is `(t / 5, 0, 0)`, and the four whole windows' is zero. -/
theorem idx_facts : ∀ t : Fin cfg1.N,
    win1_0.index t (0 : Fin 3) = t.val / 5 ∧ win1_0.index t (1 : Fin 3) = 0 ∧ win1_0.index t (2 : Fin 3) = t.val % 5
    ∧ win1_1.index t (0 : Fin 3) = t.val / 5 ∧ win1_1.index t (1 : Fin 3) = 0 ∧ win1_1.index t (2 : Fin 3) = 0
    ∧ win1_2.index t (0 : Fin 3) = t.val / 5 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val / 5 ∧ win1_7.index t (1 : Fin 3) = 0 ∧ win1_7.index t (2 : Fin 3) = t.val % 5 :=
  (by decide +kernel : ∀ t : Fin grid1.N, _)

/-! ## The input blocks, on coordinates -/

/-- Tile `t % 5` of sample `t / 5` of the padded input: entry `(0, k, u)` of the block is entry `(t / 5, k, 640 (t % 5) + u)`. -/
theorem iblk0_apply (c : Dev nD) (t : Fin cfg1.N) (k : Fin 256) (u : Fin 640) (i : S16x256x3200.Idx)
    (h0 : (i 0).val = t.val / 5) (h1 : (i 1).val = k.val) (h2 : (i 2).val = 640 * (t.val % 5) + u.val) :
    (iblk1 V c 0 t : Vec Ideal S1x256x640 .f32) (ix3 0 k u) = (V c main_v1 : S16x256x3200.Idx → Elt Ideal .f32) i := by
  obtain ⟨e0, e1, e2, -⟩ := idx_facts t
  unfold iblk1
  rw [View.read_apply]
  show V c main_v1 _ = V c main_v1 _
  congr 1
  funext a
  apply Fin.ext
  match a with
  | ⟨0, _⟩ => show win1_0.index t (0 : Fin 3) * 1 + 1 * (0 : Fin 1).val = (i 0).val; rw [e0, h0]; simp
  | ⟨1, _⟩ => show win1_0.index t (1 : Fin 3) * 256 + 1 * k.val = (i 1).val; rw [e1, h1]; omega
  | ⟨2, _⟩ => show win1_0.index t (2 : Fin 3) * 640 + 1 * u.val = (i 2).val; rw [e2, h2]; omega

/-- The sample's first statistic: entry `(0, k, 0)` of the block is entry `(t / 5, k, 0)`. -/
theorem iblk1_apply (c : Dev nD) (t : Fin cfg1.N) (k : Fin 256) (i : S16x256x1.Idx)
    (h0 : (i 0).val = t.val / 5) (h1 : (i 1).val = k.val) :
    (iblk1 V c 1 t : Vec Ideal S1x256x1 .f32) (ix3 0 k 0) = (V c main_v5_0 : S16x256x1.Idx → Elt Ideal .f32) i := by
  obtain ⟨-, -, -, e0, e1, e2, -⟩ := idx_facts t
  have h2 : (i 2).val < 1 := (i 2).isLt
  unfold iblk1
  rw [View.read_apply]
  show V c main_v5_0 _ = V c main_v5_0 _
  congr 1
  funext a
  apply Fin.ext
  match a with
  | ⟨0, _⟩ => show win1_1.index t (0 : Fin 3) * 1 + 1 * (0 : Fin 1).val = (i 0).val; rw [e0, h0]; simp
  | ⟨1, _⟩ => show win1_1.index t (1 : Fin 3) * 256 + 1 * k.val = (i 1).val; rw [e1, h1]; omega
  | ⟨2, _⟩ => show win1_1.index t (2 : Fin 3) * 1 + 1 * (0 : Fin 1).val = (i 2).val; rw [e2]; simp; omega

/-- The sample's second statistic, likewise. -/
theorem iblk2_apply (c : Dev nD) (t : Fin cfg1.N) (k : Fin 256) (i : S16x256x1.Idx)
    (h0 : (i 0).val = t.val / 5) (h1 : (i 1).val = k.val) :
    (iblk1 V c 2 t : Vec Ideal S1x256x1 .f32) (ix3 0 k 0) = (V c main_v5_1 : S16x256x1.Idx → Elt Ideal .f32) i := by
  obtain ⟨-, -, -, -, -, -, e0, e1, e2, -⟩ := idx_facts t
  have h2 : (i 2).val < 1 := (i 2).isLt
  unfold iblk1
  rw [View.read_apply]
  show V c main_v5_1 _ = V c main_v5_1 _
  congr 1
  funext a
  apply Fin.ext
  match a with
  | ⟨0, _⟩ => show win1_2.index t (0 : Fin 3) * 1 + 1 * (0 : Fin 1).val = (i 0).val; rw [e0, h0]; simp
  | ⟨1, _⟩ => show win1_2.index t (1 : Fin 3) * 256 + 1 * k.val = (i 1).val; rw [e1, h1]; omega
  | ⟨2, _⟩ => show win1_2.index t (2 : Fin 3) * 1 + 1 * (0 : Fin 1).val = (i 2).val; rw [e2]; simp; omega

/-- `γ` is read whole. -/
theorem iblk3_apply (c : Dev nD) (t : Fin cfg1.N) (y : S256x1.Idx) :
    (iblk1 V c 3 t : Vec Ideal S256x1 .f32) y = (V c main_v2 : S256x1.Idx → Elt Ideal .f32) y := by
  obtain ⟨-, -, -, -, -, -, -, -, -, e0, e1, -⟩ := idx_facts t
  unfold iblk1
  rw [View.read_apply]
  show V c main_v2 _ = V c main_v2 _
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 1 + 1 * (y 1).val = (y 1).val; rw [e1]; omega

/-- `β` is read whole. -/
theorem iblk4_apply (c : Dev nD) (t : Fin cfg1.N) (y : S256x1.Idx) :
    (iblk1 V c 4 t : Vec Ideal S256x1 .f32) y = (V c main_v3 : S256x1.Idx → Elt Ideal .f32) y := by
  obtain ⟨-, -, -, -, -, -, -, -, -, -, -, e0, e1, -⟩ := idx_facts t
  unfold iblk1
  rw [View.read_apply]
  show V c main_v3 _ = V c main_v3 _
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 1 + 1 * (y 1).val = (y 1).val; rw [e1]; omega

/-- The matrix is read whole. -/
theorem iblk5_apply (c : Dev nD) (t : Fin cfg1.N) (y : S256x256.Idx) :
    (iblk1 V c 5 t : Vec Ideal S256x256 .f32) y = (V c main_arg3 : S256x256.Idx → Elt Ideal .f32) y := by
  obtain ⟨-, -, -, -, -, -, -, -, -, -, -, -, -, e0, e1, -⟩ := idx_facts t
  unfold iblk1
  rw [View.read_apply]
  show V c main_arg3 _ = V c main_arg3 _
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 256 + 1 * (y 1).val = (y 1).val; rw [e1]; omega

/-- The bias is read whole. -/
theorem iblk6_apply (c : Dev nD) (t : Fin cfg1.N) (y : S256x1.Idx) :
    (iblk1 V c 6 t : Vec Ideal S256x1 .f32) y = (V c main_v4 : S256x1.Idx → Elt Ideal .f32) y := by
  obtain ⟨-, -, -, -, -, -, -, -, -, -, -, -, -, -, -, e0, e1, -⟩ := idx_facts t
  unfold iblk1
  rw [View.read_apply]
  show V c main_v4 _ = V c main_v4 _
  congr 1
  funext a
  apply Fin.ext
  match a with
  | ⟨0, _⟩ => show win1_6.index t (0 : Fin 2) * 256 + 1 * (y 0).val = (y 0).val; rw [e0]; omega
  | ⟨1, _⟩ => show win1_6.index t (1 : Fin 2) * 1 + 1 * (y 1).val = (y 1).val; rw [e1]; omega

/-! ## One point's store, and the whole array -/

/-- Entry `(b, o, s)` of the output as a function of the entry contents: the 256 channel values of sample `b` at position
    `s`, normalized by the sample's statistics with `γ` and `β`, mixed by row `o` of the matrix, plus bias `o`. -/
def entry (c : Dev nD) (b : Fin 16) (o : Fin 256) (s : Fin 3200) : EReal :=
  Cert.Spec.mix (fun k => V c main_v1 (ix3 b k s))
    (Cert.Spec.scale (fun k => V c main_v5_0 (ix3 b k 0)) (fun k => V c main_v5_1 (ix3 b k 0)) (fun k => V c main_v2 (ix2 k 0)))
    (Cert.Spec.shift (fun k => V c main_v5_0 (ix3 b k 0)) (fun k => V c main_v5_1 (ix3 b k 0)) (fun k => V c main_v2 (ix2 k 0)) (fun k => V c main_v3 (ix2 k 0)))
    (fun k => V c main_arg3 (ix2 o k)) (V c main_v4 (ix2 o 0))

/-- The whole output array, index by index. -/
def G (c : Dev nD) : S16x256x3200.Idx → EReal := fun i => entry V c (i 0) (i 1) (i 2)

/-- The mixing term depends on its seven operands only. -/
theorem mix_congr {xs xs' S1 S1' S2 S2' γ γ' β β' w w' : Fin 256 → EReal} {bias bias' : EReal}
    (hx : xs = xs') (h1 : S1 = S1') (h2 : S2 = S2') (hγ : γ = γ') (hβ : β = β') (hw : w = w') (hb : bias = bias') :
    Cert.Spec.mix xs (Cert.Spec.scale S1 S2 γ) (Cert.Spec.shift S1 S2 γ β) w bias
      = Cert.Spec.mix xs' (Cert.Spec.scale S1' S2' γ') (Cert.Spec.shift S1' S2' γ' β') w' bias' := by
  subst hx h1 h2 hγ hβ hw hb; rfl

/-- What point `t` stores at `(0, o, u)` of its block is entry `(t / 5, o, 640 (t % 5) + u)` of the array. -/
theorem block_entry (c : Dev nD) (t : Fin cfg1.N) (o : Fin 256) (u : Fin 640) (b : Fin 16) (s : Fin 3200)
    (hb : b.val = t.val / 5) (hs : s.val = 640 * (t.val % 5) + u.val) :
    out1_7 (F := Ideal) (iblk1 V c 0 t) (iblk1 V c 1 t) (iblk1 V c 2 t) (iblk1 V c 3 t) (iblk1 V c 4 t) (iblk1 V c 5 t) (iblk1 V c 6 t) (ix3 0 o u)
      = entry V c b o s := by
  refine (applied_apply _ _ _ _ _ _ _ o u).trans ?_
  unfold entry
  have hx : (fun k => (iblk1 V c 0 t : Vec Ideal S1x256x640 .f32) (ix3 0 k u)) = fun k => V c main_v1 (ix3 b k s) :=
    funext fun k => iblk0_apply V c t k u (ix3 b k s) hb rfl hs
  have h1 : (fun k => (iblk1 V c 1 t : Vec Ideal S1x256x1 .f32) (ix3 0 k 0)) = fun k => V c main_v5_0 (ix3 b k 0) :=
    funext fun k => iblk1_apply V c t k (ix3 b k 0) hb rfl
  have h2 : (fun k => (iblk1 V c 2 t : Vec Ideal S1x256x1 .f32) (ix3 0 k 0)) = fun k => V c main_v5_1 (ix3 b k 0) :=
    funext fun k => iblk2_apply V c t k (ix3 b k 0) hb rfl
  have h3 : (fun k => (iblk1 V c 3 t : Vec Ideal S256x1 .f32) (ix2 k 0)) = fun k => V c main_v2 (ix2 k 0) :=
    funext fun k => iblk3_apply V c t (ix2 k 0)
  have h4 : (fun k => (iblk1 V c 4 t : Vec Ideal S256x1 .f32) (ix2 k 0)) = fun k => V c main_v3 (ix2 k 0) :=
    funext fun k => iblk4_apply V c t (ix2 k 0)
  have h5 : (fun k => (iblk1 V c 5 t : Vec Ideal S256x256 .f32) (ix2 o k)) = fun k => V c main_arg3 (ix2 o k) :=
    funext fun k => iblk5_apply V c t (ix2 o k)
  have h6 : (iblk1 V c 6 t : Vec Ideal S256x1 .f32) (ix2 o 0) = V c main_v4 (ix2 o 0) := iblk6_apply V c t (ix2 o 0)
  exact mix_congr hx h1 h2 h3 h4 h5 h6

/-- WHAT POINT `t` WRITES BACK is block `t` of `G`. -/
theorem flushed_eq (c : Dev nD) (t : Fin cfg1.N) :
    (dat1 (F := Ideal) V c).flushed 7 t = ((cfg1.win 7).blk t).view.read (Elt Ideal) (G V c) := by
  obtain ⟨-, -, -, -, -, -, -, -, -, -, -, -, -, -, -, -, -, e0, e1, e2⟩ := idx_facts t
  have hN : cfg1.N = 80 := N_1
  have ht : t.val < 80 := hN ▸ t.isLt
  show (cfg1.win 7).cut (grid1.coords t) ((dat1 (F := Ideal) V c).after 7 t) = _
  rw [after1_7]
  funext j
  obtain ⟨z, o, u, rfl⟩ : ∃ (z : Fin 1) (o : Fin 256) (u : Fin 640), j = ix3 z o u := ⟨j 0, j 1, j 2, eq_ix3 j⟩
  obtain rfl : z = 0 := Subsingleton.elim _ _
  rw [View.read_apply]
  show out1_7 (F := Ideal) (iblk1 V c 0 t) (iblk1 V c 1 t) (iblk1 V c 2 t) (iblk1 V c 3 t) (iblk1 V c 4 t) (iblk1 V c 5 t) (iblk1 V c 6 t) (ix3 0 o u)
    = G V c (((cfg1.win 7).blk t).view.emb (ix3 0 o u))
  have hb : t.val / 5 < 16 := by omega
  have hs : 640 * (t.val % 5) + u.val < 3200 := by have := u.isLt; omega
  refine (block_entry V c t o u ⟨t.val / 5, hb⟩ ⟨640 * (t.val % 5) + u.val, hs⟩ rfl rfl).trans ?_
  unfold G
  have a0 : (((cfg1.win 7).blk t).view.emb (ix3 0 o u) : S16x256x3200.Idx) 0 = (⟨t.val / 5, hb⟩ : Fin 16) := by
    apply Fin.ext
    show win1_7.index t (0 : Fin 3) * 1 + 1 * (0 : Fin 1).val = t.val / 5
    rw [e0]; simp
  have a1 : (((cfg1.win 7).blk t).view.emb (ix3 0 o u) : S16x256x3200.Idx) 1 = (o : Fin 256) := by
    apply Fin.ext
    show win1_7.index t (1 : Fin 3) * 256 + 1 * o.val = o.val
    rw [e1]; omega
  have a2 : (((cfg1.win 7).blk t).view.emb (ix3 0 o u) : S16x256x3200.Idx) 2 = (⟨640 * (t.val % 5) + u.val, hs⟩ : Fin 3200) := by
    apply Fin.ext
    show win1_7.index t (2 : Fin 3) * 640 + 1 * u.val = 640 * (t.val % 5) + u.val
    rw [e2]; omega
  rw [a0, a1, a2]

/-! ## The tiles cover the array -/

/-- An index of the array is in point `t`'s block iff each coordinate is in the block's range on its axis. -/
theorem mem_blk (t : Fin cfg1.N) (i : S16x256x3200.Idx) :
    i ∈ ((cfg1.win 7).blk t).view.set ↔ ∀ a : Fin 3, win1_7.index t a * S1x256x640.size a ≤ (i a).val ∧ (i a).val < win1_7.index t a * S1x256x640.size a + S1x256x640.size a := by
  show i ∈ ((View.whole main_v6).slice (win1_7.rect t)).set ↔ _
  rw [View.set_slice_whole, Rect.mem_set_unit]
  exact Iff.rfl

/-- Entry `(b, o, s)` is in the block of point `5 b + s / 640`. -/
theorem cover (i : S16x256x3200.Idx) : ∃ t : Fin cfg1.N, (cfg1.win 7).flush t = true ∧ i ∈ ((cfg1.win 7).blk t).view.set := by
  have h0 : (i 0).val < 16 := (i 0).isLt
  have h1 : (i 1).val < 256 := (i 1).isLt
  have h2 : (i 2).val < 3200 := (i 2).isLt
  have hN : cfg1.N = 80 := N_1
  obtain ⟨t, ht⟩ : ∃ t : Fin cfg1.N, t.val = 5 * (i 0).val + (i 2).val / 640 := ⟨⟨5 * (i 0).val + (i 2).val / 640, by rw [hN]; omega⟩, rfl⟩
  obtain ⟨-, -, -, -, -, -, -, -, -, -, -, -, -, -, -, -, -, e0, e1, e2⟩ := idx_facts t
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; rw [e0, ht]; omega
  | ⟨1, _⟩ => show win1_7.index t (1 : Fin 3) * 256 ≤ (i 1).val ∧ (i 1).val < win1_7.index t (1 : Fin 3) * 256 + 256; rw [e1]; omega
  | ⟨2, _⟩ => show win1_7.index t (2 : Fin 3) * 640 ≤ (i 2).val ∧ (i 2).val < win1_7.index t (2 : Fin 3) * 640 + 640; rw [e2, ht]; omega

/-- THE ARRAY after the run is `G` of the entry contents. -/
theorem final (c : Dev nD) : (dat1 (F := Ideal) V c).arrAt 7 cfg1.N = G V c :=
  (dat1 (F := Ideal) V c).arrAt_eq_of_cover 7 (G V c) (fun t _ => flushed_eq V c t) cover

end Blocks

/-- Entry `(b, o, s)` of the padded output array when the region ends, from the contents `V` the region is entered with. -/
theorem applied_array (V : (c : Dev nD) → (b : Ref sig .tc) → Buf (Elt Ideal) ((c : Thread nD τ).loc b)) (c : Dev nD) (b : Fin 16) (o : Fin 256) (s : Fin 3200) :
    (dat1 (F := Ideal) V c).arrAt 7 cfg1.N (ix3 b o s)
      = Cert.Spec.mix (fun k => V c main_v1 (ix3 b k s))
          (Cert.Spec.scale (fun k => V c main_v5_0 (ix3 b k 0)) (fun k => V c main_v5_1 (ix3 b k 0)) (fun k => V c main_v2 (ix2 k 0)))
          (Cert.Spec.shift (fun k => V c main_v5_0 (ix3 b k 0)) (fun k => V c main_v5_1 (ix3 b k 0)) (fun k => V c main_v2 (ix2 k 0)) (fun k => V c main_v3 (ix2 k 0)))
          (fun k => V c main_arg3 (ix2 o k)) (V c main_v4 (ix2 o 0)) := by
  exact congrFun (final V c) (ix3 b o s)

end Cert.ReferenceIdeal.RefValue

end
-- ==== Proof.RefStatsPieces.lean ====
/-
  What each case of the first region's body leaves in its two accumulator blocks, as the body's arithmetic of the tile
  and of what the accumulator held: at a reset point the zero block plus the tile's lane sums, elsewhere the held block
  plus them. Then that arithmetic at an index, over the extended reals: the held entry plus the sum over the 640 lanes
  of the tile's entries (of their squares, for the second block).
-/
import proofs.«156338_g2000302674448580_pallasbulk_969_14_alg».proof.Proof.Gen.ReferenceIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

section Pieces
variable {F : FTy → Type} [FloatOps F]

theorem hz3 : (![0, 0, 0] : Fin 3 → Nat) = fun _ => 0 := funext fun a => by fin_cases a <;> rfl

/-- A point that does not reset leaves, in the first block, the held block plus the tile's lane sums. -/
theorem out_B_1 (c : Dev nD) (i : grid0.Coords) (arg2 : Memref sig .tc .vmem S1x256x640 .f32) (harg2 : arg2.IsWhole) (arg3 : Memref sig .tc .vmem S1x256x1 .f32) (harg3 : arg3.IsWhole) (arg4 : Memref sig .tc .vmem S1x256x1 .f32) (harg4 : arg4.IsWhole) (hc0 : ¬cond0_0 i)
    (x0 : Vec F S1x256x640 .f32) (xo1 : Vec F S1x256x1 .f32) (xo2 : Vec F S1x256x1 .f32) :
    out0_B_1 c i arg2 harg2 arg3 harg3 arg4 harg4 hc0 x0 xo1 xo2 = k0_pay4 x0 xo1 := by
  unfold out0_B_1
  rw [View.read_writes_eq_canon _ _ _ (cover0_B_1 c i arg2 harg2 arg3 harg3 arg4 harg4 hc0 x0 xo1 xo2)]
  unfold kernelRun0_B
  dsimp only
  sl_unfold_words
  rw [View.canon_unit_zero hz3]
  simp only [View.readAt_eq_ld, harg2.read_unread, harg3.read_unread, harg4.read_unread, View.ld_unit_zero (S := S1x256x640) hz3, View.ld_unit_zero (S := S1x256x1) hz3]

/-- and in the second block the held block plus the lane sums of the tile's squares. -/
theorem out_B_2 (c : Dev nD) (i : grid0.Coords) (arg2 : Memref sig .tc .vmem S1x256x640 .f32) (harg2 : arg2.IsWhole) (arg3 : Memref sig .tc .vmem S1x256x1 .f32) (harg3 : arg3.IsWhole) (arg4 : Memref sig .tc .vmem S1x256x1 .f32) (harg4 : arg4.IsWhole) (hc0 : ¬cond0_0 i)
    (x0 : Vec F S1x256x640 .f32) (xo1 : Vec F S1x256x1 .f32) (xo2 : Vec F S1x256x1 .f32) :
    out0_B_2 c i arg2 harg2 arg3 harg3 arg4 harg4 hc0 x0 xo1 xo2 = k0_pay5 x0 xo2 := by
  unfold out0_B_2
  rw [View.read_writes_eq_canon _ _ _ (cover0_B_2 c i arg2 harg2 arg3 harg3 arg4 harg4 hc0 x0 xo1 xo2)]
  unfold kernelRun0_B
  dsimp only
  sl_unfold_words
  rw [View.canon_unit_zero hz3]
  simp only [View.readAt_eq_ld, harg2.read_unread, harg3.read_unread, harg4.read_unread, View.ld_unit_zero (S := S1x256x640) hz3, View.ld_unit_zero (S := S1x256x1) hz3]

/-- A reset point stores the zero block first, so it leaves the zero block plus the tile's lane sums, -/
theorem out_A_1 (c : Dev nD) (i : grid0.Coords) (arg2 : Memref sig .tc .vmem S1x256x640 .f32) (harg2 : arg2.IsWhole) (arg3 : Memref sig .tc .vmem S1x256x1 .f32) (harg3 : arg3.IsWhole) (arg4 : Memref sig .tc .vmem S1x256x1 .f32) (harg4 : arg4.IsWhole) (hc0 : cond0_0 i)
    (x0 : Vec F S1x256x640 .f32) :
    out0_A_1 c i arg2 harg2 arg3 harg3 arg4 harg4 hc0 x0 = k0_pay4 x0 k0_pay1 := by
  unfold out0_A_1
  rw [View.read_writes_eq_canon _ _ _ (cover0_A_1 c i arg2 harg2 arg3 harg3 arg4 harg4 hc0 x0)]
  unfold kernelRun0_A
  dsimp only
  sl_unfold_words
  rw [View.canon_cons_unit_zero (S := S1x256x1) hz3, View.readCov_unit_zero (S := S1x256x1) _ hz3]
  simp only [View.readAt_eq_ld, harg2.read_unread, View.ld_unit_zero (S := S1x256x640) hz3, View.ld_unit_zero (S := S1x256x1) hz3]

/-- and the zero block plus the lane sums of the tile's squares. -/
theorem out_A_2 (c : Dev nD) (i : grid0.Coords) (arg2 : Memref sig .tc .vmem S1x256x640 .f32) (harg2 : arg2.IsWhole) (arg3 : Memref sig .tc .vmem S1x256x1 .f32) (harg3 : arg3.IsWhole) (arg4 : Memref sig .tc .vmem S1x256x1 .f32) (harg4 : arg4.IsWhole) (hc0 : cond0_0 i)
    (x0 : Vec F S1x256x640 .f32) :
    out0_A_2 c i arg2 harg2 arg3 harg3 arg4 harg4 hc0 x0 = k0_pay5 x0 k0_pay2 := by
  unfold out0_A_2
  rw [View.read_writes_eq_canon _ _ _ (cover0_A_2 c i arg2 harg2 arg3 harg3 arg4 harg4 hc0 x0)]
  unfold kernelRun0_A
  dsimp only
  sl_unfold_words
  rw [View.canon_cons_unit_zero (S := S1x256x1) hz3, View.readCov_unit_zero (S := S1x256x1) _ hz3]
  simp only [View.readAt_eq_ld, harg2.read_unread, View.ld_unit_zero (S := S1x256x640) hz3, View.ld_unit_zero (S := S1x256x1) hz3]

end Pieces

/-! ## The arithmetic at an index, over the extended reals -/

/-- The index a lane sum reads: row `k`, lane `u`. -/
theorem lift_eq (h : S256x640.Reduces [1] S256) (k : Fin 256) (u : Fin 640) : h.lift (ix1 k) u = ix2 k u := by
  funext a
  apply Fin.ext
  match a with
  | ⟨0, _⟩ => rfl
  | ⟨1, _⟩ => rfl

/-- The zero block is zero. -/
theorem pay1_apply (j : S1x256x1.Idx) : k0_pay1 (F := Ideal) j = 0 := by
  unfold k0_pay1
  exact Ideal.ofBits_zero_f32

theorem pay2_apply (j : S1x256x1.Idx) : k0_pay2 (F := Ideal) j = 0 := by
  unfold k0_pay2
  exact Ideal.ofBits_zero_f32

/-- The tile as 256 rows of 640 lanes. -/
theorem pay3_apply (x : S1x256x640.Idx → EReal) (k : Fin 256) (u : Fin 640) :
    k0_pay3 (F := Ideal) x (ix2 k u) = x (ix3 0 k u) := by
  unfold k0_pay3
  exact shapeCast_1ab_ab_apply x _ k u

/-- The first block's update at row `k`: the held entry plus the sum over the lanes of the tile's row. -/
theorem pay4_apply (x : S1x256x640.Idx → EReal) (acc : S1x256x1.Idx → EReal) (k : Fin 256) :
    k0_pay4 (F := Ideal) x acc (ix3 0 k 0) = acc (ix3 0 k 0) + ∑ u : Fin 640, x (ix3 0 k u) := by
  unfold k0_pay4
  refine (shapeCast_ab_1ab_apply _ _ (0 : Fin 1) k (0 : Fin 1)).trans ?_
  refine (addf_apply _ _ (ix2 k (0 : Fin 1))).trans ?_
  congr 1
  · exact shapeCast_1ab_ab_apply acc _ k (0 : Fin 1)
  · refine (shapeCast_apply _ _ (ix2 k (0 : Fin 1)) (ix1 k) ?_).trans ?_
    · rw [Shape.rowMajor_val_one, Shape.rowMajor_val_two]
      show k.val = k.val * 1 + 0
      omega
    refine (Ideal.multiReduction_add_single _ _ _ _ _ (ix1 k)).trans ?_
    refine Finset.sum_congr rfl fun (u : Fin 640) _ => ?_
    refine (congrArg (k0_pay3 (F := Ideal) x) (lift_eq _ k u)).trans ?_
    exact pay3_apply x k u

/-- The second block's update at row `k`: the held entry plus the sum over the lanes of the squares. -/
theorem pay5_apply (x : S1x256x640.Idx → EReal) (acc : S1x256x1.Idx → EReal) (k : Fin 256) :
    k0_pay5 (F := Ideal) x acc (ix3 0 k 0) = acc (ix3 0 k 0) + ∑ u : Fin 640, x (ix3 0 k u) * x (ix3 0 k u) := by
  unfold k0_pay5
  refine (shapeCast_ab_1ab_apply _ _ (0 : Fin 1) k (0 : Fin 1)).trans ?_
  refine (addf_apply _ _ (ix2 k (0 : Fin 1))).trans ?_
  congr 1
  · exact shapeCast_1ab_ab_apply acc _ k (0 : Fin 1)
  · refine (shapeCast_apply _ _ (ix2 k (0 : Fin 1)) (ix1 k) ?_).trans ?_
    · rw [Shape.rowMajor_val_one, Shape.rowMajor_val_two]
      show k.val = k.val * 1 + 0
      omega
    refine (Ideal.multiReduction_add_single _ _ _ _ _ (ix1 k)).trans ?_
    refine Finset.sum_congr rfl fun (u : Fin 640) _ => ?_
    refine (congrArg (mulf (k0_pay3 (F := Ideal) x) (k0_pay3 (F := Ideal) x)) (lift_eq _ k u)).trans ?_
    refine (mulf_apply _ _ (ix2 k u)).trans ?_
    rw [pay3_apply x k u]

end Cert.ReferenceIdeal.RefValue

end
-- ==== Proof.RefStats.lean ====
/-
  The reference's first kernel region: per sample and channel, the sum of the (zero-padded) entries and of their
  squares, accumulated over five tiles of 640 along the padded axis of 3200.

  The grid is 16 x 5; point `(b, i)` reads tile `i` of sample `b` and, at `i = 0`, first stores zero in the two
  accumulator blocks `[1, 256, 1]` of sample `b` (which the pipeline carries from point to point and writes back); every
  point adds its tile's lane sums to what the accumulators hold. So when the region ends the two output arrays hold,
  at `(b, k, 0)`, the tiles' sums added up from zero in order.
-/
import proofs.«156338_g2000302674448580_pallasbulk_969_14_alg».proof.Proof.Gen.ReferenceIdeal.Frame
import proofs.«156338_g2000302674448580_pallasbulk_969_14_alg».proof.Proof.Spec
import proofs.«156338_g2000302674448580_pallasbulk_969_14_alg».proof.Proof.RefStatsPieces
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- Five tiles of 640 added up from zero, in order. -/
def tiles (g : Fin 3200 → EReal) : EReal :=
  (((((0 : EReal) + ∑ u : Fin 640, g ⟨u.val, by have := u.isLt; omega⟩)
      + ∑ u : Fin 640, g ⟨640 + u.val, by have := u.isLt; omega⟩)
      + ∑ u : Fin 640, g ⟨1280 + u.val, by have := u.isLt; omega⟩)
      + ∑ u : Fin 640, g ⟨1920 + u.val, by have := u.isLt; omega⟩)
      + ∑ u : Fin 640, g ⟨2560 + u.val, by have := u.isLt; omega⟩

/-- The padded input `[16, 256, 3200]` as the region finds it. -/
abbrev padded (V : (c : Dev nD) → (b : Ref sig .tc) → Buf (Elt Ideal) ((c : Thread nD τ).loc b)) (c : Dev nD) : S16x256x3200.Idx → EReal := V c main_v1

section Region
variable (V : (c : Dev nD) → (b : Ref sig .tc) → Buf (Elt Ideal) ((c : Thread nD τ).loc b)) (c : Dev nD)

/-- The tile the body reads at point `t`. -/
abbrev tile (t : Fin cfg0.N) : S1x256x640.Idx → EReal := iblk0 (F := Ideal) V c 0 t

/-- The input window's block index at a point: the sample, zero, the tile. -/
theorem index0 : ∀ t : Fin cfg0.N, win0_0.index t (0 : Fin 3) = t.val / 5 ∧ win0_0.index t (1 : Fin 3) = 0 ∧ win0_0.index t (2 : Fin 3) = t.val % 5 :=
  (by decide +kernel : ∀ t : Fin grid0.N, _)

/-- Point `t`'s tile at `(0, k, u)` is the padded input at sample `t / 5`, channel `k`, entry `640 (t % 5) + u`. -/
theorem tile_apply (t : Fin cfg0.N) (k : Fin 256) (u : Fin 640) (b : Fin 16) (s : Fin 3200)
    (hb : b.val = t.val / 5) (hs : s.val = 640 * (t.val % 5) + u.val) :
    tile V c t (ix3 (0 : Fin 1) k u) = padded V c (ix3 b k s) := by
  obtain ⟨e0, e1, e2⟩ := index0 t
  show padded V c (((cfg0.win 0).blk t).view.emb (ix3 (0 : Fin 1) k u)) = padded V c (ix3 b k s)
  refine congrArg (padded V c) ?_
  funext a
  apply Fin.ext
  match a with
  | ⟨0, _⟩ => show win0_0.index t (0 : Fin 3) * 1 + 1 * 0 = b.val; rw [e0, hb]; omega
  | ⟨1, _⟩ => show win0_0.index t (1 : Fin 3) * 256 + 1 * k.val = k.val; rw [e1]; omega
  | ⟨2, _⟩ => show win0_0.index t (2 : Fin 3) * 640 + 1 * u.val = s.val; rw [e2, hs]; omega

/-! ## The first accumulator: the sums -/

/-- What the first accumulator block holds after point `n`. -/
abbrev acc1 (n : ℕ) (h : n < cfg0.N) : S1x256x1.Idx → EReal := (outsAt0 (F := Ideal) V c n h).1

theorem acc1_congr (n n' : ℕ) (h : n < cfg0.N) (h' : n' < cfg0.N) (e : n = n') : acc1 V c n h = acc1 V c n' h' := by
  subst e; rfl

/-- At a reset point the block holds, at row `k`, zero plus the tile's lane sum. -/
theorem acc1_reset_at (t : Fin cfg0.N) (h0 : t.val % 5 = 0) (k : Fin 256) :
    acc1 V c t.val t.isLt (ix3 (0 : Fin 1) k (0 : Fin 1)) = 0 + ∑ u : Fin 640, tile V c t (ix3 (0 : Fin 1) k u) := by
  show (outsAt0 (F := Ideal) V c t.val t.isLt).1 (ix3 (0 : Fin 1) k (0 : Fin 1)) = _
  rw [outsAt0_A V c t h0]
  dsimp only
  refine (congrFun (out_A_1 (F := Ideal) c (grid0.coords t) (ms0_0 t) (hs0_0 t) (ms0_1 t) (hs0_1 t) (ms0_2 t) (hs0_2 t) ((hcond0_0 t).mpr h0) (iblk0 V c 0 t)) (ix3 (0 : Fin 1) k (0 : Fin 1))).trans ?_
  refine (pay4_apply (tile V c t) (k0_pay1 (F := Ideal)) k).trans ?_
  rw [pay1_apply]

/-- At any other point it holds what the point before left plus the tile's lane sum. -/
theorem acc1_step_at (t : Fin cfg0.N) (hB : ¬t.val % 5 = 0) (k : Fin 256) :
    acc1 V c t.val t.isLt (ix3 (0 : Fin 1) k (0 : Fin 1))
      = acc1 V c (t.val - 1) (Nat.lt_of_le_of_lt (Nat.sub_le _ _) t.isLt) (ix3 (0 : Fin 1) k (0 : Fin 1)) + ∑ u : Fin 640, tile V c t (ix3 (0 : Fin 1) k u) := by
  show (outsAt0 (F := Ideal) V c t.val t.isLt).1 (ix3 (0 : Fin 1) k (0 : Fin 1)) = _
  rw [outsAt0_B V c t hB]
  dsimp only
  refine (congrFun (out_B_1 (F := Ideal) c (grid0.coords t) (ms0_0 t) (hs0_0 t) (ms0_1 t) (hs0_1 t) (ms0_2 t) (hs0_2 t) (fun h => hB ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) k (0 : Fin 1))).trans ?_
  exact pay4_apply (tile V c t) (acc1 V c (t.val - 1) (Nat.lt_of_le_of_lt (Nat.sub_le _ _) t.isLt)) k

theorem acc1_reset (n : ℕ) (h : n < cfg0.N) (h0 : n % 5 = 0) (k : Fin 256) :
    acc1 V c n h (ix3 (0 : Fin 1) k (0 : Fin 1)) = 0 + ∑ u : Fin 640, tile V c ⟨n, h⟩ (ix3 (0 : Fin 1) k u) :=
  acc1_reset_at V c ⟨n, h⟩ h0 k

theorem acc1_step (n n' : ℕ) (h : n < cfg0.N) (h' : n' < cfg0.N) (e : n = n' + 1) (hB : ¬n % 5 = 0) (k : Fin 256) :
    acc1 V c n h (ix3 (0 : Fin 1) k (0 : Fin 1))
      = acc1 V c n' h' (ix3 (0 : Fin 1) k (0 : Fin 1)) + ∑ u : Fin 640, tile V c ⟨n, h⟩ (ix3 (0 : Fin 1) k u) := by
  subst e
  exact acc1_step_at V c ⟨n' + 1, h⟩ hB k

/-- A tile's lane sum is a sum of padded entries of its sample. -/
theorem tile_sum1 (b : Fin 16) (k : Fin 256) (t : Fin cfg0.N) (hb : b.val = t.val / 5) (f : Fin 640 → Fin 3200)
    (hf : ∀ u, (f u).val = 640 * (t.val % 5) + u.val) :
    ∑ u : Fin 640, tile V c t (ix3 (0 : Fin 1) k u) = ∑ u : Fin 640, padded V c (ix3 b k (f u)) :=
  Finset.sum_congr rfl fun u _ => by rw [tile_apply V c t k u b (f u) hb (hf u)]

/-- After the last point of sample `b` the block holds, at row `k`, the five tiles' sums added up from zero. -/
theorem acc1_last (b : Fin 16) (k : Fin 256) (h4 : 5 * b.val + 4 < cfg0.N) :
    acc1 V c (5 * b.val + 4) h4 (ix3 (0 : Fin 1) k (0 : Fin 1)) = tiles (fun s => padded V c (ix3 b k s)) := by
  have hN : cfg0.N = 80 := N_0
  have hb := b.isLt
  have h3 : 5 * b.val + 3 < cfg0.N := by omega
  have h2 : 5 * b.val + 2 < cfg0.N := by omega
  have h1 : 5 * b.val + 1 < cfg0.N := by omega
  have h0 : 5 * b.val < cfg0.N := by omega
  rw [acc1_step V c (5 * b.val + 4) (5 * b.val + 3) h4 h3 rfl (by omega) k,
    acc1_step V c (5 * b.val + 3) (5 * b.val + 2) h3 h2 rfl (by omega) k,
    acc1_step V c (5 * b.val + 2) (5 * b.val + 1) h2 h1 rfl (by omega) k,
    acc1_step V c (5 * b.val + 1) (5 * b.val) h1 h0 rfl (by omega) k,
    acc1_reset V c (5 * b.val) h0 (by omega) k]
  rw [tile_sum1 V c b k ⟨5 * b.val + 4, h4⟩ (by dsimp only; omega) (fun u => ⟨2560 + u.val, by have := u.isLt; omega⟩) (fun u => by dsimp only; omega),
    tile_sum1 V c b k ⟨5 * b.val + 3, h3⟩ (by dsimp only; omega) (fun u => ⟨1920 + u.val, by have := u.isLt; omega⟩) (fun u => by dsimp only; omega),
    tile_sum1 V c b k ⟨5 * b.val + 2, h2⟩ (by dsimp only; omega) (fun u => ⟨1280 + u.val, by have := u.isLt; omega⟩) (fun u => by dsimp only; omega),
    tile_sum1 V c b k ⟨5 * b.val + 1, h1⟩ (by dsimp only; omega) (fun u => ⟨640 + u.val, by have := u.isLt; omega⟩) (fun u => by dsimp only; omega),
    tile_sum1 V c b k ⟨5 * b.val, h0⟩ (by dsimp only; omega) (fun u => ⟨u.val, by have := u.isLt; omega⟩) (fun u => by dsimp only; omega)]
  rfl

/-- The same at any index of the block: its two unit coordinates are zero. -/
theorem acc1_last_idx (b : Fin 16) (h4 : 5 * b.val + 4 < cfg0.N) (j : S1x256x1.Idx) :
    acc1 V c (5 * b.val + 4) h4 j = tiles (fun s => padded V c (ix3 b (j 1) s)) := by
  have hj0 : (j 0).val < 1 := (j 0).isLt
  have hj2 : (j 2).val < 1 := (j 2).isLt
  have e : j = ix3 (0 : Fin 1) (j 1) (0 : Fin 1) := by
    funext a
    match a with
    | ⟨0, _⟩ => exact Fin.ext (by show (j 0).val = 0; omega)
    | ⟨1, _⟩ => rfl
    | ⟨2, _⟩ => exact Fin.ext (by show (j 2).val = 0; omega)
  exact (congrArg (acc1 V c (5 * b.val + 4) h4) e).trans (acc1_last V c b (j 1) h4)

/-- The array the first output ends holding, as one function of its index. -/
abbrev G1 : S16x256x1.Idx → EReal := fun i => tiles (fun s => padded V c (ix3 (i 0) (i 1) s))

/-- Window 1's block index at a point: the sample, then zeros. -/
theorem index1 : ∀ t : Fin cfg0.N, win0_1.index t (0 : Fin 3) = t.val / 5 ∧ win0_1.index t (1 : Fin 3) = 0 ∧ win0_1.index t (2 : Fin 3) = 0 :=
  (by decide +kernel : ∀ t : Fin grid0.N, _)

/-- What a point that writes back writes is its block of that function. -/
theorem flushed1_eq (t : Fin cfg0.N) (hf : (cfg0.win 1).flush t = true) :
    (dat0 (F := Ideal) V c).flushed 1 t = ((cfg0.win 1).blk t).view.read (Elt Ideal) (G1 V c) := by
  have hN : cfg0.N = 80 := N_0
  have hlt : t.val < 80 := lt_of_lt_of_eq t.isLt hN
  have h4 : t.val % 5 = 4 := (flush0_1 t).mp hf
  obtain ⟨e0, e1, e2⟩ := index1 t
  show (cfg0.win 1).cut (grid0.coords t) ((dat0 (F := Ideal) V c).after 1 t) = _
  rw [after0_1]
  funext j
  have hj0 : (j 0).val < 1 := (j 0).isLt
  have hj1 : (j 1).val < 256 := (j 1).isLt
  have hj2 : (j 2).val < 1 := (j 2).isLt
  have hb : t.val / 5 < 16 := by omega
  have h4' : 5 * (⟨t.val / 5, hb⟩ : Fin 16).val + 4 < cfg0.N := by dsimp only; omega
  show (outsAt0 (F := Ideal) V c t.val t.isLt).1 j = G1 V c (((cfg0.win 1).blk t).view.emb j)
  have hemb : (((cfg0.win 1).blk t).view.emb j : S16x256x1.Idx) = ix3 (⟨t.val / 5, hb⟩ : Fin 16) (j 1) (0 : Fin 1) := by
    funext a
    apply Fin.ext
    match a with
    | ⟨0, _⟩ => show win0_1.index t (0 : Fin 3) * 1 + 1 * (j 0).val = t.val / 5; rw [e0]; omega
    | ⟨1, _⟩ => show win0_1.index t (1 : Fin 3) * 256 + 1 * (j 1).val = (j 1).val; rw [e1]; omega
    | ⟨2, _⟩ => show win0_1.index t (2 : Fin 3) * 1 + 1 * (j 2).val = 0; rw [e2]; omega
  rw [hemb]
  exact (congrFun (acc1_congr V c t.val (5 * (⟨t.val / 5, hb⟩ : Fin 16).val + 4) t.isLt h4' (by dsimp only; omega)) j).trans
    (acc1_last_idx V c ⟨t.val / 5, hb⟩ h4' j)

/-- An index of the array is in a point's block iff each coordinate is in the block's range on its axis. -/
theorem mem_blk1 (t : Fin cfg0.N) (i : S16x256x1.Idx) :
    i ∈ ((cfg0.win 1).blk t).view.set ↔ ∀ a : Fin 3, win0_1.index t a * S1x256x1.size a ≤ (i a).val ∧ (i a).val < win0_1.index t a * S1x256x1.size a + S1x256x1.size a := by
  show i ∈ ((View.whole main_v5_0).slice (win0_1.rect t)).set ↔ _
  rw [View.set_slice_whole, Rect.mem_set_unit]
  exact Iff.rfl

/-- So the array ends holding that function at `(b, k, 0)`: the last point of sample `b` wrote it. -/
theorem final1 (b : Fin 16) (k : Fin 256) :
    (dat0 (F := Ideal) V c).arrAt 1 cfg0.N (ix3 b k (0 : Fin 1)) = G1 V c (ix3 b k (0 : Fin 1)) := by
  have hN : cfg0.N = 80 := N_0
  have hb := b.isLt
  have ht : 5 * b.val + 4 < cfg0.N := by omega
  obtain ⟨e0, e1, e2⟩ := index1 ⟨5 * b.val + 4, ht⟩
  refine (dat0 (F := Ideal) V c).arrAt_apply_of_mem 1 (G1 V c) (flushed1_eq V c) cfg0.N ⟨5 * b.val + 4, ht⟩ (ix3 b k (0 : Fin 1)) ht
    ((flush0_1 _).mpr (by dsimp only; omega)) ?_
  rw [mem_blk1]
  intro a
  match a with
  | ⟨0, _⟩ => show win0_1.index ⟨5 * b.val + 4, ht⟩ (0 : Fin 3) * 1 ≤ b.val ∧ b.val < win0_1.index ⟨5 * b.val + 4, ht⟩ (0 : Fin 3) * 1 + 1; rw [e0]; dsimp only; omega
  | ⟨1, _⟩ => show win0_1.index ⟨5 * b.val + 4, ht⟩ (1 : Fin 3) * 256 ≤ k.val ∧ k.val < win0_1.index ⟨5 * b.val + 4, ht⟩ (1 : Fin 3) * 256 + 256; rw [e1]; have := k.isLt; omega
  | ⟨2, _⟩ => show win0_1.index ⟨5 * b.val + 4, ht⟩ (2 : Fin 3) * 1 ≤ 0 ∧ 0 < win0_1.index ⟨5 * b.val + 4, ht⟩ (2 : Fin 3) * 1 + 1; rw [e2]; omega

/-! ## The second accumulator: the sums of squares -/

/-- What the second accumulator block holds after point `n`. -/
abbrev acc2 (n : ℕ) (h : n < cfg0.N) : S1x256x1.Idx → EReal := (outsAt0 (F := Ideal) V c n h).2

theorem acc2_congr (n n' : ℕ) (h : n < cfg0.N) (h' : n' < cfg0.N) (e : n = n') : acc2 V c n h = acc2 V c n' h' := by
  subst e; rfl

/-- At a reset point the block holds, at row `k`, zero plus the tile's lane sum. -/
theorem acc2_reset_at (t : Fin cfg0.N) (h0 : t.val % 5 = 0) (k : Fin 256) :
    acc2 V c t.val t.isLt (ix3 (0 : Fin 1) k (0 : Fin 1)) = 0 + ∑ u : Fin 640, tile V c t (ix3 (0 : Fin 1) k u) * tile V c t (ix3 (0 : Fin 1) k u) := by
  show (outsAt0 (F := Ideal) V c t.val t.isLt).2 (ix3 (0 : Fin 1) k (0 : Fin 1)) = _
  rw [outsAt0_A V c t h0]
  dsimp only
  refine (congrFun (out_A_2 (F := Ideal) c (grid0.coords t) (ms0_0 t) (hs0_0 t) (ms0_1 t) (hs0_1 t) (ms0_2 t) (hs0_2 t) ((hcond0_0 t).mpr h0) (iblk0 V c 0 t)) (ix3 (0 : Fin 1) k (0 : Fin 1))).trans ?_
  refine (pay5_apply (tile V c t) (k0_pay2 (F := Ideal)) k).trans ?_
  rw [pay2_apply]

/-- At any other point it holds what the point before left plus the tile's lane sum. -/
theorem acc2_step_at (t : Fin cfg0.N) (hB : ¬t.val % 5 = 0) (k : Fin 256) :
    acc2 V c t.val t.isLt (ix3 (0 : Fin 1) k (0 : Fin 1))
      = acc2 V c (t.val - 1) (Nat.lt_of_le_of_lt (Nat.sub_le _ _) t.isLt) (ix3 (0 : Fin 1) k (0 : Fin 1)) + ∑ u : Fin 640, tile V c t (ix3 (0 : Fin 1) k u) * tile V c t (ix3 (0 : Fin 1) k u) := by
  show (outsAt0 (F := Ideal) V c t.val t.isLt).2 (ix3 (0 : Fin 1) k (0 : Fin 1)) = _
  rw [outsAt0_B V c t hB]
  dsimp only
  refine (congrFun (out_B_2 (F := Ideal) c (grid0.coords t) (ms0_0 t) (hs0_0 t) (ms0_1 t) (hs0_1 t) (ms0_2 t) (hs0_2 t) (fun h => hB ((hcond0_0 t).mp h)) (iblk0 V c 0 t) (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) k (0 : Fin 1))).trans ?_
  exact pay5_apply (tile V c t) (acc2 V c (t.val - 1) (Nat.lt_of_le_of_lt (Nat.sub_le _ _) t.isLt)) k

theorem acc2_reset (n : ℕ) (h : n < cfg0.N) (h0 : n % 5 = 0) (k : Fin 256) :
    acc2 V c n h (ix3 (0 : Fin 1) k (0 : Fin 1)) = 0 + ∑ u : Fin 640, tile V c ⟨n, h⟩ (ix3 (0 : Fin 1) k u) * tile V c ⟨n, h⟩ (ix3 (0 : Fin 1) k u) :=
  acc2_reset_at V c ⟨n, h⟩ h0 k

theorem acc2_step (n n' : ℕ) (h : n < cfg0.N) (h' : n' < cfg0.N) (e : n = n' + 1) (hB : ¬n % 5 = 0) (k : Fin 256) :
    acc2 V c n h (ix3 (0 : Fin 1) k (0 : Fin 1))
      = acc2 V c n' h' (ix3 (0 : Fin 1) k (0 : Fin 1)) + ∑ u : Fin 640, tile V c ⟨n, h⟩ (ix3 (0 : Fin 1) k u) * tile V c ⟨n, h⟩ (ix3 (0 : Fin 1) k u) := by
  subst e
  exact acc2_step_at V c ⟨n' + 1, h⟩ hB k

/-- A tile's lane sum is a sum of padded entries of its sample. -/
theorem tile_sum2 (b : Fin 16) (k : Fin 256) (t : Fin cfg0.N) (hb : b.val = t.val / 5) (f : Fin 640 → Fin 3200)
    (hf : ∀ u, (f u).val = 640 * (t.val % 5) + u.val) :
    ∑ u : Fin 640, tile V c t (ix3 (0 : Fin 1) k u) * tile V c t (ix3 (0 : Fin 1) k u) = ∑ u : Fin 640, padded V c (ix3 b k (f u)) * padded V c (ix3 b k (f u)) :=
  Finset.sum_congr rfl fun u _ => by rw [tile_apply V c t k u b (f u) hb (hf u)]

/-- After the last point of sample `b` the block holds, at row `k`, the five tiles' sums added up from zero. -/
theorem acc2_last (b : Fin 16) (k : Fin 256) (h4 : 5 * b.val + 4 < cfg0.N) :
    acc2 V c (5 * b.val + 4) h4 (ix3 (0 : Fin 1) k (0 : Fin 1)) = tiles (fun s => padded V c (ix3 b k s) * padded V c (ix3 b k s)) := by
  have hN : cfg0.N = 80 := N_0
  have hb := b.isLt
  have h3 : 5 * b.val + 3 < cfg0.N := by omega
  have h2 : 5 * b.val + 2 < cfg0.N := by omega
  have h1 : 5 * b.val + 1 < cfg0.N := by omega
  have h0 : 5 * b.val < cfg0.N := by omega
  rw [acc2_step V c (5 * b.val + 4) (5 * b.val + 3) h4 h3 rfl (by omega) k,
    acc2_step V c (5 * b.val + 3) (5 * b.val + 2) h3 h2 rfl (by omega) k,
    acc2_step V c (5 * b.val + 2) (5 * b.val + 1) h2 h1 rfl (by omega) k,
    acc2_step V c (5 * b.val + 1) (5 * b.val) h1 h0 rfl (by omega) k,
    acc2_reset V c (5 * b.val) h0 (by omega) k]
  rw [tile_sum2 V c b k ⟨5 * b.val + 4, h4⟩ (by dsimp only; omega) (fun u => ⟨2560 + u.val, by have := u.isLt; omega⟩) (fun u => by dsimp only; omega),
    tile_sum2 V c b k ⟨5 * b.val + 3, h3⟩ (by dsimp only; omega) (fun u => ⟨1920 + u.val, by have := u.isLt; omega⟩) (fun u => by dsimp only; omega),
    tile_sum2 V c b k ⟨5 * b.val + 2, h2⟩ (by dsimp only; omega) (fun u => ⟨1280 + u.val, by have := u.isLt; omega⟩) (fun u => by dsimp only; omega),
    tile_sum2 V c b k ⟨5 * b.val + 1, h1⟩ (by dsimp only; omega) (fun u => ⟨640 + u.val, by have := u.isLt; omega⟩) (fun u => by dsimp only; omega),
    tile_sum2 V c b k ⟨5 * b.val, h0⟩ (by dsimp only; omega) (fun u => ⟨u.val, by have := u.isLt; omega⟩) (fun u => by dsimp only; omega)]
  rfl

/-- The same at any index of the block: its two unit coordinates are zero. -/
theorem acc2_last_idx (b : Fin 16) (h4 : 5 * b.val + 4 < cfg0.N) (j : S1x256x1.Idx) :
    acc2 V c (5 * b.val + 4) h4 j = tiles (fun s => padded V c (ix3 b (j 1) s) * padded V c (ix3 b (j 1) s)) := by
  have hj0 : (j 0).val < 1 := (j 0).isLt
  have hj2 : (j 2).val < 1 := (j 2).isLt
  have e : j = ix3 (0 : Fin 1) (j 1) (0 : Fin 1) := by
    funext a
    match a with
    | ⟨0, _⟩ => exact Fin.ext (by show (j 0).val = 0; omega)
    | ⟨1, _⟩ => rfl
    | ⟨2, _⟩ => exact Fin.ext (by show (j 2).val = 0; omega)
  exact (congrArg (acc2 V c (5 * b.val + 4) h4) e).trans (acc2_last V c b (j 1) h4)

/-- The array the second output ends holding, as one function of its index. -/
abbrev G2 : S16x256x1.Idx → EReal := fun i => tiles (fun s => padded V c (ix3 (i 0) (i 1) s) * padded V c (ix3 (i 0) (i 1) s))

/-- Window 2's block index at a point: the sample, then zeros. -/
theorem index2 : ∀ t : Fin cfg0.N, win0_2.index t (0 : Fin 3) = t.val / 5 ∧ win0_2.index t (1 : Fin 3) = 0 ∧ win0_2.index t (2 : Fin 3) = 0 :=
  (by decide +kernel : ∀ t : Fin grid0.N, _)

/-- What a point that writes back writes is its block of that function. -/
theorem flushed2_eq (t : Fin cfg0.N) (hf : (cfg0.win 2).flush t = true) :
    (dat0 (F := Ideal) V c).flushed 2 t = ((cfg0.win 2).blk t).view.read (Elt Ideal) (G2 V c) := by
  have hN : cfg0.N = 80 := N_0
  have hlt : t.val < 80 := lt_of_lt_of_eq t.isLt hN
  have h4 : t.val % 5 = 4 := (flush0_2 t).mp hf
  obtain ⟨e0, e1, e2⟩ := index2 t
  show (cfg0.win 2).cut (grid0.coords t) ((dat0 (F := Ideal) V c).after 2 t) = _
  rw [after0_2]
  funext j
  have hj0 : (j 0).val < 1 := (j 0).isLt
  have hj1 : (j 1).val < 256 := (j 1).isLt
  have hj2 : (j 2).val < 1 := (j 2).isLt
  have hb : t.val / 5 < 16 := by omega
  have h4' : 5 * (⟨t.val / 5, hb⟩ : Fin 16).val + 4 < cfg0.N := by dsimp only; omega
  show (outsAt0 (F := Ideal) V c t.val t.isLt).2 j = G2 V c (((cfg0.win 2).blk t).view.emb j)
  have hemb : (((cfg0.win 2).blk t).view.emb j : S16x256x1.Idx) = ix3 (⟨t.val / 5, hb⟩ : Fin 16) (j 1) (0 : Fin 1) := by
    funext a
    apply Fin.ext
    match a with
    | ⟨0, _⟩ => show win0_2.index t (0 : Fin 3) * 1 + 1 * (j 0).val = t.val / 5; rw [e0]; omega
    | ⟨1, _⟩ => show win0_2.index t (1 : Fin 3) * 256 + 1 * (j 1).val = (j 1).val; rw [e1]; omega
    | ⟨2, _⟩ => show win0_2.index t (2 : Fin 3) * 1 + 1 * (j 2).val = 0; rw [e2]; omega
  rw [hemb]
  exact (congrFun (acc2_congr V c t.val (5 * (⟨t.val / 5, hb⟩ : Fin 16).val + 4) t.isLt h4' (by dsimp only; omega)) j).trans
    (acc2_last_idx V c ⟨t.val / 5, hb⟩ h4' j)

/-- An index of the array is in a point's block iff each coordinate is in the block's range on its axis. -/
theorem mem_blk2 (t : Fin cfg0.N) (i : S16x256x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v5_1).slice (win0_2.rect t)).set ↔ _
  rw [View.set_slice_whole, Rect.mem_set_unit]
  exact Iff.rfl

/-- So the array ends holding that function at `(b, k, 0)`: the last point of sample `b` wrote it. -/
theorem final2 (b : Fin 16) (k : Fin 256) :
    (dat0 (F := Ideal) V c).arrAt 2 cfg0.N (ix3 b k (0 : Fin 1)) = G2 V c (ix3 b k (0 : Fin 1)) := by
  have hN : cfg0.N = 80 := N_0
  have hb := b.isLt
  have ht : 5 * b.val + 4 < cfg0.N := by omega
  obtain ⟨e0, e1, e2⟩ := index2 ⟨5 * b.val + 4, ht⟩
  refine (dat0 (F := Ideal) V c).arrAt_apply_of_mem 2 (G2 V c) (flushed2_eq V c) cfg0.N ⟨5 * b.val + 4, ht⟩ (ix3 b k (0 : Fin 1)) ht
    ((flush0_2 _).mpr (by dsimp only; omega)) ?_
  rw [mem_blk2]
  intro a
  match a with
  | ⟨0, _⟩ => show win0_2.index ⟨5 * b.val + 4, ht⟩ (0 : Fin 3) * 1 ≤ b.val ∧ b.val < win0_2.index ⟨5 * b.val + 4, ht⟩ (0 : Fin 3) * 1 + 1; rw [e0]; dsimp only; omega
  | ⟨1, _⟩ => show win0_2.index ⟨5 * b.val + 4, ht⟩ (1 : Fin 3) * 256 ≤ k.val ∧ k.val < win0_2.index ⟨5 * b.val + 4, ht⟩ (1 : Fin 3) * 256 + 256; rw [e1]; have := k.isLt; omega
  | ⟨2, _⟩ => show win0_2.index ⟨5 * b.val + 4, ht⟩ (2 : Fin 3) * 1 ≤ 0 ∧ 0 < win0_2.index ⟨5 * b.val + 4, ht⟩ (2 : Fin 3) * 1 + 1; rw [e2]; omega

end Region

/-- The first output array (the sums) when the region ends, from the contents `V` the region is entered with. -/
theorem stats_sum (V : (c : Dev nD) → (b : Ref sig .tc) → Buf (Elt Ideal) ((c : Thread nD τ).loc b)) (c : Dev nD) (b : Fin 16) (k : Fin 256) :
    (dat0 (F := Ideal) V c).arrAt 1 cfg0.N (ix3 b k 0) = tiles (fun s => padded V c (ix3 b k s)) :=
  final1 V c b k

/-- The second output array (the sums of squares). -/
theorem stats_sq (V : (c : Dev nD) → (b : Ref sig .tc) → Buf (Elt Ideal) ((c : Thread nD τ).loc b)) (c : Dev nD) (b : Fin 16) (k : Fin 256) :
    (dat0 (F := Ideal) V c).arrAt 2 cfg0.N (ix3 b k 0) = tiles (fun s => padded V c (ix3 b k s) * padded V c (ix3 b k s)) :=
  final2 V c b k

end Cert.ReferenceIdeal.RefValue

end
-- ==== Proof.RefValueIdx.lean ====
/-
  How the host's index rearrangements read at an entry, on coordinates: the two reshapes between `[16, 256, 56, 56]`
  and `[16, 256, 3136]` (entry `s` of a channel is row `s / 56`, column `s % 56`), the reshape of a length-256 vector to
  a column, the zero padding of the last axis from 3136 to 3200 (the operand below 3136, the padding value from there
  on), and the slice that takes the first 3136 positions back out.
-/
import Idealize.ShloMosaic.Lib.KernelVsHost
import Idealize.ShloMosaic.Lib.Pipeline.Value
import Idealize.ShloMosaic.Lib.ValueIdx

noncomputable section

namespace Cert.ReferenceIdeal.RefValue.Idx

open Idealize.ShloMosaic Idealize.ShloMosaic.ValueIdx

variable {α : Type}

/-- `[16, 256, 56, 56]` read as `[16, 256, 3136]`: entry `s` is row `s / 56`, column `s % 56`. -/
theorem cast43_apply (x : (⟨4, ![16, 256, 56, 56]⟩ : Shape).Idx → α)
    (h : (⟨4, ![16, 256, 56, 56]⟩ : Shape).ShapeCasts ⟨3, ![16, 256, 3136]⟩) (b : Fin 16) (k : Fin 256) (s : Fin 3136) :
    shapeCast ⟨3, ![16, 256, 3136]⟩ x h (ix3 b k s)
      = x (ix4 b k ⟨s.val / 56, by have := s.isLt; omega⟩ ⟨s.val % 56, Nat.mod_lt _ (by decide)⟩) :=
  shapeCast_apply x h _ _ (by
    rw [Shape.rowMajor_val_four, Shape.rowMajor_val_three]
    show ((b.val * 256 + k.val) * 56 + s.val / 56) * 56 + s.val % 56 = (b.val * 256 + k.val) * 3136 + s.val
    omega)

/-- `[16, 256, 3136]` read as `[16, 256, 56, 56]`: row `r`, column `v` is entry `56 r + v`. -/
theorem cast34_apply (x : (⟨3, ![16, 256, 3136]⟩ : Shape).Idx → α)
    (h : (⟨3, ![16, 256, 3136]⟩ : Shape).ShapeCasts ⟨4, ![16, 256, 56, 56]⟩) (b : Fin 16) (o : Fin 256) (r v : Fin 56) :
    shapeCast ⟨4, ![16, 256, 56, 56]⟩ x h (ix4 b o r v)
      = x (ix3 b o ⟨56 * r.val + v.val, by have := r.isLt; have := v.isLt; omega⟩) :=
  shapeCast_apply x h _ _ (by
    rw [Shape.rowMajor_val_three, Shape.rowMajor_val_four]
    show (b.val * 256 + o.val) * 3136 + (56 * r.val + v.val) = ((b.val * 256 + o.val) * 56 + r.val) * 56 + v.val
    omega)

/-- A length-256 vector read as a column. -/
theorem cast12_apply (x : (⟨1, ![256]⟩ : Shape).Idx → α) (h : (⟨1, ![256]⟩ : Shape).ShapeCasts ⟨2, ![256, 1]⟩)
    (k : Fin 256) : shapeCast ⟨2, ![256, 1]⟩ x h (ix2 k (0 : Fin 1)) = x (ix1 k) :=
  shapeCast_apply x h _ _ (by
    rw [Shape.rowMajor_val_one, Shape.rowMajor_val_two]
    show k.val = k.val * 1 + 0
    omega)

/-- The first 3136 positions of the last axis taken out of 3200. -/
theorem slice_apply (x : (⟨3, ![16, 256, 3200]⟩ : Shape).Idx → α)
    (h : (⟨3, ![16, 256, 3200]⟩ : Shape).Slices ![0, 0, 0] ⟨3, ![16, 256, 3136]⟩) (b : Fin 16) (k : Fin 256) (s : Fin 3136) :
    extractStridedSlice ⟨3, ![16, 256, 3136]⟩ ![0, 0, 0] x h (ix3 b k s)
      = x (ix3 b k ⟨s.val, by have := s.isLt; omega⟩) :=
  extractStridedSlice_apply _ x h _ _ fun a => match a with
    | ⟨0, _⟩ => by show b.val = 0 + b.val; omega
    | ⟨1, _⟩ => by show k.val = 0 + k.val; omega
    | ⟨2, _⟩ => by show s.val = 0 + s.val; omega

/-- The last axis padded from 3136 to 3200, read below 3136: the operand. -/
theorem pad_inside (x : (⟨3, ![16, 256, 3136]⟩ : Shape).Idx → α) (v : (⟨0, ![]⟩ : Shape).Idx → α)
    (h : (⟨3, ![16, 256, 3136]⟩ : Shape).Pads (![0, 0, 0] : Fin 3 → Nat) ![0, 0, 64] ![0, 0, 0] ⟨3, ![16, 256, 3200]⟩)
    (hu : 0 < (⟨0, ![]⟩ : Shape).numel) (b : Fin 16) (k : Fin 256) (s : Fin 3200) (hs : s.val < 3136) :
    pad ⟨3, ![16, 256, 3200]⟩ ![0, 0, 0] ![0, 0, 64] ![0, 0, 0] x v h hu (ix3 b k s) = x (ix3 b k ⟨s.val, hs⟩) :=
  pad_apply_of_inside _ _ _ x v h hu _ _ fun a => match a with
    | ⟨0, _⟩ => by show b.val = 0 + b.val * (0 + 1); omega
    | ⟨1, _⟩ => by show k.val = 0 + k.val * (0 + 1); omega
    | ⟨2, _⟩ => by show s.val = 0 + s.val * (0 + 1); omega

/-- The same read from 3136 on: the padding value. -/
theorem pad_outside (x : (⟨3, ![16, 256, 3136]⟩ : Shape).Idx → α) (v : (⟨0, ![]⟩ : Shape).Idx → α)
    (h : (⟨3, ![16, 256, 3136]⟩ : Shape).Pads (![0, 0, 0] : Fin 3 → Nat) ![0, 0, 64] ![0, 0, 0] ⟨3, ![16, 256, 3200]⟩)
    (hu : 0 < (⟨0, ![]⟩ : Shape).numel) (b : Fin 16) (k : Fin 256) (s : Fin 3200) (hs : 3136 ≤ s.val) :
    pad ⟨3, ![16, 256, 3200]⟩ ![0, 0, 0] ![0, 0, 64] ![0, 0, 0] x v h hu (ix3 b k s) = v (Shape.Idx.first hu) :=
  pad_apply_of_not_inside (s := ⟨3, ![16, 256, 3136]⟩) _ _ _ x v h hu _ (⟨2, by decide⟩ : Fin 3) (by
    show ¬(0 ≤ s.val ∧ (s.val - 0) % (0 + 1) = 0 ∧ (s.val - 0) / (0 + 1) < 3136)
    intro hh
    have h3 := hh.2.2
    simp only [Nat.sub_zero, Nat.zero_add, Nat.div_one] at h3
    omega)

end Cert.ReferenceIdeal.RefValue.Idx

end
-- ==== Proof.RefValueHost.lean ====
/-
  What the reference's host operations hand to its two kernel regions, and what they make of the second region's output,
  read at an entry.

  Before the regions: the input `[16, 256, 56, 56]` is reshaped to `[16, 256, 3136]` and its last axis padded with the
  float zero to 3200; `γ`, `β` and the bias are reshaped to columns; the matrix is passed as it is. Region 0 leaves its
  input and the buffers it does not name as it found them. After the regions: the first 3136 positions of the last axis
  are sliced back out and reshaped to `[16, 256, 56, 56]`.
-/
import proofs.«156338_g2000302674448580_pallasbulk_969_14_alg».proof.Proof.Gen.ReferenceIdeal.Frame
import proofs.«156338_g2000302674448580_pallasbulk_969_14_alg».proof.Proof.RefValueIdx
import proofs.«156338_g2000302674448580_pallasbulk_969_14_alg».proof.Proof.Spec
import Idealize.ShloMosaic.Lib.StableHlo.Run
import Idealize.ShloMosaic.Lib.Pipeline.Value
import Idealize.ShloMosaic.Lib.KernelVsHost

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Region 0's entry contents -/

/-- The padded input: the reshaped argument, its last axis padded with the converted integer zero. -/
theorem v1_V3 (c : Dev nD) :
    (V3 (F := Ideal) m ρ c main_v1 : S16x256x3200.Idx → EReal)
      = pad S16x256x3200 ![0, 0, 0] ![0, 0, 64] ![0, 0, 0]
          (shapeCast S16x256x3136 (m ((c : Thread nD τ).loc main_arg0) : S16x256x56x56.Idx → EReal)
            shapeCasts_S16x256x56x56_S16x256x3136)
          (sitofp (F := Ideal) .f32 (constantI S_ 32 0#32)) pads_S16x256x3136_S16x256x3200_000_000_0640 h_S_ := by
  show StableHlo.after hostOps0_2 (StableHlo.after hostOps0_1 (StableHlo.after hostOps0 (W0 m ρ c)))
    (Proc.devRef .tc main_v1) = _
  after_results
  rfl

/-- `γ` as a column. -/
theorem v2_V3 (c : Dev nD) :
    (V3 (F := Ideal) m ρ c main_v2 : S256x1.Idx → EReal)
      = shapeCast S256x1 (m ((c : Thread nD τ).loc main_arg1) : S256.Idx → EReal) shapeCasts_S256_S256x1 := by
  show StableHlo.after hostOps0_2 (StableHlo.after hostOps0_1 (StableHlo.after hostOps0 (W0 m ρ c)))
    (Proc.devRef .tc main_v2) = _
  after_results
  rfl

/-- `β` as a column. -/
theorem v3_V3 (c : Dev nD) :
    (V3 (F := Ideal) m ρ c main_v3 : S256x1.Idx → EReal)
      = shapeCast S256x1 (m ((c : Thread nD τ).loc main_arg2) : S256.Idx → EReal) shapeCasts_S256_S256x1 := by
  show StableHlo.after hostOps0_2 (StableHlo.after hostOps0_1 (StableHlo.after hostOps0 (W0 m ρ c)))
    (Proc.devRef .tc main_v3) = _
  after_results
  rfl

/-- The bias as a column. -/
theorem v4_V3 (c : Dev nD) :
    (V3 (F := Ideal) m ρ c main_v4 : S256x1.Idx → EReal)
      = shapeCast S256x1 (m ((c : Thread nD τ).loc main_arg4) : S256.Idx → EReal) shapeCasts_S256_S256x1 := by
  show StableHlo.after hostOps0_2 (StableHlo.after hostOps0_1 (StableHlo.after hostOps0 (W0 m ρ c)))
    (Proc.devRef .tc main_v4) = _
  after_results
  rfl

/-- The matrix, which no host operation writes. -/
theorem arg3_V3 (c : Dev nD) :
    (V3 (F := Ideal) m ρ c main_arg3 : S256x256.Idx → EReal) = m ((c : Thread nD τ).loc main_arg3) := by
  show StableHlo.after hostOps0_2 (StableHlo.after hostOps0_1 (StableHlo.after hostOps0 (W0 m ρ c)))
    (Proc.devRef .tc main_arg3) = _
  after_results

/-! ## Region 1's entry contents: region 0 writes its two statistics arrays only -/

/-- Region 0 reads the padded input through an input window: it leaves it as entered. -/
theorem v1_V4 (c : Dev nD) : V4 (F := Ideal) m ρ c main_v1 = V3 m ρ c main_v1 := by
  show W4 m ρ c (Proc.devRef .tc (Pipeline.arrRef spec0 0)) = _
  rw [W4_arr m ρ c 0]
  exact (dat0 (V3 m ρ) c).arrAt_in 0 rfl cfg0.N

theorem v2_V4 (c : Dev nD) : V4 (F := Ideal) m ρ c main_v2 = V3 m ρ c main_v2 := W4_of_ne m ρ c main_v2 (by decide)
theorem v3_V4 (c : Dev nD) : V4 (F := Ideal) m ρ c main_v3 = V3 m ρ c main_v3 := W4_of_ne m ρ c main_v3 (by decide)
theorem v4_V4 (c : Dev nD) : V4 (F := Ideal) m ρ c main_v4 = V3 m ρ c main_v4 := W4_of_ne m ρ c main_v4 (by decide)
theorem arg3_V4 (c : Dev nD) : V4 (F := Ideal) m ρ c main_arg3 = V3 m ρ c main_arg3 := W4_of_ne m ρ c main_arg3 (by decide)

/-! ## The same, at an entry -/

/-- The padded input at `(b, k, s)`: the argument's entry `s` of channel `k` of sample `b` below 3136, zero from there on. -/
theorem padded_apply (c : Dev nD) (b : Fin 16) (k : Fin 256) (s : Fin 3200) :
    (V3 (F := Ideal) m ρ c main_v1 : S16x256x3200.Idx → EReal) (ix3 b k s)
      = if h : s.val < 3136 then Cert.Spec.xOf (m ((c : Thread nD τ).loc main_arg0)) b k ⟨s.val, h⟩ else 0 := by
  refine (congrFun (v1_V3 m ρ c) (ix3 b k s)).trans ?_
  by_cases h : s.val < 3136
  · rw [dif_pos h]
    refine (Idx.pad_inside _ _ _ _ b k s h).trans ?_
    exact Idx.cast43_apply _ _ b k ⟨s.val, h⟩
  · rw [dif_neg h]
    refine (Idx.pad_outside _ _ _ _ b k s (by omega)).trans ?_
    exact sitofp_zero (φ := .f32)

theorem gamma_apply (c : Dev nD) (k : Fin 256) :
    (V4 (F := Ideal) m ρ c main_v2 : S256x1.Idx → EReal) (ix2 k (0 : Fin 1))
      = Cert.Spec.vecOf (m ((c : Thread nD τ).loc main_arg1)) k := by
  refine (congrFun ((v2_V4 m ρ c).trans (v2_V3 m ρ c)) (ix2 k (0 : Fin 1))).trans ?_
  exact Idx.cast12_apply _ _ k

theorem beta_apply (c : Dev nD) (k : Fin 256) :
    (V4 (F := Ideal) m ρ c main_v3 : S256x1.Idx → EReal) (ix2 k (0 : Fin 1))
      = Cert.Spec.vecOf (m ((c : Thread nD τ).loc main_arg2)) k := by
  refine (congrFun ((v3_V4 m ρ c).trans (v3_V3 m ρ c)) (ix2 k (0 : Fin 1))).trans ?_
  exact Idx.cast12_apply _ _ k

theorem bias_apply (c : Dev nD) (k : Fin 256) :
    (V4 (F := Ideal) m ρ c main_v4 : S256x1.Idx → EReal) (ix2 k (0 : Fin 1))
      = Cert.Spec.vecOf (m ((c : Thread nD τ).loc main_arg4)) k := by
  refine (congrFun ((v4_V4 m ρ c).trans (v4_V3 m ρ c)) (ix2 k (0 : Fin 1))).trans ?_
  exact Idx.cast12_apply _ _ k

theorem mat_apply (c : Dev nD) (o k : Fin 256) :
    (V4 (F := Ideal) m ρ c main_arg3 : S256x256.Idx → EReal) (ix2 o k)
      = Cert.Spec.matOf (m ((c : Thread nD τ).loc main_arg3)) o k :=
  congrFun ((arg3_V4 m ρ c).trans (arg3_V3 m ρ c)) (ix2 o k)

/-! ## After the regions -/

/-- The result array at `(b, o, r, v)` is region 1's output array at `(b, o, 56 r + v)`. -/
theorem resultTail_apply (c : Dev nD) (b : Fin 16) (o : Fin 256) (r v : Fin 56) :
    (W6 (F := Ideal) m ρ c (Proc.devRef .tc main_v8) : S16x256x56x56.Idx → EReal) (ix4 b o r v)
      = ((dat1 (F := Ideal) (V4 m ρ) c).arrAt 7 cfg1.N : S16x256x3200.Idx → EReal)
          (ix3 b o ⟨56 * r.val + v.val, by have := r.isLt; have := v.isLt; omega⟩) := by
  have e : (W6 (F := Ideal) m ρ c (Proc.devRef .tc main_v8) : S16x256x56x56.Idx → EReal)
      = shapeCast S16x256x56x56
          (extractStridedSlice S16x256x3136 ![0, 0, 0]
            (W5 (F := Ideal) m ρ c (Proc.devRef .tc main_v6) : S16x256x3200.Idx → EReal)
            slices_S16x256x3200_S16x256x3136_0_0_0)
          shapeCasts_S16x256x3136_S16x256x56x56 := by
    show StableHlo.after hostOps2 (W5 m ρ c) (Proc.devRef .tc main_v8) = _
    after_results
    rfl
  refine (congrFun e (ix4 b o r v)).trans ?_
  refine (Idx.cast34_apply _ _ b o r v).trans ?_
  refine (Idx.slice_apply _ _ b o _).trans ?_
  exact congrFun (W5_arr m ρ c 7) _

end Cert.ReferenceIdeal.RefValue

end
-- ==== Proof.RefValue.lean ====
/-
  The reference program's result array, read at one entry, is the specification's result of the argument arrays.

  The host reshapes the input to `[16, 256, 3136]` and pads its last axis with zeros to 3200; the first kernel region
  accumulates each channel's sum and sum of squares tile by tile (five tiles of 640 added up from zero over an axis whose
  tail is zero: the sum over the first 3136 entries), the second normalizes, mixes and adds the bias tile by tile; the
  host slices the first 3136 positions back out and reshapes to `[16, 256, 56, 56]`.
-/
import proofs.«156338_g2000302674448580_pallasbulk_969_14_alg».proof.Proof.RefArrays
import proofs.«156338_g2000302674448580_pallasbulk_969_14_alg».proof.Proof.RefStats
import proofs.«156338_g2000302674448580_pallasbulk_969_14_alg».proof.Proof.SumLaws
import proofs.«156338_g2000302674448580_pallasbulk_969_14_alg».proof.Proof.RefValueHost
import Idealize.ShloMosaic.Lib.StableHlo.Run
import Idealize.ShloMosaic.Lib.Pipeline.Value
import Idealize.ShloMosaic.Lib.ValueLayout

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-! ## The two statistics arrays: the tiles' sums over the zero-padded axis are the channel's sums -/

/-- Region 0's first output at `(b, k, 0)`: the sum of channel `k` of sample `b`. -/
theorem sum_apply (m : (ℓ : Loc nD τ sig) → Buf (Elt Ideal) ℓ) (ρ : Dev nD → PrngReg) (c : Dev nD)
    (b : Fin 16) (k : Fin 256) :
    (V4 (F := Ideal) m ρ c main_v5_0 : S16x256x1.Idx → EReal) (ix3 b k (0 : Fin 1))
      = Cert.Spec.chanSum (Cert.Spec.xOf (m ((c : Thread nD τ).loc main_arg0)) b) k := by
  have e : V4 (F := Ideal) m ρ c main_v5_0 = (dat0 (F := Ideal) (V3 m ρ) c).arrAt 1 cfg0.N := W4_arr m ρ c 1
  refine (congrFun e (ix3 b k (0 : Fin 1))).trans ?_
  refine (stats_sum (V3 m ρ) c b k).trans ?_
  unfold tiles
  refine (Cert.Spec.sum_tiles (fun s => padded (V3 m ρ) c (ix3 b k s)) ?_).trans ?_
  · intro s hs
    exact (padded_apply m ρ c b k s).trans (dif_neg (by omega))
  · unfold Cert.Spec.chanSum
    refine Finset.sum_congr rfl fun s _ => ?_
    exact (padded_apply m ρ c b k ⟨s.val, by have := s.isLt; omega⟩).trans (dif_pos s.isLt)

/-- Region 0's second output at `(b, k, 0)`: the sum of the squares of channel `k` of sample `b` (the padding's square
    is zero). -/
theorem sq_apply (m : (ℓ : Loc nD τ sig) → Buf (Elt Ideal) ℓ) (ρ : Dev nD → PrngReg) (c : Dev nD)
    (b : Fin 16) (k : Fin 256) :
    (V4 (F := Ideal) m ρ c main_v5_1 : S16x256x1.Idx → EReal) (ix3 b k (0 : Fin 1))
      = Cert.Spec.chanSq (Cert.Spec.xOf (m ((c : Thread nD τ).loc main_arg0)) b) k := by
  have e : V4 (F := Ideal) m ρ c main_v5_1 = (dat0 (F := Ideal) (V3 m ρ) c).arrAt 2 cfg0.N := W4_arr m ρ c 2
  refine (congrFun e (ix3 b k (0 : Fin 1))).trans ?_
  refine (stats_sq (V3 m ρ) c b k).trans ?_
  unfold tiles
  refine (Cert.Spec.sum_tiles (fun s => padded (V3 m ρ) c (ix3 b k s) * padded (V3 m ρ) c (ix3 b k s)) ?_).trans ?_
  · intro s hs
    have e0 : padded (V3 (F := Ideal) m ρ) c (ix3 b k s) = 0 :=
      (padded_apply m ρ c b k s).trans (dif_neg (by omega))
    exact (congrArg₂ (· * ·) e0 e0).trans (mul_zero 0)
  · unfold Cert.Spec.chanSq
    refine Finset.sum_congr rfl fun s _ => ?_
    have e1 : padded (V3 (F := Ideal) m ρ) c (ix3 b k ⟨s.val, by have := s.isLt; omega⟩)
        = Cert.Spec.xOf (m ((c : Thread nD τ).loc main_arg0)) b k s :=
      (padded_apply m ρ c b k ⟨s.val, by have := s.isLt; omega⟩).trans (dif_pos s.isLt)
    exact congrArg₂ (· * ·) e1 e1

/-! ## The assembly -/

/-- One output entry depends on its seven ingredients only. -/
private theorem mix_congr_args {xs xs' S1 S1' S2 S2' g g' be be' w w' : Fin 256 → EReal} {bi bi' : EReal}
    (hx : xs = xs') (h1 : S1 = S1') (h2 : S2 = S2') (hg : g = g') (hb : be = be') (hw : w = w') (hbi : bi = bi') :
    Cert.Spec.mix xs (Cert.Spec.scale S1 S2 g) (Cert.Spec.shift S1 S2 g be) w bi
      = Cert.Spec.mix xs' (Cert.Spec.scale S1' S2' g') (Cert.Spec.shift S1' S2' g' be') w' bi' := by
  subst hx h1 h2 hg hb hw hbi
  rfl

/-- The result array at sample `b`, output channel `o`, row `h`, column `v`. -/
theorem ref_value (m : (ℓ : Loc nD τ sig) → Buf (Elt Ideal) ℓ) (ρ : Dev nD → PrngReg) (c : Dev nD)
    (b : Fin 16) (o : Fin 256) (h v : Fin 56) :
    W6 (F := Ideal) m ρ c (Proc.devRef .tc main_v8) (ix4 b o h v)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (ix4 b o h v) := by
  have hs : 56 * h.val + v.val < 3136 := by have := h.isLt; have := v.isLt; omega
  -- the host's tail reads region 1's output at position `56 h + v`, which is the mix of the region's inputs there
  refine (resultTail_apply m ρ c b o h v).trans ?_
  refine (applied_array (V4 m ρ) c b o ⟨56 * h.val + v.val, by omega⟩).trans ?_
  refine Eq.trans ?_ (Cert.Spec.result_ix4 _ _ _ _ _ b o h v).symm
  unfold Cert.Spec.sampleAt
  refine mix_congr_args ?_ ?_ ?_ ?_ ?_ ?_ ?_
  · funext k
    refine (congrFun (v1_V4 m ρ c) _).trans ?_
    refine (padded_apply m ρ c b k ⟨56 * h.val + v.val, by omega⟩).trans ?_
    exact dif_pos hs
  · funext k; exact sum_apply m ρ c b k
  · funext k; exact sq_apply m ρ c b k
  · funext k; exact gamma_apply m ρ c k
  · funext k; exact beta_apply m ρ c k
  · funext k; exact mat_apply m ρ c o k
  · exact bias_apply m ρ c o

end Cert.ReferenceIdeal.RefValue

end
-- ==== Proof.lean ====
/-
  A fused normalize-and-project kernel against a tiled two-pass reference, equal over the extended reals.

  Both programs take a batch of 16 samples of 256 channels of 56 x 56 entries, the per-channel parameters `γ`, `β`, a
  256 x 256 matrix and a bias, and return, per sample, the group-normalized channels (groups of 4; mean and mean of
  squares from the sums scaled by one shared constant, a shared additive constant under the reciprocal square root),
  scaled and shifted, mixed by the matrix, plus the bias: `Cert.Spec.result`.

  The kernel does it in one region, a sample per grid point, read as two halves of 128 channels through two windows of
  the one input array: the group sums come from a product with the one-hot group mask, the mix from the two K-halves of
  the matrix added. The reference pads the 3136 entries to 3200 with zeros and runs two regions over tiles of 640: the
  first accumulates each channel's sum and sum of squares, the second normalizes, mixes and adds the bias; the padding
  is sliced away. Over the extended reals a sum against a one-hot mask is the sum over the group, a sum splits into its
  halves and into tiles, and zeros add nothing, so both results are the one function of the arguments; no law used
  needs the inputs to be finite, and the precondition is never opened.

  The frames: the word-level and the idealized kernel share their text (the ideal pass rewrote nothing, so `preserves` is
  `True`), and their run is one proof at any float instance (the shared input array held at two half shares through
  the region); the reference's frame is its generated one.
-/
import proofs.«156338_g2000302674448580_pallasbulk_969_14_alg».proof.Defs
import proofs.«156338_g2000302674448580_pallasbulk_969_14_alg».proof.Proof.Gen.Kernel
import proofs.«156338_g2000302674448580_pallasbulk_969_14_alg».proof.Proof.Gen.KernelIdeal
import proofs.«156338_g2000302674448580_pallasbulk_969_14_alg».proof.Proof.Gen.ReferenceIdeal
import proofs.«156338_g2000302674448580_pallasbulk_969_14_alg».proof.Proof.Gen.ReferenceIdeal.Frame
import proofs.«156338_g2000302674448580_pallasbulk_969_14_alg».proof.Proof.Gen.Pre_finite_inputs
import proofs.«156338_g2000302674448580_pallasbulk_969_14_alg».proof.Proof.KernelFrame
import proofs.«156338_g2000302674448580_pallasbulk_969_14_alg».proof.Proof.KernelIdealFrame
import proofs.«156338_g2000302674448580_pallasbulk_969_14_alg».proof.Proof.KernelValue
import proofs.«156338_g2000302674448580_pallasbulk_969_14_alg».proof.Proof.RefRun
import proofs.«156338_g2000302674448580_pallasbulk_969_14_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_kernel : Cert.frame_Kernel := fun m ρ _ => Cert.Kernel.Hand.frame m ρ

/-- So does the idealized kernel (the same proof at the other instance). -/
theorem frame_kernelIdeal : Cert.frame_KernelIdeal := fun m ρ _ => Cert.KernelIdeal.Hand.frame m ρ

/-- The reference's frame is its generated one. -/
theorem frame_referenceIdeal : Cert.frame_ReferenceIdeal := fun m ρ _ => Cert.ReferenceIdeal.Gen.frame m ρ

/-- The ideal pass rewrote no operation. -/
theorem preserves : Cert.preserves_Kernel_KernelIdeal := trivial

/-- Both idealized programs end with the result buffer at the specification's `result` of the arguments, and the
    arguments as launched; the reference's arguments agree with the kernel's. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Hand.run (F := Ideal) m ρ)
    · refine (h c _ (Cert.KernelIdeal.Hand.mem_uc Cert.KernelIdeal.main_v9 (by decide))).trans (funext fun i => ?_)
      rw [eq_ix4 i]
      exact Cert.KernelIdeal.Value.kernel_value m ρ c (i 0) (i 1) (i 2) (i 3)
    · exact (h c _ (Cert.KernelIdeal.Hand.mem_uc Cert.KernelIdeal.main_arg0 (by decide))).trans (Cert.KernelIdeal.Hand.W3_main_arg0 m ρ c)
    · exact (h c _ (Cert.KernelIdeal.Hand.mem_uc Cert.KernelIdeal.main_arg1 (by decide))).trans (Cert.KernelIdeal.Hand.W3_main_arg1 m ρ c)
    · exact (h c _ (Cert.KernelIdeal.Hand.mem_uc Cert.KernelIdeal.main_arg2 (by decide))).trans (Cert.KernelIdeal.Hand.W3_main_arg2 m ρ c)
    · exact (h c _ (Cert.KernelIdeal.Hand.mem_uc Cert.KernelIdeal.main_arg3 (by decide))).trans (Cert.KernelIdeal.Hand.W3_main_arg3 m ρ c)
    · exact (h c _ (Cert.KernelIdeal.Hand.mem_uc Cert.KernelIdeal.main_arg4 (by decide))).trans (Cert.KernelIdeal.Hand.W3_main_arg4 m ρ c)
  · refine (θ_run Cert.ReferenceIdeal.defs _ _).mono (fun r h c => ⟨?_, ?_, ?_, ?_, ?_, ?_⟩) (Cert.ReferenceIdeal.GenP.run (F := Ideal) m' ρ')
    · refine (h c _ (Cert.ReferenceIdeal.Gen.mem_uc Cert.ReferenceIdeal.main_v8 (by decide))).trans (funext fun i => ?_)
      rw [eq_ix4 i]
      refine (Cert.ReferenceIdeal.RefValue.ref_value m' ρ' c (i 0) (i 1) (i 2) (i 3)).trans ?_
      rw [(hagree c).1, (hagree c).2.1, (hagree c).2.2.1, (hagree c).2.2.2.1, (hagree c).2.2.2.2]
      rfl
    · exact (h c _ (Cert.ReferenceIdeal.Gen.mem_uc Cert.ReferenceIdeal.main_arg0 (by decide))).trans (Cert.ReferenceIdeal.Gen.W6_main_arg0 m' ρ' c)
    · exact (h c _ (Cert.ReferenceIdeal.Gen.mem_uc Cert.ReferenceIdeal.main_arg1 (by decide))).trans (Cert.ReferenceIdeal.Gen.W6_main_arg1 m' ρ' c)
    · exact (h c _ (Cert.ReferenceIdeal.Gen.mem_uc Cert.ReferenceIdeal.main_arg2 (by decide))).trans (Cert.ReferenceIdeal.Gen.W6_main_arg2 m' ρ' c)
    · exact (h c _ (Cert.ReferenceIdeal.Gen.mem_uc Cert.ReferenceIdeal.main_arg3 (by decide))).trans (Cert.ReferenceIdeal.Gen.W6_main_arg3 m' ρ' c)
    · exact (h c _ (Cert.ReferenceIdeal.Gen.mem_uc Cert.ReferenceIdeal.main_arg4 (by decide))).trans (Cert.ReferenceIdeal.Gen.W6_main_arg4 m' ρ' c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
